-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x1024 : Shape := ⟨2, ![1024, 1024]⟩
abbrev S102x1 : Shape := ⟨2, ![102, 1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S102x1 : S_.BroadcastsInDim S102x1 (![] : Fin 0 → Fin S102x1.rank)
  reducesTo_S102x1_S_d0_1 : S102x1.ReducesTo [0, 1] S_

variable [Facts]

def fn_part1 {F : FTy → Type} [FloatOps F] (main_arg5 : FVec F S102x1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S102x1 .f32 := Host.absf main_arg5
  let main_cst_6 : FVec F S_ .f32 := constant S_ .f32 0x7F800000#32
  let main_v20 : FVec F S102x1 .f32 := broadcastInDim S102x1 ![] bcast_S_S102x1 main_cst_6
  let main_v21 : IVec S102x1 1 := cmpf .olt main_v19 main_v20
  let main_c_7 : IVec S_ 1 := constantI S_ 1 1#1
  let main_v22 : IVec S_ 1 := (fun x v => Host.reduce IntOp.andi x v reducesTo_S102x1_S_d0_1 h_S_) main_v21 main_c_7
  let main_v23 : IVec S_ 1 := andi main_v18 main_v22
  main_v23

def fn {F : FTy → Type} [FloatOps F] (main_arg0 : FVec F S8192x1024 .f32) (main_arg1 : IVec S8192x8192 32) (main_arg2 : FVec F S1024x1024 .f32) (main_arg3 : FVec F S1024x1024 .f32) (main_arg4 : FVec F S1024x1024 .f32) (main_arg5 : FVec F S102x1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S102x1 : Shape := ⟨2, ![102, 1]⟩
abbrev S102 : Shape := ⟨1, ![102]⟩
abbrev S_ : Shape := ⟨0, ![]⟩
abbrev S8192x8192x1 : Shape := ⟨3, ![8192, 8192, 1]⟩
abbrev S512x1024 : Shape := ⟨2, ![512, 1024]⟩
abbrev S1024x512 : Shape := ⟨2, ![1024, 512]⟩
abbrev S1024x1 : Shape := ⟨2, ![1024, 1]⟩
abbrev S1024 : Shape := ⟨1, ![1024]⟩

abbrev nBuf : Space → Nat
  | .hbm => 27
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x8192, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S102x1, .f32⟩
  | .hbm, ⟨6, _⟩ => ⟨S102, .f32⟩
  | .hbm, ⟨7, _⟩ => ⟨S_, .i32⟩
  | .hbm, ⟨8, _⟩ => ⟨S8192x8192, .i32⟩
  | .hbm, ⟨9, _⟩ => ⟨S8192x8192, .i1⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S8192x8192x1, .i32⟩
  | .hbm, ⟨15, _⟩ => ⟨S8192x8192, .f32⟩
  | .hbm, ⟨16, _⟩ => ⟨S8192x1024, .bf16⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x512, .f32⟩
  | .local _ .vmem, ⟨18, _⟩ => ⟨S1024x512, .f32⟩
  | .local _ .vmem, ⟨19, _⟩ => ⟨S1024x1024, .f32⟩
  | .local _ .vmem, ⟨20, _⟩ => ⟨S1024x1024, .f32⟩
  | .local _ .vmem, ⟨21, _⟩ => ⟨S1024x1, .f32⟩
  | .local _ .vmem, ⟨22, _⟩ => ⟨S1024x1, .f32⟩
  | .local _ .vmem, ⟨23, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_25 : BitVec 32 := 0#32
  let v46 : BitVec 1 := Scalar.cmpi .ne v45 c0_i32_25
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S102x1_S102 : S102x1.ShapeCasts S102
  bcast_S_S8192x8192 : S_.BroadcastsInDim S8192x8192 (![] : Fin 0 → Fin S8192x8192.rank)
  bcast_S8192x8192_S8192x8192x1_0_1 : S8192x8192.BroadcastsInDim S8192x8192x1 (![0, 1] : Fin 2 → Fin S8192x8192x1.rank)
  bitsLt_bf16_f32 : FTy.bits .bf16 < FTy.bits .f32
  bcast_S_S1024x1024 : S_.BroadcastsInDim S1024x1024 (![] : Fin 0 → Fin S1024x1024.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  gather_S102_S8192x8192x1_S8192x8192_n_0_n_n_0_2_1_wf : GatherDims.WF S102 S8192x8192x1 S8192x8192 [] [0] [] [0] [] 2 ![1]
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .bf16 = 32 ∨ (Rect.block (s := S8192x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x8192.size a
  hwx1_3 : ∀ i : grid1.Coords, EltTy.bits .f32 = 32 ∨ (Rect.block (s := S8192x8192) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x1024.size a
  hwx1_4 : ∀ i : grid1.Coords, EltTy.bits .f32 = 32 ∨ (Rect.block (s := S8192x1024) S1024x1024.size (cc1_transform_4 i) (hinb1_4 i)).WholeWords (EltTy.packing .f32)

variable [Facts₀]

def gather_S102_S8192x8192x1_S8192x8192_n_0_n_n_0_2_1 : GatherDims S102 S8192x8192x1 S8192x8192 where
  offsetDims := []
  collapsedSliceDims := [0]
  operandBatchingDims := []
  startIndicesBatchingDims := []
  startIndexMap := [0]
  indexVectorDim := 2
  sliceSizes := ![1]
  wf := gather_S102_S8192x8192x1_S8192x8192_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x1024 : Shape := ⟨2, ![1024, 1024]⟩
abbrev S102x1 : Shape := ⟨2, ![102, 1]⟩
abbrev S_ : Shape := ⟨0, ![]⟩
abbrev S8192x8192x1 : Shape := ⟨3, ![8192, 8192, 1]⟩
abbrev S8192x8192x2 : Shape := ⟨3, ![8192, 8192, 2]⟩
abbrev S1024x8192 : Shape := ⟨2, ![1024, 8192]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S102x1, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .i32⟩
  | .hbm, ⟨10, _⟩ => ⟨S8192x8192, .i32⟩
  | .hbm, ⟨11, _⟩ => ⟨S8192x8192, .i1⟩
  | .hbm, ⟨12, _⟩ => ⟨S_, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192x1, .i32⟩
  | .hbm, ⟨20, _⟩ => ⟨S8192x8192x1, .i32⟩
  | .hbm, ⟨21, _⟩ => ⟨S8192x8192x2, .i32⟩
  | .hbm, ⟨22, _⟩ => ⟨S8192x8192, .f32⟩
  | .hbm, ⟨23, _⟩ => ⟨S1024x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192x8192_S8192x8192x1_0_1 : S8192x8192.BroadcastsInDim S8192x8192x1 (![0, 1] : Fin 2 → Fin S8192x8192x1.rank)
  concatenates_S8192x8192x1_S8192x8192x1_S8192x8192x2_d2 : Shape.Concatenates [S8192x8192x1, S8192x8192x1] S8192x8192x2 2
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  gather_S102x1_S8192x8192x2_S8192x8192_n_01_n_n_01_2_11_wf : GatherDims.WF S102x1 S8192x8192x2 S8192x8192 [] [0, 1] [] [0, 1] [] 2 ![1, 1]
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def gather_S102x1_S8192x8192x2_S8192x8192_n_01_n_n_01_2_11 : GatherDims S102x1 S8192x8192x2 S8192x8192 where
  offsetDims := []
  collapsedSliceDims := [0, 1]
  operandBatchingDims := []
  startIndicesBatchingDims := []
  startIndexMap := [0, 1]
  indexVectorDim := 2
  sliceSizes := ![1, 1]
  wf := gather_S102x1_S8192x8192x2_S8192x8192_n_01_n_n_01_2_11_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KB.RegA.lean ====
/- The class-A half of custom_call 0 (`cc0__proj_kernel`) at a parameter `V`, the TensorCore's buffer
   contents when the region is entered: each window's block at a point, what the body leaves in each of its three
   output windows' buffers as the canon of its one store over the input blocks, the body's triple, the proof data
   and the body obligation. Generic in the float instance. -/
import proofs.«418636_j9964324127022_3_alg».proof.Proof.Gen.Kernel.Launch
import proofs.«418636_j9964324127022_3_alg».proof.Proof.Gen.Kernel.Skeleton
import proofs.«418636_j9964324127022_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any
    proof data whose array is `V`'s (`hA`) and whose body leaves the block in place (`hafter`): unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (it is fetched at the first point only), for any
    proof data whose array is `V`'s (`hA`) and whose body leaves the block in place (`hafter`): unfetched, the
    block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (it is fetched at the first point only), for any
    proof data whose array is `V`'s (`hA`) and whose body leaves the block in place (`hafter`): unfetched, the
    block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (it is fetched at the first point only), for any
    proof data whose array is `V`'s (`hA`) and whose body leaves the block in place (`hafter`): unfetched, the
    block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0 : Rect S1024x1024 := Rect.unit (s := S1024x1024) ![0, 0] S1024x1024.size inb_S1024x1024_S1024x1024_0_0

/-! ## What the body leaves in each output window's buffer -/

/-- Window 4's staging buffer after the body, from the input windows' blocks: its one store as a piece; the
    payload is the skeleton's (the row block times the first weight array, rounded). -/
def out0_4 (x0 x1 : Vec F S1024x1024 .bf16) : Vec F S1024x1024 .bf16 :=
  View.canon [⟨r0, k0_pay2 (View.ld x0 r0) (View.ld x1 r0)⟩]

/-- Window 5's staging buffer after the body: the row block times the second weight array, rounded. -/
def out0_5 (x0 x2 : Vec F S1024x1024 .bf16) : Vec F S1024x1024 .bf16 :=
  View.canon [⟨r0, k0_pay3 (View.ld x0 r0) (View.ld x2 r0)⟩]

/-- Window 6's staging buffer after the body: the row block times the third weight array, rounded. -/
def out0_6 (x0 x3 : Vec F S1024x1024 .bf16) : Vec F S1024x1024 .bf16 :=
  View.canon [⟨r0, k0_pay4 (View.ld x0 r0) (View.ld x3 r0)⟩]

/-- One store of the whole block tiles the buffer (checked by evaluation), so it covers it. -/
theorem cover0_4 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y
theorem cover0_5 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y
theorem cover0_6 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The kernel body on whole staging memrefs, the inputs' at read contents `xW` and the outputs' at anything, runs to
    the continuation holding the inputs' as they were and each output's at `out0_W` of the inputs': the printed
    function is its skeleton; each output buffer is loaded once before its store, and the value read is used nowhere. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Steps.lean ====
/-
  Region 1 (the attention kernel), point by point, as pure functions of the blocks the point is handed.

  The kernel walks the grid `t = 16 qi + ki`. It carries three scratch arrays between points: the running shift
  (one column per query row), the running normaliser and the running accumulator. At `ki = 0` it resets them (a large
  negative shift, zeros), then at every point updates them from the point's query block, key block, value block and bias
  block; at `ki = 15` it stores accumulator / normaliser into the output block. `stepM`, `stepL`, `stepA` are one
  update, written over the body's own named payloads; `st1` is the carried triple after point `n`.
-/
import proofs.«418636_j9964324127022_3_alg».proof.Proof.Gen.Kernel.Launch
import proofs.«418636_j9964324127022_3_alg».proof.Proof.Gen.Kernel.Skeleton
import proofs.«418636_j9964324127022_3_alg».proof.Proof.Gen.Kernel.Points

noncomputable section

namespace Cert.Kernel.Hand

open Idealize.ShloMosaic Idealize.ShloMosaic.TcCoe Idealize.SL.Sem Cert.Kernel Cert.Kernel.Gen

variable {F : FTy → Type} [FloatOps F]

/-- The shift after one update: the larger of the shift before and the block's row maxima. -/
def stepM (q : Vec F S1024x1024 .bf16) (kb : Vec F S512x1024 .bf16) (bias : Vec F S1024x512 .f32)
    (m0 : Vec F S1024x1 .f32) : Vec F S1024x1 .f32 :=
  k1_pay2 (k1_pay9 q kb bias m0)

/-- The normaliser after one update: rescaled by the change of shift, plus the block's row sums of weights. -/
def stepL (q : Vec F S1024x1024 .bf16) (kb : Vec F S512x1024 .bf16) (bias : Vec F S1024x512 .f32)
    (m0 l0 : Vec F S1024x1 .f32) : Vec F S1024x1 .f32 :=
  k1_pay12 q kb bias m0 m0 l0

/-- The accumulator after one update: rescaled, plus the block's weights times the value block. -/
def stepA (q : Vec F S1024x1024 .bf16) (kb vb : Vec F S512x1024 .bf16) (bias : Vec F S1024x512 .f32)
    (m0 : Vec F S1024x1 .f32) (a0 : Vec F S1024x1024 .f32) : Vec F S1024x1024 .f32 :=
  k1_pay1 (k1_pay7 vb) (k1_pay10 q kb bias m0 m0) (k1_pay11 q kb bias m0) a0

/-- What the last point of a row of the grid stores: accumulator over normaliser. -/
def outOf (a : Vec F S1024x1024 .f32) (l : Vec F S1024x1 .f32) : Vec F S1024x1024 .f32 := k1_pay3 a l

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One update from the carried triple `s` with the blocks of point `t`. -/
def step1 (c : Dev nD) (t : Fin cfg1.N) (s : Vec F S1024x1 .f32 × Vec F S1024x1 .f32 × Vec F S1024x1024 .f32) :
    Vec F S1024x1 .f32 × Vec F S1024x1 .f32 × Vec F S1024x1024 .f32 :=
  (stepM (iblk1 V c 0 t) (iblk1 V c 1 t) (iblk1 V c 3 t) s.1,
   stepL (iblk1 V c 0 t) (iblk1 V c 1 t) (iblk1 V c 3 t) s.1 s.2.1,
   stepA (iblk1 V c 0 t) (iblk1 V c 1 t) (iblk1 V c 2 t) (iblk1 V c 3 t) s.1 s.2.2)

/-- The reset triple: the large negative shift, zero normaliser, zero accumulator. -/
def init1 : Vec F S1024x1 .f32 × Vec F S1024x1 .f32 × Vec F S1024x1024 .f32 :=
  (k1_pay4 (F := F), k1_pay5 (F := F), k1_pay6 (F := F))

/-- The carried triple (shift, normaliser, accumulator) after point `n`: reset at the points ≡ 0 (mod 16), then updated. -/
def st1 (c : Dev nD) : (n : ℕ) → n < cfg1.N → Vec F S1024x1 .f32 × Vec F S1024x1 .f32 × Vec F S1024x1024 .f32
  | 0, hn => step1 V c ⟨0, hn⟩ init1
  | n + 1, hn => if (n + 1) % 16 = 0 then step1 V c ⟨n + 1, hn⟩ init1
      else step1 V c ⟨n + 1, hn⟩ (st1 c n (Nat.lt_of_succ_lt hn))

theorem st1_reset (c : Dev nD) (t : Fin cfg1.N) (h : t.val % 16 = 0) :
    st1 V c t.val t.isLt = step1 V c t init1 := by
  obtain ⟨n, hn⟩ := t
  cases n with
  | zero => rfl
  | succ n => exact if_pos h

theorem st1_step (c : Dev nD) (t : Fin cfg1.N) (h : ¬t.val % 16 = 0) :
    st1 V c t.val t.isLt = step1 V c t (st1 V c (t.val - 1) (Nat.lt_of_le_of_lt (Nat.sub_le _ _) t.isLt)) := by
  obtain ⟨n, hn⟩ := t
  cases n with
  | zero => exact absurd (Nat.zero_mod _) h
  | succ n => exact if_neg h

end Cert.Kernel.Hand

end
-- ==== Proof.KB.RegBRuns.lean ====
/-
  Region 1 (the attention kernel): what its runs share, and the body's triple in each of the three cases its two
  conditionals meet on the grid.

  The body branches twice on the second grid coordinate: it resets its three scratch arrays where that is 0, and stores
  the output block where that is 15. On the grid `t = 16 qi + ki` three assignments occur: A (reset, no output store) at
  `t ≡ 0`, C (no reset, output store) at `t ≡ 15`, B (neither) elsewhere. For each, the body's triple on whole memrefs is a
  subtype: the pieces each buffer ends with are the witness, found when the run hands the buffer to the continuation.
-/
import proofs.«418636_j9964324127022_3_alg».proof.Proof.KB.Steps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's first `scf.if` (the reset under `ki == 0`), from the grid coordinates: the skeleton's
    scalar chain substituted. -/
abbrev cond1_0 (i : grid1.Coords) : Prop := (Scalar.cmpi .ne (Scalar.extui (Scalar.cmpi .eq (BitVec.ofNat 32 (i 1).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the output's store under `ki == 15`). -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle (the configuration's table `Cfg.idle`) -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the points of case A the output is idle: the case stores nothing into it, -/
theorem idleAt1_4_A : ∀ t : Fin cfg1.N, cond1_0 (grid1.coords t) → ¬cond1_1 (grid1.coords t) → cfg1.idle 4 (grid1.coords t) = true := by decide +kernel
/-- and the pipeline does not write its block back there. -/
theorem noFlush1_4_A : ∀ t : Fin cfg1.N, cond1_0 (grid1.coords t) → ¬cond1_1 (grid1.coords t) → (cfg1.win 4).flush t = false := by decide +kernel
/-- The same at the points of case B. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the points of case C the output is live: the case stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S1024x1024 .f32 := (Memref.whole cc1_stg4_0 : Memref sig .tc .vmem S1024x1024 .f32).view
/-- Each window's current staging memref at point `t`, spelled as the pipeline passes it (`bodyAt1`), and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- The scratch arrays the kernel carries between points, as views: what they hold is stated through them. -/
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region's invariant, opened -/

/-- The core's scoped buffers that are neither a staging buffer of this region nor its scratch — the eleven staging
    buffers of the region before —, each whole at some contents: the body never names them, the invariant carries them. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class's invariant with the scratch operands as memrefs owned at some contents and the other scoped buffers
    folded: what the body obligation hands the run and takes back. -/
theorem PhiA1_eq (c : Dev nD) :
    (Pipeline.ΦA spec1 c : sProp 𝕄)
      = iprop(iprop(rest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; unfold rest1
  refine BI.equiv_iff.mp ⟨?_, ?_⟩
  · show (_ : sProp 𝕄) ⊢ (_ : sProp 𝕄)
    iintro ⟨⟨B0, B1, B2, B3, B4, B5, B6, B7, B8, B9, B10, S0, S1, S2⟩, Hg⟩
    isplitr [Hg]
    swap; · iexact Hg
    isplitr [S0 S1 S2]
    swap
    · isplitl [S0]; · iexact S0
      isplitl [S1]; · iexact S1
      iexact S2
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  · show (_ : sProp 𝕄) ⊢ (_ : sProp 𝕄)
    iintro ⟨⟨⟨B0, B1, B2, B3, B4, B5, B6, B7, B8, B9, B10⟩, S0, S1, S2⟩, Hg⟩
    isplitr [Hg]
    swap; · iexact Hg
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [S0]; · iexact S0
    isplitl [S1]; · iexact S1
    iexact S2

/-! ## The kernel body on any staging memrefs: a subtype the run finds, one per case of its two conditionals -/

-- (the run's proof term is large: the definition's epilogue walks it past the default budget)
set_option maxHeartbeats 4000000 in
/-- CASE A (the points ≡ 0 mod 16: the reset taken, the output's store not). What the body's stores leave in each
    scratch array, as pieces (last first), WITH the proof that on whole memrefs — the four inputs' at their contents, the
    output's at contents `xi4` handed back untouched (the case stores nothing into it), the three scratch arrays at
    anything (the reset overwrites them before anything reads them) — the body runs to the continuation holding the inputs'
    as they were and each scratch array with its pieces written. The pieces are the witness the run finds. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- CASE B (the points ≢ 0, 15 mod 16: neither branch taken). As case A, the three scratch arrays now at the contents
    the point before left (`xs0`, `xs1`, `xs2`), which the body reads. -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- CASE C (the points ≡ 15 mod 16: the reset not taken, the output's store taken). The scratch arrays in at the
    contents the point before left; the output's memref in at anything, out with its pieces written (`L4`). -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.KB.RegB.lean ====
/-
  Region 1 (the attention kernel), its class-R half at the entry contents `V`: what each case of the body leaves in the
  scratch arrays and in the output's buffer (the pieces the runs found, read back), what they hold point by point
  (`outsAt1`), the region's invariant point by point (`PhiS`), the pipeline's proof data (`dat1`), the body obligation,
  and the two entailments between the class's invariant and ours at the region's ends.

  Unlike a kernel that resets its scratch once, this one resets at every point ≡ 0 (mod 16): from the second such point
  on the invariant hands the reset case the scratch arrays at the contents the point before left, and the case — stated
  for scratch at anything — takes them by forgetting those contents.
-/
import proofs.«418636_j9964324127022_3_alg».proof.Proof.KB.RegBRuns

-- membership in a rectangle of large extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' blocks -/

/-- Input window 0's current staging buffer holds its block at every point, fetched there or not, for any proof data
    whose array is `V`'s (`hA`) and whose body leaves the block in place (`hafter`): unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): unfetched, the index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch arrays and in the output's buffer -/

/-- Case A stores nothing into the output (the window is idle at its points and not written back there): no pieces —
    a placeholder (junk read back) that nothing consults. -/
def out1_A_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1024 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's pieces for scratch `arg7` (the running shift) cover it. -/
theorem scover1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch `arg7`: its pieces read back over junk. -/
def sout1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's pieces for scratch `arg8` (the running normaliser) cover it. -/
theorem scover1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch `arg8`: its pieces read back over junk. -/
def sout1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's pieces for scratch `arg9` (the running accumulator) cover it. -/
theorem scover1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1024.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x1024.size (by sl_kernel_rfl) y

/-- What case A leaves in scratch `arg9`: its pieces read back over junk. -/
def sout1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1024 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- Case B stores nothing into the output (the window is idle at its points and not written back there): no pieces —
    a placeholder (junk read back) that nothing consults. -/
def out1_B_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's pieces for scratch `arg7` (the running shift) cover it. -/
theorem scover1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch `arg7`: its pieces read back over junk. -/
def sout1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's pieces for scratch `arg8` (the running normaliser) cover it. -/
theorem scover1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch `arg8`: its pieces read back over junk. -/
def sout1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's pieces for scratch `arg9` (the running accumulator) cover it. -/
theorem scover1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case B leaves in scratch `arg9`: its pieces read back over junk. -/
def sout1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's pieces for the output tile its block, so they cover it. -/
theorem cover1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x1024.size (by sl_kernel_rfl) y

/-- What case C leaves in the output's staging buffer: its pieces read back over junk. -/
def out1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's pieces for scratch `arg7` (the running shift) cover it. -/
theorem scover1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch `arg7`: its pieces read back over junk. -/
def sout1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's pieces for scratch `arg8` (the running normaliser) cover it. -/
theorem scover1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch `arg8`: its pieces read back over junk. -/
def sout1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's pieces for scratch `arg9` (the running accumulator) cover it. -/
theorem scover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case C leaves in scratch `arg9`: its pieces read back over junk. -/
def sout1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## The cases at a point of the grid -/

/-- Case A at point `t`: the output's buffer, then the three scratch arrays, after the body — run at the point's memrefs and
    input blocks (the scratch arrays' contents before do not matter: the reset overwrites them). -/
def ptA (c : Dev nD) (t : Fin cfg1.N) (h0 : t.val % 16 = 0) (h1 : ¬t.val % 16 = 15) : Vec F S1024x1024 .f32 × Vec F S1024x1 .f32 × Vec F S1024x1 .f32 × Vec F S1024x1024 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))

/-- Case B at point `t`, the scratch arrays before the body at `s`. -/
def ptB (c : Dev nD) (t : Fin cfg1.N) (h0 : ¬t.val % 16 = 0) (h1 : ¬t.val % 16 = 15) (s : Vec F S1024x1 .f32 × Vec F S1024x1 .f32 × Vec F S1024x1024 .f32) : Vec F S1024x1024 .f32 × Vec F S1024x1 .f32 × Vec F S1024x1 .f32 × Vec F S1024x1024 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2)

/-- Case C at point `t`, the scratch arrays before the body at `s`. -/
def ptC (c : Dev nD) (t : Fin cfg1.N) (h0 : ¬t.val % 16 = 0) (h1 : t.val % 16 = 15) (s : Vec F S1024x1 .f32 × Vec F S1024x1 .f32 × Vec F S1024x1024 .f32) : Vec F S1024x1024 .f32 × Vec F S1024x1 .f32 × Vec F S1024x1 .f32 × Vec F S1024x1024 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2)

/-! ## What the output's buffer and the scratch arrays hold after each point -/

/-- THE ACCUMULATION. What the output's staging buffer and the three scratch arrays hold after the body at position `n`
    (the output's buffer first, then the shift, the normaliser, the accumulator): the case the closed forms select at
    `n`, run at the point's memrefs and input blocks, cases B and C over what the point before left in the scratch arrays.
    The two conditions never hold together (`False.elim`). -/
def outsAt1 (c : Dev nD) : (n : ℕ) → n < cfg1.N → Vec F S1024x1024 .f32 × Vec F S1024x1 .f32 × Vec F S1024x1 .f32 × Vec F S1024x1024 .f32
  | 0, hn => ptA V c ⟨0, hn⟩ (Nat.zero_mod _) (show ¬0 % 16 = 15 by decide)
  | n + 1, hn =>
    if h0 : (n + 1) % 16 = 0 then
      if h1 : (n + 1) % 16 = 15 then False.elim (by omega)
      else ptA V c ⟨n + 1, hn⟩ h0 h1
    else
      if h1 : (n + 1) % 16 = 15 then ptC V c ⟨n + 1, hn⟩ h0 h1 (outsAt1 c n (Nat.lt_of_succ_lt hn)).2
      else ptB V c ⟨n + 1, hn⟩ h0 h1 (outsAt1 c n (Nat.lt_of_succ_lt hn)).2

/-- `outsAt1` at a point of case A: that case's contents. -/
theorem outsAt1_A (c : Dev nD) (t : Fin cfg1.N) (h0 : t.val % 16 = 0) (h1 : ¬t.val % 16 = 15) :
    outsAt1 V c t.val t.isLt = ptA V c t h0 h1 := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant, point by point -/

/-- The invariant before position `n`: before the first point the class's (every scratch array at anything); afterwards
    the three scratch arrays at what the point before left in them (`outsAt1`'s components), the region-before's staging
    buffers at anything, the generator register at some state. -/
def PhiS (c : Dev nD) : (n : ℕ) → n ≤ cfg1.N → sProp 𝕄
  | 0, _ => Pipeline.ΦA spec1 c
  | n + 1, hn => iprop(iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch arrays at that point's contents. -/
theorem PhiS_succ (c : Dev nD) (n : ℕ) (hn : n < cfg1.N) :
    PhiS V c (n + 1) hn = iprop(iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the scratch arrays at what the point before left. -/
theorem PhiS_pos (c : Dev nD) (n : ℕ) (h : n ≤ cfg1.N) (hz : n ≠ 0) :
    PhiS V c n h = iprop(iprop(rest1 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the region's pipeline on core `c`: the arrays as the region finds them (`V`); after the body at point
    `t` each input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks (`before1_W`); the closed forms say which case the point
    is in; that case's run applies. The invariant hands the body the three scratch arrays — at what the point before left,
    or at anything before the first point; case A takes them at anything in either event, its reset overwriting them — and
    takes them back at this point's contents (by the covers); the region-before's staging buffers and the generator
    register ride along; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · by_cases h1 : t.val % 16 = 15
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold ptA sout1_A_0 sout1_A_1 sout1_A_2; (try dsimp only)
      by_cases hz : t.val = 0
      · rw [PhiS_castSucc V c t, PhiS_zero V c _ _ hz, PhiA1_eq]
        iintro ⟨⟨⟨Hrest, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hrest HS0 HS1 HS2 Hg]
        · isplitr [Hg]
          swap; · iexact Hg
          isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨Hrest, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hrest HS0 HS1 HS2 Hg]
        · isplitr [Hg]
          swap; · iexact Hg
          isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold ptC out1_C_4 sout1_C_0 sout1_C_1 sout1_C_2; (try dsimp only)
      rw [PhiS_castSucc V c t, PhiS_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [Hrest HS0 HS1 HS2 Hg]
      · isplitr [Hg]
        swap; · iexact Hg
        isplitl [Hrest]; · iexact Hrest
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold ptB sout1_B_0 sout1_B_1 sout1_B_2; (try dsimp only)
      rw [PhiS_castSucc V c t, PhiS_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [Hrest HS0 HS1 HS2 Hg]
      · isplitr [Hg]
        swap; · iexact Hg
        isplitl [Hrest]; · iexact Hrest
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch arrays' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hrest, HS0, HS1, HS2⟩, Hg⟩
  isplitr [Hg]
  swap; · iexact Hg
  isplitl [Hrest]; · iexact Hrest
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KB.Run.lean ====
/-
  @main as three segments — the host stretch, the projection call, the attention call — and the launch over them.
  Between two segments core `c` holds every unscoped buffer whole at `WJ c`: the launch memory, then the host
  operations applied, then after each call its arrays at what its write-backs leave and every other buffer as before.
  Each call is a region whose arrays are split out of the unscoped buffers on entry and put back on exit; the
  generator register and the scoped buffers no window stages enter the region's invariant and come back (for the
  attention call the invariant also names what the carried scratch holds between points). The run's post reads every
  unscoped buffer off the last valuation; the frame claim and the result array are read from it.
-/
import proofs.«418636_j9964324127022_3_alg».proof.Proof.KB.RegA
import proofs.«418636_j9964324127022_3_alg».proof.Proof.KB.RegB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the attention call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left at the contents after it.
    Its arrays are split out of the unscoped buffers and put back at what the pipeline leaves in them; the generator
    register and the scoped buffers no window stages go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it.
    Its arrays are split out of the unscoped buffers and put back at what the pipeline leaves in them; the generator
    register and the scoped buffers no window stages go into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop(Pipeline.scopedRest spec1 c ∗ ∃ r, prngReg c r) ⊢ ((dat1 (V2 m ρ) c).Φ 0 : sProp 𝕄) := by
      have h := hin1 (V2 m ρ) c; unfold Pipeline.ΦA at h; exact h
    rw [show (pdats m ρ 1 c).Φ 0 = (dat1 (V2 m ρ) c).Φ 0 from rfl]
    iintro ⟨Hp, -, Hr⟩
    iapply h1
    isplitl [Hr]; · iexact Hr
    iexact Hp
  hout c := by
    have h1 : ((dat1 (V2 m ρ) c).Φ (Fin.last cfg1.N) : sProp 𝕄) ⊢ iprop(Pipeline.scopedRest spec1 c ∗ ∃ r, prngReg c r) := by
      have h := hout1 (V2 m ρ) c; unfold Pipeline.ΦA at h; exact h
    rw [Pipeline.ownSems0_none, show (pdats m ρ 1 c).Φ (Fin.last _) = (dat1 (V2 m ρ) c).Φ (Fin.last cfg1.N) from rfl]
    exact h1.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of core `c` at `W3 c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_main m ρ)

/-- The result array after the run: what the attention call's write-backs leave in it. -/
theorem W3_result (c : Dev nD) : W3 m ρ c (Proc.devRef .tc main_v15) = (dat1 (V2 m ρ) c).arrAt 4 cfg1.N :=
  W3_arr m ρ c 4

end Cert.Kernel.Hand

end
-- ==== Proof.KI.RegA.lean ====
/- The class-A half of custom_call 0 (`cc0__proj_kernel`) at a parameter `V`, the TensorCore's buffer
   contents when the region is entered: each window's block at a point, what the body leaves in each of its three
   output windows' buffers as the canon of its one store over the input blocks, the body's triple, the proof data
   and the body obligation. Generic in the float instance. -/
import proofs.«418636_j9964324127022_3_alg».proof.Proof.Gen.KernelIdeal.Launch
import proofs.«418636_j9964324127022_3_alg».proof.Proof.Gen.KernelIdeal.Skeleton
import proofs.«418636_j9964324127022_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any
    proof data whose array is `V`'s (`hA`) and whose body leaves the block in place (`hafter`): unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (it is fetched at the first point only), for any
    proof data whose array is `V`'s (`hA`) and whose body leaves the block in place (`hafter`): unfetched, the
    block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (it is fetched at the first point only), for any
    proof data whose array is `V`'s (`hA`) and whose body leaves the block in place (`hafter`): unfetched, the
    block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (it is fetched at the first point only), for any
    proof data whose array is `V`'s (`hA`) and whose body leaves the block in place (`hafter`): unfetched, the
    block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0 : Rect S1024x1024 := Rect.unit (s := S1024x1024) ![0, 0] S1024x1024.size inb_S1024x1024_S1024x1024_0_0

/-! ## What the body leaves in each output window's buffer -/

/-- Window 4's staging buffer after the body, from the input windows' blocks: its one store as a piece; the
    payload is the skeleton's (the row block times the first weight array, rounded). -/
def out0_4 (x0 x1 : Vec F S1024x1024 .bf16) : Vec F S1024x1024 .bf16 :=
  View.canon [⟨r0, k0_pay2 (View.ld x0 r0) (View.ld x1 r0)⟩]

/-- Window 5's staging buffer after the body: the row block times the second weight array, rounded. -/
def out0_5 (x0 x2 : Vec F S1024x1024 .bf16) : Vec F S1024x1024 .bf16 :=
  View.canon [⟨r0, k0_pay3 (View.ld x0 r0) (View.ld x2 r0)⟩]

/-- Window 6's staging buffer after the body: the row block times the third weight array, rounded. -/
def out0_6 (x0 x3 : Vec F S1024x1024 .bf16) : Vec F S1024x1024 .bf16 :=
  View.canon [⟨r0, k0_pay4 (View.ld x0 r0) (View.ld x3 r0)⟩]

/-- One store of the whole block tiles the buffer (checked by evaluation), so it covers it. -/
theorem cover0_4 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y
theorem cover0_5 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y
theorem cover0_6 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The kernel body on whole staging memrefs, the inputs' at read contents `xW` and the outputs' at anything, runs to
    the continuation holding the inputs' as they were and each output's at `out0_W` of the inputs': the printed
    function is its skeleton; each output buffer is loaded once before its store, and the value read is used nowhere. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Steps.lean ====
/-
  Region 1 (the attention kernel), point by point, as pure functions of the blocks the point is handed.

  The kernel walks the grid `t = 16 qi + ki`. It carries three scratch arrays between points: the running shift
  (one column per query row), the running normaliser and the running accumulator. At `ki = 0` it resets them (a large
  negative shift, zeros), then at every point updates them from the point's query block, key block, value block and bias
  block; at `ki = 15` it stores accumulator / normaliser into the output block. `stepM`, `stepL`, `stepA` are one
  update, written over the body's own named payloads; `st1` is the carried triple after point `n`.
-/
import proofs.«418636_j9964324127022_3_alg».proof.Proof.Gen.KernelIdeal.Launch
import proofs.«418636_j9964324127022_3_alg».proof.Proof.Gen.KernelIdeal.Skeleton
import proofs.«418636_j9964324127022_3_alg».proof.Proof.Gen.KernelIdeal.Points

noncomputable section

namespace Cert.KernelIdeal.Hand

open Idealize.ShloMosaic Idealize.ShloMosaic.TcCoe Idealize.SL.Sem Cert.KernelIdeal Cert.KernelIdeal.Gen

variable {F : FTy → Type} [FloatOps F]

/-- The shift after one update: the larger of the shift before and the block's row maxima. -/
def stepM (q : Vec F S1024x1024 .bf16) (kb : Vec F S512x1024 .bf16) (bias : Vec F S1024x512 .f32)
    (m0 : Vec F S1024x1 .f32) : Vec F S1024x1 .f32 :=
  k1_pay2 (k1_pay9 q kb bias m0)

/-- The normaliser after one update: rescaled by the change of shift, plus the block's row sums of weights. -/
def stepL (q : Vec F S1024x1024 .bf16) (kb : Vec F S512x1024 .bf16) (bias : Vec F S1024x512 .f32)
    (m0 l0 : Vec F S1024x1 .f32) : Vec F S1024x1 .f32 :=
  k1_pay12 q kb bias m0 m0 l0

/-- The accumulator after one update: rescaled, plus the block's weights times the value block. -/
def stepA (q : Vec F S1024x1024 .bf16) (kb vb : Vec F S512x1024 .bf16) (bias : Vec F S1024x512 .f32)
    (m0 : Vec F S1024x1 .f32) (a0 : Vec F S1024x1024 .f32) : Vec F S1024x1024 .f32 :=
  k1_pay1 (k1_pay7 vb) (k1_pay10 q kb bias m0 m0) (k1_pay11 q kb bias m0) a0

/-- What the last point of a row of the grid stores: accumulator over normaliser. -/
def outOf (a : Vec F S1024x1024 .f32) (l : Vec F S1024x1 .f32) : Vec F S1024x1024 .f32 := k1_pay3 a l

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One update from the carried triple `s` with the blocks of point `t`. -/
def step1 (c : Dev nD) (t : Fin cfg1.N) (s : Vec F S1024x1 .f32 × Vec F S1024x1 .f32 × Vec F S1024x1024 .f32) :
    Vec F S1024x1 .f32 × Vec F S1024x1 .f32 × Vec F S1024x1024 .f32 :=
  (stepM (iblk1 V c 0 t) (iblk1 V c 1 t) (iblk1 V c 3 t) s.1,
   stepL (iblk1 V c 0 t) (iblk1 V c 1 t) (iblk1 V c 3 t) s.1 s.2.1,
   stepA (iblk1 V c 0 t) (iblk1 V c 1 t) (iblk1 V c 2 t) (iblk1 V c 3 t) s.1 s.2.2)

/-- The reset triple: the large negative shift, zero normaliser, zero accumulator. -/
def init1 : Vec F S1024x1 .f32 × Vec F S1024x1 .f32 × Vec F S1024x1024 .f32 :=
  (k1_pay4 (F := F), k1_pay5 (F := F), k1_pay6 (F := F))

/-- The carried triple (shift, normaliser, accumulator) after point `n`: reset at the points ≡ 0 (mod 16), then updated. -/
def st1 (c : Dev nD) : (n : ℕ) → n < cfg1.N → Vec F S1024x1 .f32 × Vec F S1024x1 .f32 × Vec F S1024x1024 .f32
  | 0, hn => step1 V c ⟨0, hn⟩ init1
  | n + 1, hn => if (n + 1) % 16 = 0 then step1 V c ⟨n + 1, hn⟩ init1
      else step1 V c ⟨n + 1, hn⟩ (st1 c n (Nat.lt_of_succ_lt hn))

theorem st1_reset (c : Dev nD) (t : Fin cfg1.N) (h : t.val % 16 = 0) :
    st1 V c t.val t.isLt = step1 V c t init1 := by
  obtain ⟨n, hn⟩ := t
  cases n with
  | zero => rfl
  | succ n => exact if_pos h

theorem st1_step (c : Dev nD) (t : Fin cfg1.N) (h : ¬t.val % 16 = 0) :
    st1 V c t.val t.isLt = step1 V c t (st1 V c (t.val - 1) (Nat.lt_of_le_of_lt (Nat.sub_le _ _) t.isLt)) := by
  obtain ⟨n, hn⟩ := t
  cases n with
  | zero => exact absurd (Nat.zero_mod _) h
  | succ n => exact if_neg h

end Cert.KernelIdeal.Hand

end
-- ==== Proof.KI.RegBRuns.lean ====
/-
  Region 1 (the attention kernel): what its runs share, and the body's triple in each of the three cases its two
  conditionals meet on the grid.

  The body branches twice on the second grid coordinate: it resets its three scratch arrays where that is 0, and stores
  the output block where that is 15. On the grid `t = 16 qi + ki` three assignments occur: A (reset, no output store) at
  `t ≡ 0`, C (no reset, output store) at `t ≡ 15`, B (neither) elsewhere. For each, the body's triple on whole memrefs is a
  subtype: the pieces each buffer ends with are the witness, found when the run hands the buffer to the continuation.
-/
import proofs.«418636_j9964324127022_3_alg».proof.Proof.KI.Steps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's first `scf.if` (the reset under `ki == 0`), from the grid coordinates: the skeleton's
    scalar chain substituted. -/
abbrev cond1_0 (i : grid1.Coords) : Prop := (Scalar.cmpi .ne (Scalar.extui (Scalar.cmpi .eq (BitVec.ofNat 32 (i 1).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the output's store under `ki == 15`). -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle (the configuration's table `Cfg.idle`) -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the points of case A the output is idle: the case stores nothing into it, -/
theorem idleAt1_4_A : ∀ t : Fin cfg1.N, cond1_0 (grid1.coords t) → ¬cond1_1 (grid1.coords t) → cfg1.idle 4 (grid1.coords t) = true := by decide +kernel
/-- and the pipeline does not write its block back there. -/
theorem noFlush1_4_A : ∀ t : Fin cfg1.N, cond1_0 (grid1.coords t) → ¬cond1_1 (grid1.coords t) → (cfg1.win 4).flush t = false := by decide +kernel
/-- The same at the points of case B. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the points of case C the output is live: the case stores into it. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated (the choice does not matter). -/
abbrev VO1_4 : View sig .tc .vmem S1024x1024 .f32 := (Memref.whole cc1_stg4_0 : Memref sig .tc .vmem S1024x1024 .f32).view
/-- Each window's current staging memref at point `t`, spelled as the pipeline passes it (`bodyAt1`), and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- The scratch arrays the kernel carries between points, as views: what they hold is stated through them. -/
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region's invariant, opened -/

/-- The core's scoped buffers that are neither a staging buffer of this region nor its scratch — the eleven staging
    buffers of the region before —, each whole at some contents: the body never names them, the invariant carries them. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class's invariant with the scratch operands as memrefs owned at some contents and the other scoped buffers
    folded: what the body obligation hands the run and takes back. -/
theorem PhiA1_eq (c : Dev nD) :
    (Pipeline.ΦA spec1 c : sProp 𝕄)
      = iprop(iprop(rest1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; unfold rest1
  refine BI.equiv_iff.mp ⟨?_, ?_⟩
  · show (_ : sProp 𝕄) ⊢ (_ : sProp 𝕄)
    iintro ⟨⟨B0, B1, B2, B3, B4, B5, B6, B7, B8, B9, B10, S0, S1, S2⟩, Hg⟩
    isplitr [Hg]
    swap; · iexact Hg
    isplitr [S0 S1 S2]
    swap
    · isplitl [S0]; · iexact S0
      isplitl [S1]; · iexact S1
      iexact S2
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  · show (_ : sProp 𝕄) ⊢ (_ : sProp 𝕄)
    iintro ⟨⟨⟨B0, B1, B2, B3, B4, B5, B6, B7, B8, B9, B10⟩, S0, S1, S2⟩, Hg⟩
    isplitr [Hg]
    swap; · iexact Hg
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [S0]; · iexact S0
    isplitl [S1]; · iexact S1
    iexact S2

/-! ## The kernel body on any staging memrefs: a subtype the run finds, one per case of its two conditionals -/

-- (the run's proof term is large: the definition's epilogue walks it past the default budget)
set_option maxHeartbeats 4000000 in
/-- CASE A (the points ≡ 0 mod 16: the reset taken, the output's store not). What the body's stores leave in each
    scratch array, as pieces (last first), WITH the proof that on whole memrefs — the four inputs' at their contents, the
    output's at contents `xi4` handed back untouched (the case stores nothing into it), the three scratch arrays at
    anything (the reset overwrites them before anything reads them) — the body runs to the continuation holding the inputs'
    as they were and each scratch array with its pieces written. The pieces are the witness the run finds. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- CASE B (the points ≢ 0, 15 mod 16: neither branch taken). As case A, the three scratch arrays now at the contents
    the point before left (`xs0`, `xs1`, `xs2`), which the body reads. -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 4000000 in
/-- CASE C (the points ≡ 15 mod 16: the reset not taken, the output's store taken). The scratch arrays in at the
    contents the point before left; the output's memref in at anything, out with its pieces written (`L4`). -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.RegB.lean ====
/-
  Region 1 (the attention kernel), its class-R half at the entry contents `V`: what each case of the body leaves in the
  scratch arrays and in the output's buffer (the pieces the runs found, read back), what they hold point by point
  (`outsAt1`), the region's invariant point by point (`PhiS`), the pipeline's proof data (`dat1`), the body obligation,
  and the two entailments between the class's invariant and ours at the region's ends.

  Unlike a kernel that resets its scratch once, this one resets at every point ≡ 0 (mod 16): from the second such point
  on the invariant hands the reset case the scratch arrays at the contents the point before left, and the case — stated
  for scratch at anything — takes them by forgetting those contents.
-/
import proofs.«418636_j9964324127022_3_alg».proof.Proof.KI.RegBRuns

-- membership in a rectangle of large extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' blocks -/

/-- Input window 0's current staging buffer holds its block at every point, fetched there or not, for any proof data
    whose array is `V`'s (`hA`) and whose body leaves the block in place (`hafter`): unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): unfetched, the index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch arrays and in the output's buffer -/

/-- Case A stores nothing into the output (the window is idle at its points and not written back there): no pieces —
    a placeholder (junk read back) that nothing consults. -/
def out1_A_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1024 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's pieces for scratch `arg7` (the running shift) cover it. -/
theorem scover1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch `arg7`: its pieces read back over junk. -/
def sout1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's pieces for scratch `arg8` (the running normaliser) cover it. -/
theorem scover1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch `arg8`: its pieces read back over junk. -/
def sout1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's pieces for scratch `arg9` (the running accumulator) cover it. -/
theorem scover1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1024.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x1024.size (by sl_kernel_rfl) y

/-- What case A leaves in scratch `arg9`: its pieces read back over junk. -/
def sout1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) : Vec F S1024x1024 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- Case B stores nothing into the output (the window is idle at its points and not written back there): no pieces —
    a placeholder (junk read back) that nothing consults. -/
def out1_B_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's pieces for scratch `arg7` (the running shift) cover it. -/
theorem scover1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch `arg7`: its pieces read back over junk. -/
def sout1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's pieces for scratch `arg8` (the running normaliser) cover it. -/
theorem scover1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch `arg8`: its pieces read back over junk. -/
def sout1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's pieces for scratch `arg9` (the running accumulator) cover it. -/
theorem scover1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case B leaves in scratch `arg9`: its pieces read back over junk. -/
def sout1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's pieces for the output tile its block, so they cover it. -/
theorem cover1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x1024.size (by sl_kernel_rfl) y

/-- What case C leaves in the output's staging buffer: its pieces read back over junk. -/
def out1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's pieces for scratch `arg7` (the running shift) cover it. -/
theorem scover1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch `arg7`: its pieces read back over junk. -/
def sout1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's pieces for scratch `arg8` (the running normaliser) cover it. -/
theorem scover1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch `arg8`: its pieces read back over junk. -/
def sout1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's pieces for scratch `arg9` (the running accumulator) cover it. -/
theorem scover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case C leaves in scratch `arg9`: its pieces read back over junk. -/
def sout1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## The cases at a point of the grid -/

/-- Case A at point `t`: the output's buffer, then the three scratch arrays, after the body — run at the point's memrefs and
    input blocks (the scratch arrays' contents before do not matter: the reset overwrites them). -/
def ptA (c : Dev nD) (t : Fin cfg1.N) (h0 : t.val % 16 = 0) (h1 : ¬t.val % 16 = 15) : Vec F S1024x1024 .f32 × Vec F S1024x1 .f32 × Vec F S1024x1 .f32 × Vec F S1024x1024 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))

/-- Case B at point `t`, the scratch arrays before the body at `s`. -/
def ptB (c : Dev nD) (t : Fin cfg1.N) (h0 : ¬t.val % 16 = 0) (h1 : ¬t.val % 16 = 15) (s : Vec F S1024x1 .f32 × Vec F S1024x1 .f32 × Vec F S1024x1024 .f32) : Vec F S1024x1024 .f32 × Vec F S1024x1 .f32 × Vec F S1024x1 .f32 × Vec F S1024x1024 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2)

/-- Case C at point `t`, the scratch arrays before the body at `s`. -/
def ptC (c : Dev nD) (t : Fin cfg1.N) (h0 : ¬t.val % 16 = 0) (h1 : t.val % 16 = 15) (s : Vec F S1024x1 .f32 × Vec F S1024x1 .f32 × Vec F S1024x1024 .f32) : Vec F S1024x1024 .f32 × Vec F S1024x1 .f32 × Vec F S1024x1 .f32 × Vec F S1024x1024 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2)

/-! ## What the output's buffer and the scratch arrays hold after each point -/

/-- THE ACCUMULATION. What the output's staging buffer and the three scratch arrays hold after the body at position `n`
    (the output's buffer first, then the shift, the normaliser, the accumulator): the case the closed forms select at
    `n`, run at the point's memrefs and input blocks, cases B and C over what the point before left in the scratch arrays.
    The two conditions never hold together (`False.elim`). -/
def outsAt1 (c : Dev nD) : (n : ℕ) → n < cfg1.N → Vec F S1024x1024 .f32 × Vec F S1024x1 .f32 × Vec F S1024x1 .f32 × Vec F S1024x1024 .f32
  | 0, hn => ptA V c ⟨0, hn⟩ (Nat.zero_mod _) (show ¬0 % 16 = 15 by decide)
  | n + 1, hn =>
    if h0 : (n + 1) % 16 = 0 then
      if h1 : (n + 1) % 16 = 15 then False.elim (by omega)
      else ptA V c ⟨n + 1, hn⟩ h0 h1
    else
      if h1 : (n + 1) % 16 = 15 then ptC V c ⟨n + 1, hn⟩ h0 h1 (outsAt1 c n (Nat.lt_of_succ_lt hn)).2
      else ptB V c ⟨n + 1, hn⟩ h0 h1 (outsAt1 c n (Nat.lt_of_succ_lt hn)).2

/-- `outsAt1` at a point of case A: that case's contents. -/
theorem outsAt1_A (c : Dev nD) (t : Fin cfg1.N) (h0 : t.val % 16 = 0) (h1 : ¬t.val % 16 = 15) :
    outsAt1 V c t.val t.isLt = ptA V c t h0 h1 := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region's invariant, point by point -/

/-- The invariant before position `n`: before the first point the class's (every scratch array at anything); afterwards
    the three scratch arrays at what the point before left in them (`outsAt1`'s components), the region-before's staging
    buffers at anything, the generator register at some state. -/
def PhiS (c : Dev nD) : (n : ℕ) → n ≤ cfg1.N → sProp 𝕄
  | 0, _ => Pipeline.ΦA spec1 c
  | n + 1, hn => iprop(iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch arrays at that point's contents. -/
theorem PhiS_succ (c : Dev nD) (n : ℕ) (hn : n < cfg1.N) :
    PhiS V c (n + 1) hn = iprop(iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the scratch arrays at what the point before left. -/
theorem PhiS_pos (c : Dev nD) (n : ℕ) (h : n ≤ cfg1.N) (hz : n ≠ 0) :
    PhiS V c n h = iprop(iprop(rest1 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the region's pipeline on core `c`: the arrays as the region finds them (`V`); after the body at point
    `t` each input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks (`before1_W`); the closed forms say which case the point
    is in; that case's run applies. The invariant hands the body the three scratch arrays — at what the point before left,
    or at anything before the first point; case A takes them at anything in either event, its reset overwriting them — and
    takes them back at this point's contents (by the covers); the region-before's staging buffers and the generator
    register ride along; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · by_cases h1 : t.val % 16 = 15
    · exfalso; omega
    · rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold ptA sout1_A_0 sout1_A_1 sout1_A_2; (try dsimp only)
      by_cases hz : t.val = 0
      · rw [PhiS_castSucc V c t, PhiS_zero V c _ _ hz, PhiA1_eq]
        iintro ⟨⟨⟨Hrest, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hrest HS0 HS1 HS2 Hg]
        · isplitr [Hg]
          swap; · iexact Hg
          isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨Hrest, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hrest HS0 HS1 HS2 Hg]
        · isplitr [Hg]
          swap; · iexact Hg
          isplitl [Hrest]; · iexact Hrest
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold ptC out1_C_4 sout1_C_0 sout1_C_1 sout1_C_2; (try dsimp only)
      rw [PhiS_castSucc V c t, PhiS_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [Hrest HS0 HS1 HS2 Hg]
      · isplitr [Hg]
        swap; · iexact Hg
        isplitl [Hrest]; · iexact Hrest
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold ptB sout1_B_0 sout1_B_1 sout1_B_2; (try dsimp only)
      rw [PhiS_castSucc V c t, PhiS_pos V c _ _ hz]
      iintro ⟨⟨⟨Hrest, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [Hrest HS0 HS1 HS2 Hg]
      · isplitr [Hg]
        swap; · iexact Hg
        isplitl [Hrest]; · iexact Hrest
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch arrays' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hrest, HS0, HS1, HS2⟩, Hg⟩
  isplitr [Hg]
  swap; · iexact Hg
  isplitl [Hrest]; · iexact Hrest
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
/-
  @main as three segments — the host stretch, the projection call, the attention call — and the launch over them.
  Between two segments core `c` holds every unscoped buffer whole at `WJ c`: the launch memory, then the host
  operations applied, then after each call its arrays at what its write-backs leave and every other buffer as before.
  Each call is a region whose arrays are split out of the unscoped buffers on entry and put back on exit; the
  generator register and the scoped buffers no window stages enter the region's invariant and come back (for the
  attention call the invariant also names what the carried scratch holds between points). The run's post reads every
  unscoped buffer off the last valuation; the frame claim and the result array are read from it.
-/
import proofs.«418636_j9964324127022_3_alg».proof.Proof.KI.RegA
import proofs.«418636_j9964324127022_3_alg».proof.Proof.KI.RegB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the attention call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left at the contents after it.
    Its arrays are split out of the unscoped buffers and put back at what the pipeline leaves in them; the generator
    register and the scoped buffers no window stages go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it.
    Its arrays are split out of the unscoped buffers and put back at what the pipeline leaves in them; the generator
    register and the scoped buffers no window stages go into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop(Pipeline.scopedRest spec1 c ∗ ∃ r, prngReg c r) ⊢ ((dat1 (V2 m ρ) c).Φ 0 : sProp 𝕄) := by
      have h := hin1 (V2 m ρ) c; unfold Pipeline.ΦA at h; exact h
    rw [show (pdats m ρ 1 c).Φ 0 = (dat1 (V2 m ρ) c).Φ 0 from rfl]
    iintro ⟨Hp, -, Hr⟩
    iapply h1
    isplitl [Hr]; · iexact Hr
    iexact Hp
  hout c := by
    have h1 : ((dat1 (V2 m ρ) c).Φ (Fin.last cfg1.N) : sProp 𝕄) ⊢ iprop(Pipeline.scopedRest spec1 c ∗ ∃ r, prngReg c r) := by
      have h := hout1 (V2 m ρ) c; unfold Pipeline.ΦA at h; exact h
    rw [Pipeline.ownSems0_none, show (pdats m ρ 1 c).Φ (Fin.last _) = (dat1 (V2 m ρ) c).Φ (Fin.last cfg1.N) from rfl]
    exact h1.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of core `c` at `W3 c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_main m ρ)

/-- The result array after the run: what the attention call's write-backs leave in it. -/
theorem W3_result (c : Dev nD) : W3 m ρ c (Proc.devRef .tc main_v15) = (dat1 (V2 m ρ) c).arrAt 4 cfg1.N :=
  W3_arr m ρ c 4

end Cert.KernelIdeal.Hand

end
-- ==== Proof.KI.ValA.lean ====
/- Region 0's three output arrays after the region, read at an index, over the extended reals: each is the matrix
   product of the row array and one weight array as the region finds them. A point's write-back is one block of rows
   of that product (the block product of the row block with the whole weight array; the rounding to the narrower
   format and the same-shape casts are the identity here), and the eight row blocks tile the array. -/
import proofs.«418636_j9964324127022_3_alg».proof.Proof.KI.RegA
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product at an index -/

theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The first output's payload at entry `(r, e)`: row `r` of the row block against column `e` of the weight block. -/
theorem pay2_apply (x w : Vec Ideal S1024x1024 .bf16) (r e : Fin 1024) :
    k0_pay2 (F := Ideal) x w (ix2 r e) = ∑ k : Fin 1024, x (ix2 r k) * w (ix2 k e) := by
  unfold k0_pay2 k0_pay1
  simp only [shapeCast_self, truncf_apply, matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r e) ((contrEquiv1 dot_S1024x1024_S1024x1024_S1024x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S1024x1024_S1024x1024_S1024x1024_1_0_0_1_n_n.rhsIdx (ix2 r e) ((contrEquiv1 dot_S1024x1024_S1024x1024_S1024x1024_1_0_0_1_n_n 1024 rfl rfl).symm k) = ix2 k e := funext fun a => Fin.ext (by
    match a with
    | ⟨0, _⟩ => exact (rhs_dot_0 _ _).trans hk
    | ⟨1, _⟩ => exact rhs_dot_1 _ _)
  rw [el, er]

/-- The other two outputs' payloads are the same function of their two blocks. -/
theorem pay3_eq : @k0_pay3 Ideal _ = @k0_pay2 Ideal _ := rfl
theorem pay4_eq : @k0_pay4 Ideal _ = @k0_pay2 Ideal _ := rfl

/-! ## The arrays of the region, and the product -/

/-- Entry `(r, e)` of the product of a row array with a weight array: `∑ k, a (r, k) * w (k, e)`. -/
def prodArr (a : Vec Ideal S8192x1024 .bf16) (w : Vec Ideal S1024x1024 .bf16) : Vec Ideal S8192x1024 .bf16 :=
  fun i => ∑ k : Fin 1024, a (ix2 (⟨(i 0).val, (i 0).isLt⟩ : Fin 8192) k) * w (ix2 k (⟨(i 1).val, (i 1).isLt⟩ : Fin 1024))

theorem prodArr_apply (a : Vec Ideal S8192x1024 .bf16) (w : Vec Ideal S1024x1024 .bf16) (r : Fin 8192) (e : Fin 1024) :
    prodArr a w (ix2 r e) = ∑ k : Fin 1024, a (ix2 r k) * w (ix2 k e) := rfl

/-- A block product is a block of rows of the product: when the row block `x0` is rows `1024 n …` of `a` and the
    weight block `x1` is all of `w`, the payload at `j` is the product at the index `i` that `j` names in the array. -/
theorem pay2_blk (a : Vec Ideal S8192x1024 .bf16) (w x0 x1 : Vec Ideal S1024x1024 .bf16) (n : ℕ)
    (h0 : ∀ (y : S1024x1024.Idx) (i : S8192x1024.Idx), (i 0).val = n * 1024 + (y 0).val → (i 1).val = (y 1).val → x0 y = a i)
    (h1 : ∀ y : S1024x1024.Idx, x1 y = w y)
    (j : S1024x1024.Idx) (i : S8192x1024.Idx) (hi0 : (i 0).val = n * 1024 + (j 0).val) (hi1 : (i 1).val = (j 1).val) :
    k0_pay2 (F := Ideal) x0 x1 j = prodArr a w i := by
  have hj : j = ix2 (⟨(j 0).val, (j 0).isLt⟩ : Fin 1024) (⟨(j 1).val, (j 1).isLt⟩ : Fin 1024) := by
    funext d; match d with | ⟨0, _⟩ => rfl | ⟨1, _⟩ => rfl
  rw [hj, pay2_apply]
  unfold prodArr
  refine Finset.sum_congr rfl fun k _ => ?_
  rw [h0 (ix2 (⟨(j 0).val, (j 0).isLt⟩ : Fin 1024) k) (ix2 (⟨(i 0).val, (i 0).isLt⟩ : Fin 8192) k) hi0 rfl, h1]
  exact congrArg (fun z => a (ix2 (⟨(i 0).val, (i 0).isLt⟩ : Fin 8192) k) * w (ix2 k z)) (Fin.ext hi1.symm)

/-! ## The input blocks read off their arrays -/

/-- The printed index maps, decided over the grid: the row window and the three output windows sit at block row `t`,
    the weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The row window's block at point `t` is rows `1024 t …` of the row array. -/
theorem rows_apply (c : Dev nD) (t : Fin cfg0.N) (y : S1024x1024.Idx) (i : S8192x1024.Idx)
    (h0 : (i 0).val = t.val * 1024 + (y 0).val) (h1 : (i 1).val = (y 1).val) :
    (iblk0 (F := Ideal) V c 0 t : Vec Ideal S1024x1024 .bf16) y = (V c main_v8 : Vec Ideal S8192x1024 .bf16) i := by
  obtain ⟨e0, e1, -⟩ := idx_facts t
  unfold iblk0
  rw [View.read_apply]
  show V c main_v8 _ = V c main_v8 _
  congr 1
  funext a
  apply Fin.ext
  match a with
  | ⟨0, _⟩ => show win0_0.index t 0 * 1024 + 1 * (y 0).val = (i 0).val; rw [e0, h0]; omega
  | ⟨1, _⟩ => show win0_0.index t 1 * 1024 + 1 * (y 1).val = (i 1).val; rw [e1, h1]; omega

/-- Each weight window's block at any point is its whole array. -/
theorem w1_apply (c : Dev nD) (t : Fin cfg0.N) (y : S1024x1024.Idx) :
    (iblk0 (F := Ideal) V c 1 t : Vec Ideal S1024x1024 .bf16) y = (V c main_v11 : Vec Ideal S1024x1024 .bf16) y := by
  obtain ⟨-, -, e0, e1, -⟩ := idx_facts t
  unfold iblk0
  rw [View.read_apply]
  show V c main_v11 _ = V c main_v11 _
  congr 1
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega
theorem w2_apply (c : Dev nD) (t : Fin cfg0.N) (y : S1024x1024.Idx) :
    (iblk0 (F := Ideal) V c 2 t : Vec Ideal S1024x1024 .bf16) y = (V c main_v12 : Vec Ideal S1024x1024 .bf16) y := by
  obtain ⟨-, -, -, -, e0, e1, -⟩ := idx_facts t
  unfold iblk0
  rw [View.read_apply]
  show V c main_v12 _ = V c main_v12 _
  congr 1
  funext a
  apply Fin.ext
  match a with
  | ⟨0, _⟩ => show win0_2.index t 0 * 1024 + 1 * (y 0).val = (y 0).val; rw [e0]; omega
  | ⟨1, _⟩ => show win0_2.index t 1 * 1024 + 1 * (y 1).val = (y 1).val; rw [e1]; omega
theorem w3_apply (c : Dev nD) (t : Fin cfg0.N) (y : S1024x1024.Idx) :
    (iblk0 (F := Ideal) V c 3 t : Vec Ideal S1024x1024 .bf16) y = (V c main_v13 : Vec Ideal S1024x1024 .bf16) y := by
  obtain ⟨-, -, -, -, -, -, e0, e1, -⟩ := idx_facts t
  unfold iblk0
  rw [View.read_apply]
  show V c main_v13 _ = V c main_v13 _
  congr 1
  funext a
  apply Fin.ext
  match a with
  | ⟨0, _⟩ => show win0_3.index t 0 * 1024 + 1 * (y 0).val = (y 0).val; rw [e0]; omega
  | ⟨1, _⟩ => show win0_3.index t 1 * 1024 + 1 * (y 1).val = (y 1).val; rw [e1]; omega

/-! ## What each point writes back -/

/-- Point `t` writes back to the first output array block `t` of the product of the row array with the first weight array. -/
theorem flushed4_eq (c : Dev nD) (t : Fin cfg0.N) :
    (dat0 (F := Ideal) V c).flushed 4 t = ((cfg0.win 4).blk t).view.read (Elt Ideal) (prodArr (V c main_v8) (V c main_v11)) := by
  show (cfg0.win 4).cut (grid0.coords t) ((dat0 (F := Ideal) V c).after 4 t) = _
  rw [after0_4]
  unfold out0_4
  rw [View.canon_unit_zero hz]
  simp only [View.ld_unit_zero (S := S1024x1024) hz]
  obtain ⟨-, -, -, -, -, -, -, -, e0, e1, -⟩ := idx_facts t
  funext j
  refine pay2_blk (V c main_v8) (V c main_v11) (iblk0 (F := Ideal) V c 0 t) (iblk0 (F := Ideal) V c 1 t) t.val
    (rows_apply V c t) (w1_apply V c t) j (((cfg0.win 4).blk t).view.emb j) ?_ ?_
  · show win0_4.index t 0 * 1024 + 1 * (j 0).val = t.val * 1024 + (j 0).val; rw [e0]; omega
  · show win0_4.index t 1 * 1024 + 1 * (j 1).val = (j 1).val; rw [e1]; omega

/-- Point `t` writes back to the second output array block `t` of the product with the second weight array. -/
theorem flushed5_eq (c : Dev nD) (t : Fin cfg0.N) :
    (dat0 (F := Ideal) V c).flushed 5 t = ((cfg0.win 5).blk t).view.read (Elt Ideal) (prodArr (V c main_v8) (V c main_v12)) := by
  show (cfg0.win 5).cut (grid0.coords t) ((dat0 (F := Ideal) V c).after 5 t) = _
  rw [after0_5]
  unfold out0_5
  rw [View.canon_unit_zero hz]
  simp only [View.ld_unit_zero (S := S1024x1024) hz]
  rw [pay3_eq]
  obtain ⟨-, -, -, -, -, -, -, -, -, -, e0, e1, -⟩ := idx_facts t
  funext j
  refine pay2_blk (V c main_v8) (V c main_v12) (iblk0 (F := Ideal) V c 0 t) (iblk0 (F := Ideal) V c 2 t) t.val
    (rows_apply V c t) (w2_apply V c t) j (((cfg0.win 5).blk t).view.emb j) ?_ ?_
  · show win0_5.index t 0 * 1024 + 1 * (j 0).val = t.val * 1024 + (j 0).val; rw [e0]; omega
  · show win0_5.index t 1 * 1024 + 1 * (j 1).val = (j 1).val; rw [e1]; omega

/-- Point `t` writes back to the third output array block `t` of the product with the third weight array. -/
theorem flushed6_eq (c : Dev nD) (t : Fin cfg0.N) :
    (dat0 (F := Ideal) V c).flushed 6 t = ((cfg0.win 6).blk t).view.read (Elt Ideal) (prodArr (V c main_v8) (V c main_v13)) := by
  show (cfg0.win 6).cut (grid0.coords t) ((dat0 (F := Ideal) V c).after 6 t) = _
  rw [after0_6]
  unfold out0_6
  rw [View.canon_unit_zero hz]
  simp only [View.ld_unit_zero (S := S1024x1024) hz]
  rw [pay4_eq]
  obtain ⟨-, -, -, -, -, -, -, -, -, -, -, -, e0, e1⟩ := idx_facts t
  funext j
  refine pay2_blk (V c main_v8) (V c main_v13) (iblk0 (F := Ideal) V c 0 t) (iblk0 (F := Ideal) V c 3 t) t.val
    (rows_apply V c t) (w3_apply V c t) j (((cfg0.win 6).blk t).view.emb j) ?_ ?_
  · show win0_6.index t 0 * 1024 + 1 * (j 0).val = t.val * 1024 + (j 0).val; rw [e0]; omega
  · show win0_6.index t 1 * 1024 + 1 * (j 1).val = (j 1).val; rw [e1]; omega

/-! ## The eight row blocks tile each output array -/

/-- An index of the array is in point `t`'s block iff each coordinate is in the block's range on its axis. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v14_0).slice (win0_4.rect t)).set ↔ _
  rw [View.set_slice_whole, Rect.mem_set_unit]
  exact Iff.rfl
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v14_1).slice (win0_5.rect t)).set ↔ _
  rw [View.set_slice_whole, Rect.mem_set_unit]
  exact Iff.rfl
theorem mem_blk6 (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v14_2).slice (win0_6.rect t)).set ↔ _
  rw [View.set_slice_whole, Rect.mem_set_unit]
  exact Iff.rfl

/-- The point whose block holds row `r` is `r / 1024`. -/
def ptOf (i : S8192x1024.Idx) : Fin cfg0.N := ⟨(i 0).val / 1024, by
  have h : (i 0).val < 8192 := (i 0).isLt
  rw [show cfg0.N = 8 from N_0]; omega⟩

theorem cover4 (i : S8192x1024.Idx) : ∃ t : Fin cfg0.N, (cfg0.win 4).flush t = true ∧ i ∈ ((cfg0.win 4).blk t).view.set := by
  refine ⟨ptOf i, flush0_4 _, ?_⟩
  obtain ⟨-, -, -, -, -, -, -, -, e0, e1, -⟩ := idx_facts (ptOf i)
  have h0 : (i 0).val < 8192 := (i 0).isLt
  have h1 : (i 1).val < 1024 := (i 1).isLt
  have hp : (ptOf i).val = (i 0).val / 1024 := rfl
  rw [mem_blk4]
  intro a
  match a with
  | ⟨0, _⟩ => show win0_4.index (ptOf i) (0 : Fin 2) * 1024 ≤ (i 0).val ∧ (i 0).val < win0_4.index (ptOf i) (0 : Fin 2) * 1024 + 1024; rw [e0, hp]; omega
  | ⟨1, _⟩ => show win0_4.index (ptOf i) (1 : Fin 2) * 1024 ≤ (i 1).val ∧ (i 1).val < win0_4.index (ptOf i) (1 : Fin 2) * 1024 + 1024; rw [e1]; omega
theorem cover5 (i : S8192x1024.Idx) : ∃ t : Fin cfg0.N, (cfg0.win 5).flush t = true ∧ i ∈ ((cfg0.win 5).blk t).view.set := by
  refine ⟨ptOf i, flush0_5 _, ?_⟩
  obtain ⟨-, -, -, -, -, -, -, -, -, -, e0, e1, -⟩ := idx_facts (ptOf i)
  have h0 : (i 0).val < 8192 := (i 0).isLt
  have h1 : (i 1).val < 1024 := (i 1).isLt
  have hp : (ptOf i).val = (i 0).val / 1024 := rfl
  rw [mem_blk5]
  intro a
  match a with
  | ⟨0, _⟩ => show win0_5.index (ptOf i) (0 : Fin 2) * 1024 ≤ (i 0).val ∧ (i 0).val < win0_5.index (ptOf i) (0 : Fin 2) * 1024 + 1024; rw [e0, hp]; omega
  | ⟨1, _⟩ => show win0_5.index (ptOf i) (1 : Fin 2) * 1024 ≤ (i 1).val ∧ (i 1).val < win0_5.index (ptOf i) (1 : Fin 2) * 1024 + 1024; rw [e1]; omega
theorem cover6 (i : S8192x1024.Idx) : ∃ t : Fin cfg0.N, (cfg0.win 6).flush t = true ∧ i ∈ ((cfg0.win 6).blk t).view.set := by
  refine ⟨ptOf i, flush0_6 _, ?_⟩
  obtain ⟨-, -, -, -, -, -, -, -, -, -, -, -, e0, e1⟩ := idx_facts (ptOf i)
  have h0 : (i 0).val < 8192 := (i 0).isLt
  have h1 : (i 1).val < 1024 := (i 1).isLt
  have hp : (ptOf i).val = (i 0).val / 1024 := rfl
  rw [mem_blk6]
  intro a
  match a with
  | ⟨0, _⟩ => show win0_6.index (ptOf i) (0 : Fin 2) * 1024 ≤ (i 0).val ∧ (i 0).val < win0_6.index (ptOf i) (0 : Fin 2) * 1024 + 1024; rw [e0, hp]; omega
  | ⟨1, _⟩ => show win0_6.index (ptOf i) (1 : Fin 2) * 1024 ≤ (i 1).val ∧ (i 1).val < win0_6.index (ptOf i) (1 : Fin 2) * 1024 + 1024; rw [e1]; omega

/-! ## The arrays after the region -/

/-- Each output array after the region is the product of the row array with its weight array, as the region found them. -/
theorem arr0_4_eq (c : Dev nD) : (dat0 (F := Ideal) V c).arrAt 4 cfg0.N = prodArr (V c main_v8) (V c main_v11) :=
  (dat0 (F := Ideal) V c).arrAt_eq_of_cover 4 (prodArr (V c main_v8) (V c main_v11)) (fun t _ => flushed4_eq V c t) cover4
theorem arr0_5_eq (c : Dev nD) : (dat0 (F := Ideal) V c).arrAt 5 cfg0.N = prodArr (V c main_v8) (V c main_v12) :=
  (dat0 (F := Ideal) V c).arrAt_eq_of_cover 5 (prodArr (V c main_v8) (V c main_v12)) (fun t _ => flushed5_eq V c t) cover5
theorem arr0_6_eq (c : Dev nD) : (dat0 (F := Ideal) V c).arrAt 6 cfg0.N = prodArr (V c main_v8) (V c main_v13) :=
  (dat0 (F := Ideal) V c).arrAt_eq_of_cover 6 (prodArr (V c main_v8) (V c main_v13)) (fun t _ => flushed6_eq V c t) cover6

/-- The region's input arrays and its three output arrays after it, each at its literal type. -/
abbrev rowsArr (c : Dev nD) : Vec Ideal S8192x1024 .bf16 := V c main_v8
abbrev wArr1 (c : Dev nD) : Vec Ideal S1024x1024 .bf16 := V c main_v11
abbrev wArr2 (c : Dev nD) : Vec Ideal S1024x1024 .bf16 := V c main_v12
abbrev wArr3 (c : Dev nD) : Vec Ideal S1024x1024 .bf16 := V c main_v13
abbrev outArr4 (c : Dev nD) : Vec Ideal S8192x1024 .bf16 := (dat0 (F := Ideal) V c).arrAt 4 cfg0.N
abbrev outArr5 (c : Dev nD) : Vec Ideal S8192x1024 .bf16 := (dat0 (F := Ideal) V c).arrAt 5 cfg0.N
abbrev outArr6 (c : Dev nD) : Vec Ideal S8192x1024 .bf16 := (dat0 (F := Ideal) V c).arrAt 6 cfg0.N

/-- Read at entry `(r, e)`: row `r` of the row array against column `e` of the weight array. -/
theorem arr0_4 (c : Dev nD) (r : Fin 8192) (e : Fin 1024) :
    outArr4 V c (ix2 r e) = ∑ k : Fin 1024, rowsArr V c (ix2 r k) * wArr1 V c (ix2 k e) := by
  show (dat0 (F := Ideal) V c).arrAt 4 cfg0.N (ix2 r e) = _
  rw [arr0_4_eq]; rfl
theorem arr0_5 (c : Dev nD) (r : Fin 8192) (e : Fin 1024) :
    outArr5 V c (ix2 r e) = ∑ k : Fin 1024, rowsArr V c (ix2 r k) * wArr2 V c (ix2 k e) := by
  show (dat0 (F := Ideal) V c).arrAt 5 cfg0.N (ix2 r e) = _
  rw [arr0_5_eq]; rfl
theorem arr0_6 (c : Dev nD) (r : Fin 8192) (e : Fin 1024) :
    outArr6 V c (ix2 r e) = ∑ k : Fin 1024, rowsArr V c (ix2 r k) * wArr3 V c (ix2 k e) := by
  show (dat0 (F := Ideal) V c).arrAt 6 cfg0.N (ix2 r e) = _
  rw [arr0_6_eq]; rfl

end Cert.KernelIdeal.HandVal

end
-- ==== Proof.RefGen.lean ====
/- The reference program's generated run and read-at-an-index modules, gathered under one import. -/
import proofs.«418636_j9964324127022_3_alg».proof.Proof.Gen.ReferenceIdeal.Run
import proofs.«418636_j9964324127022_3_alg».proof.Proof.Gen.ReferenceIdeal.Read
-- ==== Proof.KI.HostVals.lean ====
/-
  What the host stretch of the kernel program leaves in the arrays its two calls read, read at an index.

  Before its two calls the program casts the activations and the three weight matrices to the narrow format (the
  identity on extended reals), scales the query weights by the literal 2^-5 first, and looks the bias up: the
  distance table's single column, flattened, read at the (wrapped, clamped) distance of every pair. The reference
  looks the same table up with a two-component index (row, 0) into the unflattened table. Both read the table's entry
  at the same clamped row.
-/
import proofs.«418636_j9964324127022_3_alg».proof.Proof.Gen.KernelIdeal.Launch
import proofs.«418636_j9964324127022_3_alg».proof.Proof.RefGen
import Idealize.ShloMosaic.Lib.StableHlo.Run
import Idealize.ShloMosaic.Lib.ValueIdx
import Idealize.ShloMosaic.Lib.Pipeline.Value

noncomputable section

namespace Cert.KernelIdeal.HostVals

open Cert.KernelIdeal Cert.KernelIdeal.Gen Idealize.ShloMosaic Idealize.ShloMosaic.TcCoe Idealize.SL.Sem
open Idealize.ShloMosaic.ValueIdx

/-! ## The two table look-ups, read at an index -/

section Gather
variable {α : Type}

/-- The table's row a wrapped distance `v` reads: `v` as a signed integer, clamped into `[0, 101]`. -/
abbrev row (v : BitVec 32) : Fin 102 := ⟨min v.toInt.toNat 101, by omega⟩

/-- The kernel program's look-up at `j`: the flattened table at the start index `s j`, read signed and clamped —
    the unflattened table's entry in that row, column 0. -/
theorem gatherK_apply (x5 : S102x1.Idx → α) (s : S8192x8192.Idx → BitVec 32) (j : S8192x8192.Idx) :
    Host.gather gather_S102_S8192x8192x1_S8192x8192_n_0_n_n_0_2_1 (shapeCast S102 x5 Facts₀.shapeCasts_S102x1_S102)
        (broadcastInDim S8192x8192x1 ![0, 1] Facts₀.bcast_S8192x8192_S8192x8192x1_0_1 s) j
      = x5 (ix2 (row (s j)) ⟨0, Nat.one_pos⟩) := by
  show Host.gather (takeDims 102 8192 8192 Facts₀.gather_S102_S8192x8192x1_S8192x8192_n_0_n_n_0_2_1_wf) _ _ j = _
  rw [gather_take_apply (by decide)]
  have hb : broadcastInDim S8192x8192x1 ![0, 1] Facts₀.bcast_S8192x8192_S8192x8192x1_0_1 s (takeIdx j) = s j :=
    broadcastInDim_apply _ Facts₀.bcast_S8192x8192_S8192x8192x1_0_1 s (takeIdx j) j (fun a => match a with
      | ⟨0, _⟩ => by show (j 0).val = if (8192 : Nat) = 1 then 0 else (j 0).val; rw [if_neg (by decide)]
      | ⟨1, _⟩ => by show (j 1).val = if (8192 : Nat) = 1 then 0 else (j 1).val; rw [if_neg (by decide)])
  rw [shapeCast_apply x5 Facts₀.shapeCasts_S102x1_S102 _
    (ix2 (row (broadcastInDim S8192x8192x1 ![0, 1] Facts₀.bcast_S8192x8192_S8192x8192x1_0_1 s (takeIdx j))) ⟨0, Nat.one_pos⟩) (by
      rw [Shape.rowMajor_val_two, Shape.rowMajor_val_one]
      show min _ 101 * 1 + 0 = min _ (102 - 1)
      omega), hb]

/-- The start-indices index `(j₀, j₁, 0)` at which the reference's look-up at `j` reads its row. -/
abbrev rowIdx (j : Cert.ReferenceIdeal.S8192x8192.Idx) : Cert.ReferenceIdeal.S8192x8192x2.Idx :=
  fun a => match a with | ⟨0, _⟩ => ⟨(j 0).val, idx2_lt0 j⟩ | ⟨1, _⟩ => ⟨(j 1).val, idx2_lt1 j⟩ | ⟨2, _⟩ => ⟨0, Nat.two_pos⟩

local notation "gR" => Cert.ReferenceIdeal.gather_S102x1_S8192x8192x2_S8192x8192_n_01_n_n_01_2_11

/-- The reference's look-up at `j`: its start index has two components, the row read off the start indices at
    `(j₀, j₁, 0)`, signed and clamped into `[0, 101]`, and the column, clamped into `[0, 0]` whatever it is. -/
theorem gatherR_apply (x5 : Cert.ReferenceIdeal.S102x1.Idx → α) (idx : IVec Cert.ReferenceIdeal.S8192x8192x2 32)
    (j : Cert.ReferenceIdeal.S8192x8192.Idx) :
    Host.gather Cert.ReferenceIdeal.gather_S102x1_S8192x8192x2_S8192x8192_n_01_n_n_01_2_11 x5 idx j
      = x5 (ix2 (row (idx (rowIdx j))) ⟨0, Nat.one_pos⟩) := by
  unfold Host.gather
  refine congrArg x5 (funext fun a => Fin.ext ?_)
  match a with
  | ⟨0, _⟩ =>
    show (gR).start j idx 0
        + (gR).batchCoord j 0
        + (gR).offCoord j 0 = min _ 101
    rw [GatherDims.batchCoord_eq_zero _ _ _ List.not_mem_nil,
      GatherDims.offCoord_eq_zero _ _ _ (fun h => ((GatherDims.mem_sKept _ _).mp h).1 (show (0 : Fin 2) ∈ [(0 : Fin 2), 1] by decide))]
    simp only [Nat.add_zero]
    unfold GatherDims.start
    have hmem : (0 : Fin Cert.ReferenceIdeal.S102x1.rank) ∈ (gR).startIndexMap := show (0 : Fin 2) ∈ [(0 : Fin 2), 1] by decide
    rw [dif_pos hmem]
    have hsi : (gR).siIdx j ⟨List.idxOf (0 : Fin Cert.ReferenceIdeal.S102x1.rank) (gR).startIndexMap, List.idxOf_lt_length_iff.2 hmem⟩
          = rowIdx j := by
      funext b; refine Fin.ext ?_
      match b with
      | ⟨0, _⟩ => rfl
      | ⟨1, _⟩ => rfl
      | ⟨2, _⟩ => rfl
    rw [hsi]
    rfl
  | ⟨1, _⟩ =>
    show (gR).start j idx 1
        + (gR).batchCoord j 1
        + (gR).offCoord j 1 = 0
    rw [GatherDims.batchCoord_eq_zero _ _ _ List.not_mem_nil,
      GatherDims.offCoord_eq_zero _ _ _ (fun h => ((GatherDims.mem_sKept _ _).mp h).1 (show (1 : Fin 2) ∈ [(0 : Fin 2), 1] by decide))]
    have h := (gR).start_le j idx 1
    have h0 : Cert.ReferenceIdeal.S102x1.size 1 - (gR).sliceSizes 1 = 0 := rfl
    omega

end Gather

variable (m : (ℓ : Loc nD τ sig) → Buf (Elt Ideal) ℓ) (c : Dev nD)

/-- The device's arrays after the host stretch, from the launch contents `m`. -/
abbrev E1 : Valuation τ sig (Elt Ideal) := StableHlo.after (Gen.hostOps0 (F := Ideal)) (fun b => m (c, b))

/-- The activations cast to the narrow format: themselves. -/
theorem v8_apply (i : S8192x1024.Idx) :
    (E1 m c (Proc.devRef .tc main_v8) : S8192x1024.Idx → EReal) i = (m ((c : Thread nD τ).loc main_arg0) : S8192x1024.Idx → EReal) i := by
  have e : (E1 m c (Proc.devRef .tc main_v8) : S8192x1024.Idx → EReal)
      = (truncf .bf16 (m ((c : Thread nD τ).loc main_arg0) : FVec Ideal S8192x1024 .f32) Facts₀.bitsLt_bf16_f32 : FVec Ideal S8192x1024 .bf16) := by
    dsimp only [E1, Gen.hostOps0]; after_results <;> rfl
  rw [e]; rfl

/-- The query weights times the scale literal, cast. -/
theorem v11_apply (i : S1024x1024.Idx) :
    (E1 m c (Proc.devRef .tc main_v11) : S1024x1024.Idx → EReal) i
      = @HMul.hMul EReal EReal EReal instHMul ((m ((c : Thread nD τ).loc main_arg2) : S1024x1024.Idx → EReal) i) (Ideal.ofBits .f32 0x3D000000#32) := by
  have e : (E1 m c (Proc.devRef .tc main_v11) : S1024x1024.Idx → EReal)
      = (truncf .bf16 (mulf (m ((c : Thread nD τ).loc main_arg2) : FVec Ideal S1024x1024 .f32)
          (broadcastInDim S1024x1024 ![] Facts₀.bcast_S_S1024x1024 (constant (F := Ideal) S_ .f32 0x3D000000#32))) Facts₀.bitsLt_bf16_f32 : FVec Ideal S1024x1024 .bf16) := by
    dsimp only [E1, Gen.hostOps0]; after_results <;> rfl
  rw [e, truncf_apply, mulf_apply]
  rfl

/-- The key weights cast: themselves. -/
theorem v12_apply (i : S1024x1024.Idx) :
    (E1 m c (Proc.devRef .tc main_v12) : S1024x1024.Idx → EReal) i = (m ((c : Thread nD τ).loc main_arg3) : S1024x1024.Idx → EReal) i := by
  have e : (E1 m c (Proc.devRef .tc main_v12) : S1024x1024.Idx → EReal)
      = (truncf .bf16 (m ((c : Thread nD τ).loc main_arg3) : FVec Ideal S1024x1024 .f32) Facts₀.bitsLt_bf16_f32 : FVec Ideal S1024x1024 .bf16) := by
    dsimp only [E1, Gen.hostOps0]; after_results <;> rfl
  rw [e]; rfl

/-- The value weights cast: themselves. -/
theorem v13_apply (i : S1024x1024.Idx) :
    (E1 m c (Proc.devRef .tc main_v13) : S1024x1024.Idx → EReal) i = (m ((c : Thread nD τ).loc main_arg4) : S1024x1024.Idx → EReal) i := by
  have e : (E1 m c (Proc.devRef .tc main_v13) : S1024x1024.Idx → EReal)
      = (truncf .bf16 (m ((c : Thread nD τ).loc main_arg4) : FVec Ideal S1024x1024 .f32) Facts₀.bitsLt_bf16_f32 : FVec Ideal S1024x1024 .bf16) := by
    dsimp only [E1, Gen.hostOps0]; after_results <;> rfl
  rw [e]; rfl

/-- The reference's start indices at `(j₀, j₁, 0)`: the first of the two joined pieces, the wrapped distance at `j`. -/
theorem startIdx_row (x1 : (⟨Cert.ReferenceIdeal.S8192x8192, .i32⟩ : BufTy).Contents (Elt Ideal)) (j : Cert.ReferenceIdeal.S8192x8192.Idx) :
    Cert.ReferenceIdeal.Read.val_main_v12 (F := Ideal) x1 (rowIdx j) = Cert.ReferenceIdeal.Read.val_main_v7 (F := Ideal) x1 j := by
  unfold Cert.ReferenceIdeal.Read.val_main_v12
  rw [concatenate_pair_apply_left (t := Cert.ReferenceIdeal.S8192x8192x2) (s₁ := Cert.ReferenceIdeal.S8192x8192x1)
    (s₂ := Cert.ReferenceIdeal.S8192x8192x1) 2 _ _ _ (rowIdx j) rfl (takeIdx j) (fun b => match b with
    | ⟨0, _⟩ => rfl
    | ⟨1, _⟩ => rfl
    | ⟨2, _⟩ => rfl), Cert.ReferenceIdeal.Read.val_main_v10_apply]
  refine congrArg _ (funext fun a => ?_)
  match a with
  | ⟨0, _⟩ => rfl
  | ⟨1, _⟩ => rfl

/-- THE BIAS: the kernel program's look-up into the flattened column is the reference's look-up into the table —
    at every pair the table's entry in the row of the wrapped, clamped distance, column 0. -/
theorem v7_eq :
    (E1 m c (Proc.devRef .tc main_v7) : S8192x8192.Idx → EReal)
      = Cert.ReferenceIdeal.Read.val_main_v13 (F := Ideal) (m ((c : Thread nD τ).loc main_arg1)) (m ((c : Thread nD τ).loc main_arg5)) := by
  have e : (E1 m c (Proc.devRef .tc main_v7) : S8192x8192.Idx → EReal)
      = Host.gather gather_S102_S8192x8192x1_S8192x8192_n_0_n_n_0_2_1
          (shapeCast S102 (m ((c : Thread nD τ).loc main_arg5) : S102x1.Idx → EReal) Facts₀.shapeCasts_S102x1_S102)
          (broadcastInDim S8192x8192x1 ![0, 1] Facts₀.bcast_S8192x8192_S8192x8192x1_0_1
            (Cert.ReferenceIdeal.Read.val_main_v7 (F := Ideal) (m ((c : Thread nD τ).loc main_arg1)))) := by
    dsimp only [E1, Gen.hostOps0]; after_results <;> rfl
  rw [e]
  funext j
  rw [gatherK_apply]
  unfold Cert.ReferenceIdeal.Read.val_main_v13
  rw [gatherR_apply, startIdx_row]

/-- Every entry of the bias is an entry of the table: finite when the table is. -/
theorem bias_fin (x1 : (⟨Cert.ReferenceIdeal.S8192x8192, .i32⟩ : BufTy).Contents (Elt Ideal))
    (x5 : (⟨Cert.ReferenceIdeal.S102x1, .f32⟩ : BufTy).Contents (Elt Ideal)) (h5 : ∀ i, x5 i ≠ ⊤ ∧ x5 i ≠ ⊥) :
    ∀ i, Cert.ReferenceIdeal.Read.val_main_v13 (F := Ideal) x1 x5 i ≠ ⊤ ∧ Cert.ReferenceIdeal.Read.val_main_v13 (F := Ideal) x1 x5 i ≠ ⊥ := by
  intro i
  unfold Cert.ReferenceIdeal.Read.val_main_v13
  rw [gatherR_apply]
  exact h5 _

end Cert.KernelIdeal.HostVals
-- ==== Proof.Spec.lean ====
/-
  The mathematics of the certificate, over the reals.

  One row of attention: scores `s c` over the 8192 key positions `c`, one column `v c` of the values. The reference
  computes `∑ c, (exp (s c - M) / ∑ c', exp (s c' - M)) * v c` for a shift `M` (the row's maximum). The kernel walks
  the keys in 16 blocks of 512, carrying a shift `m j`, a normaliser `lSeq j` and an accumulator `aSeq j`, rescaling
  both by `exp (m j - m (j+1))` when the shift moves, and divides at the end. For ANY shifts `m`, `M` the two are
  the same real number: after `j` blocks `lSeq j = ∑ c < 512 j, exp (s c - m j)` and
  `aSeq j = ∑ c < 512 j, exp (s c - m j) * v c` (exp turns the change of shift into a common factor), and a common
  factor `exp (M - m 16)` cancels in the quotient. The scores themselves: the kernel folds the scale `σ` into the query
  projection's weights, the reference multiplies the finished dot product by it; over the reals the two agree.
-/
import Idealize.ShloMosaic.PureOps.Ideal
import Idealize.ShloMosaic.Lib.ValueIdx

noncomputable section

open scoped BigOperators
open Finset

namespace Cert.Spec

/-- Entry `(r, e)` of the product of `x` (rows of length 1024) with `w`. -/
def proj (x w : ℕ → ℕ → ℝ) (r e : ℕ) : ℝ := ∑ i ∈ range 1024, x r i * w i e

/-- The reference's score of query row `r` against key row `c`: the dot product of the two projections, scaled, plus the bias. -/
def scoreR (σ : ℝ) (x wq wk b : ℕ → ℕ → ℝ) (r c : ℕ) : ℝ :=
  (∑ e ∈ range 1024, proj x wq r e * proj x wk c e) * σ + b r c

/-- The kernel's score: the scale folded into the query weights. -/
def scoreK (σ : ℝ) (x wq wk b : ℕ → ℕ → ℝ) (r c : ℕ) : ℝ :=
  (∑ e ∈ range 1024, proj x (fun i e => wq i e * σ) r e * proj x wk c e) + b r c

theorem scoreK_eq (σ : ℝ) (x wq wk b : ℕ → ℕ → ℝ) (r c : ℕ) :
    scoreK σ x wq wk b r c = scoreR σ x wq wk b r c := by
  unfold scoreK scoreR proj
  congr 1
  rw [Finset.sum_mul]
  refine Finset.sum_congr rfl (fun e _ => ?_)
  have h : (∑ i ∈ range 1024, x r i * (wq i e * σ)) = (∑ i ∈ range 1024, x r i * wq i e) * σ := by
    rw [Finset.sum_mul]
    exact Finset.sum_congr rfl (fun i _ => by ring)
  rw [h]
  ring

/-- The kernel's running normaliser after `j` blocks of 512 keys, under the shifts `m`. -/
def lSeq (s : ℕ → ℝ) (m : ℕ → ℝ) : ℕ → ℝ
  | 0 => 0
  | j + 1 => Real.exp (m j - m (j + 1)) * lSeq s m j + ∑ c ∈ range 512, Real.exp (s (512 * j + c) - m (j + 1))

/-- The kernel's running accumulator after `j` blocks, for the value column `v`. -/
def aSeq (s v : ℕ → ℝ) (m : ℕ → ℝ) : ℕ → ℝ
  | 0 => 0
  | j + 1 => Real.exp (m j - m (j + 1)) * aSeq s v m j
      + ∑ c ∈ range 512, Real.exp (s (512 * j + c) - m (j + 1)) * v (512 * j + c)

/-- The reference's row: softmax weights under the shift `M`, applied to the value column. -/
def softmaxOut (s v : ℕ → ℝ) (M : ℝ) : ℝ :=
  ∑ c ∈ range 8192, (Real.exp (s c - M) / ∑ c' ∈ range 8192, Real.exp (s c' - M)) * v c

theorem lSeq_eq (s m : ℕ → ℝ) (j : ℕ) : lSeq s m j = ∑ c ∈ range (512 * j), Real.exp (s c - m j) := by
  induction j with
  | zero => simp [lSeq]
  | succ j ih =>
    have h512 : 512 * (j + 1) = 512 * j + 512 := by ring
    rw [lSeq, ih, h512, Finset.sum_range_add, Finset.mul_sum]
    congr 1
    refine Finset.sum_congr rfl (fun c _ => ?_)
    rw [← Real.exp_add]
    congr 1
    ring

theorem aSeq_eq (s v m : ℕ → ℝ) (j : ℕ) :
    aSeq s v m j = ∑ c ∈ range (512 * j), Real.exp (s c - m j) * v c := by
  induction j with
  | zero => simp [aSeq]
  | succ j ih =>
    have h512 : 512 * (j + 1) = 512 * j + 512 := by ring
    rw [aSeq, ih, h512, Finset.sum_range_add, Finset.mul_sum]
    congr 1
    refine Finset.sum_congr rfl (fun c _ => ?_)
    rw [← mul_assoc, ← Real.exp_add]
    congr 2
    ring

/-- Sixteen blocks of the online recurrence, divided at the end, are the softmax row: for any shifts. -/
theorem online_eq_softmax (s v m : ℕ → ℝ) (M : ℝ) :
    aSeq s v m 16 / lSeq s m 16 = softmaxOut s v M := by
  have hE : 0 < Real.exp (M - m 16) := Real.exp_pos _
  -- the change of shift is a common factor
  have hsplit : ∀ c, Real.exp (s c - m 16) = Real.exp (M - m 16) * Real.exp (s c - M) := by
    intro c
    rw [← Real.exp_add]
    congr 1
    ring
  have h8192 : 512 * 16 = 8192 := by norm_num
  rw [aSeq_eq, lSeq_eq, h8192]
  unfold softmaxOut
  simp only [hsplit, mul_assoc]
  rw [← Finset.mul_sum, ← Finset.mul_sum, mul_div_mul_left _ _ hE.ne', Finset.sum_div]
  refine Finset.sum_congr rfl (fun c _ => ?_)
  ring

/-- The normaliser after at least one block is positive. -/
theorem lSeq_pos (s m : ℕ → ℝ) (j : ℕ) (hj : 0 < j) : 0 < lSeq s m j := by
  rw [lSeq_eq]
  refine Finset.sum_pos (fun c _ => Real.exp_pos _) ?_
  rw [Finset.nonempty_range_iff]
  omega

/-! ## Arrays of extended reals read as real functions -/

/-- The real reading of a rank-2 array of extended reals, as a function on `ℕ × ℕ` (zero outside the shape). -/
def toN2 {A B : ℕ} (a : (⟨2, ![A, B]⟩ : Idealize.ShloMosaic.Shape).Idx → EReal) (r k : ℕ) : ℝ :=
  if h : r < A ∧ k < B then (a (Idealize.ShloMosaic.ValueIdx.ix2 ⟨r, h.1⟩ ⟨k, h.2⟩)).toReal else 0

theorem toN2_apply {A B : ℕ} (a : (⟨2, ![A, B]⟩ : Idealize.ShloMosaic.Shape).Idx → EReal) (r : Fin A) (k : Fin B) :
    toN2 a r.val k.val = (a (Idealize.ShloMosaic.ValueIdx.ix2 r k)).toReal := by
  unfold toN2
  rw [dif_pos ⟨r.isLt, k.isLt⟩]

/-- A finite entry is the coercion of its real reading. -/
theorem coe_toN2 {A B : ℕ} (a : (⟨2, ![A, B]⟩ : Idealize.ShloMosaic.Shape).Idx → EReal) (r : Fin A) (k : Fin B)
    (htop : a (Idealize.ShloMosaic.ValueIdx.ix2 r k) ≠ ⊤) (hbot : a (Idealize.ShloMosaic.ValueIdx.ix2 r k) ≠ ⊥) :
    ((toN2 a r.val k.val : ℝ) : EReal) = a (Idealize.ShloMosaic.ValueIdx.ix2 r k) := by
  rw [toN2_apply, EReal.coe_toReal htop hbot]

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- A sum over `Fin n` of a function of the value is the sum over `range n`. -/
theorem sum_fin_eq_range (n : ℕ) (f : ℕ → ℝ) : ∑ k : Fin n, f k.val = ∑ k ∈ range n, f k :=
  Fin.sum_univ_eq_sum_range f n

end Cert.Spec

end
-- ==== Proof.Consts.lean ====
/-
  The float constants the certificate's programs spell, as the extended reals their bit patterns denote:
  the zero, the scale 1/32 folded into the scores, the large negative starting shift of the running maximum
  (a finite real), and minus infinity.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern `0x3D000000` (exponent field 122, mantissa 0) denotes `2⁻⁵ = 1/32`. -/
theorem ofBits_scale : Ideal.ofBits .f32 0x3D000000#32 = (((1 : ℝ) / 32 : ℝ) : EReal) := by
  simp [Ideal.ofBits, Ideal.ieee, -EReal.coe_mul]; norm_num

/-- The pattern `0xFF333332` (sign set, exponent field 254, a mantissa) denotes the finite real
    `-(2²³ + 3355442) · 2¹⁰⁴ = -11744050 · 2¹⁰⁴`. -/
theorem ofBits_negbig : ∃ ν : ℝ, Ideal.ofBits .f32 0xFF333332#32 = ((ν : ℝ) : EReal) := by
  refine ⟨-(11744050 : ℝ) * (2 : ℝ) ^ (104 : ℕ), ?_⟩
  simp [Ideal.ofBits, Ideal.ieee, -EReal.coe_mul]

/-- The pattern `0xFF800000` (sign set, exponent field 255, mantissa 0) denotes `-∞`. -/
theorem ofBits_ninf : Ideal.ofBits .f32 0xFF800000#32 = ⊥ := by
  simp [Ideal.ofBits, Ideal.ieee]

end Cert.Consts

end
-- ==== Proof.KI.StepReal.lean ====
/-
  One update step of the attention kernel, read at an index, as real numbers.

  The block of scores at (p, c) is the dot product of row p of the query block with row c of the key block, plus the
  bias entry. The new shift of row p is the larger of the old shift and the row's largest score; with every input
  finite it is a real number. The weights exp (score - new shift) and the rescaling factor exp (old shift - new shift)
  are then real exponentials, and the new normaliser and accumulator are the real sums the online-softmax recurrence
  writes: rescaled old value plus the block's sum of weights (times the value block's column).
-/
import proofs.«418636_j9964324127022_3_alg».proof.Proof.KI.Steps
import proofs.«418636_j9964324127022_3_alg».proof.Proof.Spec
import proofs.«418636_j9964324127022_3_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandVal

open Cert.KernelIdeal Cert.KernelIdeal.Gen Cert.KernelIdeal.Hand Cert.Spec Idealize.ShloMosaic Idealize.ShloMosaic.ValueIdx
open scoped BigOperators

/-! ## Real scores, and arrays of real numbers -/

/-- A block's real scores: row `p` of the query block against row `c` of the key block, plus the bias entry. -/
def sBlk (qR kR bR : ℕ → ℕ → ℝ) (p c : ℕ) : ℝ := (∑ e ∈ Finset.range 1024, qR p e * kR c e) + bR p c

/-- Every entry of the array is a real number: neither infinity. -/
def FiniteArr {S : Shape} (a : S.Idx → EReal) : Prop := ∀ i, a i ≠ ⊤ ∧ a i ≠ ⊥

/-! ## Layout operations of the column shapes, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products read at an index -/

/-- The operand indices of the score product at output index `i` and contraction index `q`, axis by axis: the left
    operand is read at `(i 0, q)`, the right one at `(q, i 1)`. -/
theorem lhs_s_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_s_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_s_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_s_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The query block times the transposed key block, into zero: at `(p, c)` the sum over the 1024 features. -/
theorem matmul_s_apply (x : FVec Ideal S1024x1024 .bf16) (y : FVec Ideal S1024x512 .bf16) (p : Fin 1024) (c : Fin 512) :
    matmul dot_S1024x1024_S1024x512_S1024x512_1_0_0_1_n_n none x y (constant (F := Ideal) S1024x512 .f32 0x00000000#32) (ix2 p c)
      = ∑ e : Fin 1024, x (ix2 p e) * y (ix2 e c) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p c) ((ValueIdx.contrEquiv1 dot_S1024x1024_S1024x512_S1024x512_1_0_0_1_n_n 1024 rfl rfl).symm k) = ix2 p k := funext fun a => Fin.ext (by
    match a with
    | ⟨0, _⟩ => exact lhs_s_0 _ _
    | ⟨1, _⟩ => exact (lhs_s_1 _ _).trans hk)
  have er : dot_S1024x1024_S1024x512_S1024x512_1_0_0_1_n_n.rhsIdx (ix2 p c) ((ValueIdx.contrEquiv1 dot_S1024x1024_S1024x512_S1024x512_1_0_0_1_n_n 1024 rfl rfl).symm k) = ix2 k c := funext fun a => Fin.ext (by
    match a with
    | ⟨0, _⟩ => exact (rhs_s_0 _ _).trans hk
    | ⟨1, _⟩ => exact rhs_s_1 _ _)
  rw [el, er]

/-- The same for the product of the weights with the value block: left operand at `(i 0, q)`, right one at `(q, i 1)`. -/
theorem lhs_a_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_a_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_a_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_a_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block of weights times the value block, into zero: at `(p, d)` the sum over the block's 512 keys. -/
theorem matmul_a_apply (x : FVec Ideal S1024x512 .bf16) (y : FVec Ideal S512x1024 .bf16) (p d : Fin 1024) :
    matmul dot_S1024x512_S512x1024_S1024x1024_1_0_0_1_n_n none x y (constant (F := Ideal) S1024x1024 .f32 0x00000000#32) (ix2 p d)
      = ∑ c : Fin 512, x (ix2 p c) * y (ix2 c d) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p d) ((ValueIdx.contrEquiv1 dot_S1024x512_S512x1024_S1024x1024_1_0_0_1_n_n 512 rfl rfl).symm k) = ix2 p k := funext fun a => Fin.ext (by
    match a with
    | ⟨0, _⟩ => exact lhs_a_0 _ _
    | ⟨1, _⟩ => exact (lhs_a_1 _ _).trans hk)
  have er : dot_S1024x512_S512x1024_S1024x1024_1_0_0_1_n_n.rhsIdx (ix2 p d) ((ValueIdx.contrEquiv1 dot_S1024x512_S512x1024_S1024x1024_1_0_0_1_n_n 512 rfl rfl).symm k) = ix2 k d := funext fun a => Fin.ext (by
    match a with
    | ⟨0, _⟩ => exact (rhs_a_0 _ _).trans hk
    | ⟨1, _⟩ => exact rhs_a_1 _ _)
  rw [el, er]

/-! ## The two lane reductions read at a row -/

/-- The index of the block over row `p` with coordinate `c` put back on the reduced axis is `(p, c)`. -/
theorem lift_row (h : S1024x512.Reduces [1] S1024) (p : Fin 1024) (c : Fin 512) : h.lift (ix1 p) c = ix2 p c :=
  funext fun a => Fin.ext (by
    match a with
    | ⟨0, _⟩ => rfl
    | ⟨1, _⟩ => rfl)

/-- The row maximum from minus infinity: the fold of `max` from `⊥` over the row's 512 entries. -/
theorem rowmax_apply (src : FVec Ideal S1024x512 .f32) (h : S1024x512.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p)
      = (Finset.univ : Finset (Fin 512)).fold max ⊥ (fun c => src (ix2 p c)) := by
  refine (Ideal.multiReduction_maximumf_single src 0xFF800000#32 h hφ hacc (ix1 p)).trans ?_
  show (Finset.univ : Finset (Fin 512)).fold max (Ideal.ofBits .f32 0xFF800000#32) (fun c => src (h.lift (ix1 p) c)) = _
  rw [Cert.Consts.ofBits_ninf]
  congr 1
  funext c
  exact congrArg src (lift_row h p c)

/-- The row sum from zero: the sum of the row's 512 entries. -/
theorem rowsum_apply (src : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ c : Fin 512, src (ix2 p c) := by
  refine (Ideal.multiReduction_add_single src 0x00000000#32 h hφ hacc (ix1 p)).trans ?_
  show ∑ c : Fin 512, src (h.lift (ix1 p) c) = _
  exact Finset.sum_congr rfl fun c _ => congrArg src (lift_row h p c)

/-! ## The block of scores -/

/-- The block of scores at `(p, c)`: row `p` of the query block against row `c` of the key block, plus the bias entry. -/
theorem pay8_apply (q : Vec Ideal S1024x1024 .bf16) (kb : Vec Ideal S512x1024 .bf16) (bias : Vec Ideal S1024x512 .f32)
    (p : Fin 1024) (c : Fin 512) :
    k1_pay8 q kb bias (ix2 p c) = (∑ e : Fin 1024, q (ix2 p e) * kb (ix2 c e)) + bias (ix2 p c) := by
  unfold k1_pay8
  simp only [shapeCast_self]
  rw [addf_apply, matmul_s_apply]
  congr 1
  refine Finset.sum_congr rfl fun e _ => ?_
  rw [transpose_ix2_apply]

/-- With finite blocks the score is the real number `sBlk`. -/
theorem pay8_real (q : Vec Ideal S1024x1024 .bf16) (kb : Vec Ideal S512x1024 .bf16) (bias : Vec Ideal S1024x512 .f32)
    (hq : FiniteArr q) (hk : FiniteArr kb) (hb : FiniteArr bias) (p : Fin 1024) (c : Fin 512) :
    k1_pay8 q kb bias (ix2 p c) = ((sBlk (toN2 q) (toN2 kb) (toN2 bias) p.val c.val : ℝ) : EReal) := by
  have hs : sBlk (toN2 q) (toN2 kb) (toN2 bias) p.val c.val
      = (∑ e : Fin 1024, toN2 q p.val e.val * toN2 kb c.val e.val) + toN2 bias p.val c.val := by
    unfold sBlk
    rw [sum_fin_eq_range 1024 (fun e => toN2 q p.val e * toN2 kb c.val e)]
  rw [pay8_apply, hs, EReal.coe_add, coe_sum, coe_toN2 bias p c (hb _).1 (hb _).2]
  congr 1
  refine Finset.sum_congr rfl fun e _ => ?_
  rw [EReal.coe_mul, coe_toN2 q p e (hq _).1 (hq _).2, coe_toN2 kb c e (hk _).1 (hk _).2]

/-! ## The new shift -/

/-- The stored shift is the computed one: the store's same-shape cast is the identity. -/
theorem stepM_eq (q : Vec Ideal S1024x1024 .bf16) (kb : Vec Ideal S512x1024 .bf16) (bias : Vec Ideal S1024x512 .f32)
    (m0 : Vec Ideal S1024x1 .f32) : stepM q kb bias m0 = k1_pay9 q kb bias m0 := by
  unfold stepM k1_pay2
  exact shapeCast_self _ _

/-- The new shift of row `p`: the larger of the old shift and the row's largest score. -/
theorem pay9_apply (q : Vec Ideal S1024x1024 .bf16) (kb : Vec Ideal S512x1024 .bf16) (bias : Vec Ideal S1024x512 .f32)
    (m0 : Vec Ideal S1024x1 .f32) (p : Fin 1024) :
    k1_pay9 q kb bias m0 (ix2 p (0 : Fin 1))
      = max (m0 (ix2 p (0 : Fin 1))) ((Finset.univ : Finset (Fin 512)).fold max ⊥ (fun c => k1_pay8 q kb bias (ix2 p c))) := by
  unfold k1_pay9
  dsimp only
  rw [maximumf_apply, shapeCast_a_a1_apply]
  exact congrArg (max (m0 (ix2 p (0 : Fin 1)))) (rowmax_apply (k1_pay8 q kb bias) _ _ _ p)

/-- Every index of a column is `(p, 0)`. -/
theorem col_idx (i : S1024x1.Idx) : ∃ p : Fin 1024, i = ix2 p (0 : Fin 1) := by
  obtain ⟨p, u, rfl⟩ : ∃ (p : Fin 1024) (u : Fin 1), i = ix2 p u := ⟨i 0, i 1, eq_ix2 i⟩
  have hu : u = 0 := Subsingleton.elim _ _
  subst hu
  exact ⟨p, rfl⟩

/-- With finite blocks and a finite old shift the new shift is finite: it is below `⊤` because the old shift and every
    score are, and above `⊥` because it is at least the old shift. -/
theorem stepM_fin (q : Vec Ideal S1024x1024 .bf16) (kb : Vec Ideal S512x1024 .bf16) (bias : Vec Ideal S1024x512 .f32)
    (m0 : Vec Ideal S1024x1 .f32) (hq : FiniteArr q) (hk : FiniteArr kb) (hb : FiniteArr bias) (hm : FiniteArr m0) :
    FiniteArr (stepM q kb bias m0) := by
  intro i
  obtain ⟨p, rfl⟩ := col_idx i
  rw [stepM_eq, pay9_apply]
  constructor
  · apply ne_of_lt
    rw [max_lt_iff]
    refine ⟨lt_top_iff_ne_top.2 (hm _).1, (Finset.fold_max_lt _).2 ⟨bot_lt_top, fun c _ => ?_⟩⟩
    rw [pay8_real q kb bias hq hk hb]
    exact EReal.coe_lt_top _
  · apply ne_of_gt
    exact lt_of_lt_of_le (bot_lt_iff_ne_bot.2 (hm _).2) (le_max_left _ _)

/-! ## The rescaling factor and the weights -/

/-- The exponential of a difference of two reals, taken in the extended reals, is the real exponential. -/
theorem exp_sub_coe (a b : ℝ) : Ideal.exp ((a : EReal) - (b : EReal)) = ((Real.exp (a - b) : ℝ) : EReal) := by
  rw [← EReal.coe_sub]
  rfl

/-- The rescaling factor of row `p`: the exponential of old shift minus new shift. -/
theorem pay10_apply (q : Vec Ideal S1024x1024 .bf16) (kb : Vec Ideal S512x1024 .bf16) (bias : Vec Ideal S1024x512 .f32)
    (m0 : Vec Ideal S1024x1 .f32) (p : Fin 1024) :
    k1_pay10 q kb bias m0 m0 (ix2 p (0 : Fin 1))
      = Ideal.exp (m0 (ix2 p (0 : Fin 1)) - stepM q kb bias m0 (ix2 p (0 : Fin 1))) := by
  rw [stepM_eq]
  rfl

/-- The weight at `(p, c)`: the exponential of the score minus the row's new shift. -/
theorem pay11_apply (q : Vec Ideal S1024x1024 .bf16) (kb : Vec Ideal S512x1024 .bf16) (bias : Vec Ideal S1024x512 .f32)
    (m0 : Vec Ideal S1024x1 .f32) (p : Fin 1024) (c : Fin 512) :
    k1_pay11 q kb bias m0 (ix2 p c)
      = Ideal.exp (k1_pay8 q kb bias (ix2 p c) - stepM q kb bias m0 (ix2 p (0 : Fin 1))) := by
  rw [stepM_eq]
  unfold k1_pay11
  show Ideal.exp (k1_pay8 q kb bias (ix2 p c)
    - broadcastTo S1024x512 (k1_pay9 q kb bias m0) broadcasts_S1024x1_S1024x512 (ix2 p c)) = _
  rw [broadcastTo_a1_ab_apply]

/-- The rescaling factor as a real exponential. -/
theorem pay10_real (q : Vec Ideal S1024x1024 .bf16) (kb : Vec Ideal S512x1024 .bf16) (bias : Vec Ideal S1024x512 .f32)
    (m0 : Vec Ideal S1024x1 .f32) (hq : FiniteArr q) (hk : FiniteArr kb) (hb : FiniteArr bias) (hm : FiniteArr m0)
    (p : Fin 1024) :
    k1_pay10 q kb bias m0 m0 (ix2 p (0 : Fin 1))
      = ((Real.exp ((m0 (ix2 p (0 : Fin 1))).toReal - (stepM q kb bias m0 (ix2 p (0 : Fin 1))).toReal) : ℝ) : EReal) := by
  have h1 := stepM_fin q kb bias m0 hq hk hb hm (ix2 p (0 : Fin 1))
  obtain ⟨a, ha⟩ : ∃ a : ℝ, m0 (ix2 p (0 : Fin 1)) = (a : EReal) := ⟨_, (EReal.coe_toReal (hm _).1 (hm _).2).symm⟩
  obtain ⟨b, hb'⟩ : ∃ b : ℝ, stepM q kb bias m0 (ix2 p (0 : Fin 1)) = (b : EReal) := ⟨_, (EReal.coe_toReal h1.1 h1.2).symm⟩
  rw [pay10_apply, ha, hb', EReal.toReal_coe, EReal.toReal_coe, exp_sub_coe]

/-- The weight as a real exponential. -/
theorem pay11_real (q : Vec Ideal S1024x1024 .bf16) (kb : Vec Ideal S512x1024 .bf16) (bias : Vec Ideal S1024x512 .f32)
    (m0 : Vec Ideal S1024x1 .f32) (hq : FiniteArr q) (hk : FiniteArr kb) (hb : FiniteArr bias) (hm : FiniteArr m0)
    (p : Fin 1024) (c : Fin 512) :
    k1_pay11 q kb bias m0 (ix2 p c)
      = ((Real.exp (sBlk (toN2 q) (toN2 kb) (toN2 bias) p.val c.val - (stepM q kb bias m0 (ix2 p (0 : Fin 1))).toReal) : ℝ) : EReal) := by
  have h1 := stepM_fin q kb bias m0 hq hk hb hm (ix2 p (0 : Fin 1))
  obtain ⟨b, hb'⟩ : ∃ b : ℝ, stepM q kb bias m0 (ix2 p (0 : Fin 1)) = (b : EReal) := ⟨_, (EReal.coe_toReal h1.1 h1.2).symm⟩
  rw [pay11_apply, pay8_real q kb bias hq hk hb, hb', EReal.toReal_coe, exp_sub_coe]

/-! ## The new normaliser -/

/-- The new normaliser of row `p`: the old one rescaled, plus the row's sum of weights. -/
theorem stepL_apply (q : Vec Ideal S1024x1024 .bf16) (kb : Vec Ideal S512x1024 .bf16) (bias : Vec Ideal S1024x512 .f32)
    (m0 l0 : Vec Ideal S1024x1 .f32) (p : Fin 1024) :
    stepL q kb bias m0 l0 (ix2 p (0 : Fin 1))
      = k1_pay10 q kb bias m0 m0 (ix2 p (0 : Fin 1)) * l0 (ix2 p (0 : Fin 1))
        + ∑ c : Fin 512, k1_pay11 q kb bias m0 (ix2 p c) := by
  unfold stepL k1_pay12
  simp only [shapeCast_self]
  rw [addf_apply, mulf_apply, shapeCast_a_a1_apply]
  exact congrArg (k1_pay10 q kb bias m0 m0 (ix2 p (0 : Fin 1)) * l0 (ix2 p (0 : Fin 1)) + ·)
    (rowsum_apply (k1_pay11 q kb bias m0) _ _ _ p)

/-- With finite inputs the new normaliser is the real number of the online recurrence: the old normaliser times the
    exponential of the change of shift, plus the sum over the block's 512 keys of the exponentials of score minus new shift. -/
theorem stepL_real (q : Vec Ideal S1024x1024 .bf16) (kb : Vec Ideal S512x1024 .bf16) (bias : Vec Ideal S1024x512 .f32)
    (m0 l0 : Vec Ideal S1024x1 .f32) (hq : FiniteArr q) (hk : FiniteArr kb) (hb : FiniteArr bias) (hm : FiniteArr m0)
    (hl : FiniteArr l0) (p : Fin 1024) :
    stepL q kb bias m0 l0 (ix2 p (0 : Fin 1))
      = ((Real.exp ((m0 (ix2 p 0)).toReal - (stepM q kb bias m0 (ix2 p 0)).toReal) * (l0 (ix2 p 0)).toReal
          + ∑ c ∈ Finset.range 512, Real.exp (sBlk (toN2 q) (toN2 kb) (toN2 bias) p.val c - (stepM q kb bias m0 (ix2 p 0)).toReal) : ℝ) : EReal) := by
  rw [stepL_apply, pay10_real q kb bias m0 hq hk hb hm,
    ← sum_fin_eq_range 512 (fun c => Real.exp (sBlk (toN2 q) (toN2 kb) (toN2 bias) p.val c - (stepM q kb bias m0 (ix2 p 0)).toReal)),
    EReal.coe_add, EReal.coe_mul, coe_sum, EReal.coe_toReal (hl _).1 (hl _).2]
  congr 1
  exact Finset.sum_congr rfl fun c _ => pay11_real q kb bias m0 hq hk hb hm p c

/-- The new normaliser is finite. -/
theorem stepL_fin (q : Vec Ideal S1024x1024 .bf16) (kb : Vec Ideal S512x1024 .bf16) (bias : Vec Ideal S1024x512 .f32)
    (m0 l0 : Vec Ideal S1024x1 .f32) (hq : FiniteArr q) (hk : FiniteArr kb) (hb : FiniteArr bias) (hm : FiniteArr m0)
    (hl : FiniteArr l0) : FiniteArr (stepL q kb bias m0 l0) := by
  intro i
  obtain ⟨p, rfl⟩ := col_idx i
  rw [stepL_real q kb bias m0 l0 hq hk hb hm hl]
  exact ⟨EReal.coe_ne_top _, EReal.coe_ne_bot _⟩

/-! ## The new accumulator -/

/-- The new accumulator at `(p, d)`: the old one rescaled, plus the row's weights against column `d` of the value block. -/
theorem stepA_apply (q : Vec Ideal S1024x1024 .bf16) (kb vb : Vec Ideal S512x1024 .bf16) (bias : Vec Ideal S1024x512 .f32)
    (m0 : Vec Ideal S1024x1 .f32) (a0 : Vec Ideal S1024x1024 .f32) (p d : Fin 1024) :
    stepA q kb vb bias m0 a0 (ix2 p d)
      = k1_pay10 q kb bias m0 m0 (ix2 p (0 : Fin 1)) * a0 (ix2 p d)
        + ∑ c : Fin 512, k1_pay11 q kb bias m0 (ix2 p c) * vb (ix2 c d) := by
  unfold stepA k1_pay1 k1_pay7
  simp only [shapeCast_self]
  rw [addf_apply, mulf_apply, broadcastTo_a1_ab_apply, matmul_a_apply]
  rfl

/-- With finite inputs the new accumulator is the real number of the online recurrence: the old accumulator rescaled, plus
    the sum over the block's 512 keys of the weight times the value entry. -/
theorem stepA_real (q : Vec Ideal S1024x1024 .bf16) (kb vb : Vec Ideal S512x1024 .bf16) (bias : Vec Ideal S1024x512 .f32)
    (m0 : Vec Ideal S1024x1 .f32) (a0 : Vec Ideal S1024x1024 .f32)
    (hq : FiniteArr q) (hk : FiniteArr kb) (hb : FiniteArr bias) (hm : FiniteArr m0)
    (hv : FiniteArr vb) (ha : FiniteArr a0) (p d : Fin 1024) :
    stepA q kb vb bias m0 a0 (ix2 p d)
      = ((Real.exp ((m0 (ix2 p 0)).toReal - (stepM q kb bias m0 (ix2 p 0)).toReal) * (a0 (ix2 p d)).toReal
          + ∑ c ∈ Finset.range 512, Real.exp (sBlk (toN2 q) (toN2 kb) (toN2 bias) p.val c - (stepM q kb bias m0 (ix2 p 0)).toReal)
              * toN2 vb c d.val : ℝ) : EReal) := by
  rw [stepA_apply, pay10_real q kb bias m0 hq hk hb hm,
    ← sum_fin_eq_range 512 (fun c => Real.exp (sBlk (toN2 q) (toN2 kb) (toN2 bias) p.val c - (stepM q kb bias m0 (ix2 p 0)).toReal)
        * toN2 vb c d.val),
    EReal.coe_add, EReal.coe_mul, coe_sum, EReal.coe_toReal (ha _).1 (ha _).2]
  congr 1
  refine Finset.sum_congr rfl fun c _ => ?_
  rw [EReal.coe_mul, coe_toN2 vb c d (hv _).1 (hv _).2, pay11_real q kb bias m0 hq hk hb hm p c]

/-- The new accumulator is finite. -/
theorem stepA_fin (q : Vec Ideal S1024x1024 .bf16) (kb vb : Vec Ideal S512x1024 .bf16) (bias : Vec Ideal S1024x512 .f32)
    (m0 : Vec Ideal S1024x1 .f32) (a0 : Vec Ideal S1024x1024 .f32)
    (hq : FiniteArr q) (hk : FiniteArr kb) (hb : FiniteArr bias) (hm : FiniteArr m0)
    (hv : FiniteArr vb) (ha : FiniteArr a0) : FiniteArr (stepA q kb vb bias m0 a0) := by
  intro i
  obtain ⟨p, d, rfl⟩ : ∃ (p d : Fin 1024), i = ix2 p d := ⟨i 0, i 1, eq_ix2 i⟩
  rw [stepA_real q kb vb bias m0 a0 hq hk hb hm hv ha]
  exact ⟨EReal.coe_ne_top _, EReal.coe_ne_bot _⟩

/-! ## The quotient stored at the end of a row of the grid -/

/-- Accumulator over normaliser, entry by entry, is the real quotient when the row's normaliser is a nonzero real. -/
theorem outOf_real (a : Vec Ideal S1024x1024 .f32) (l : Vec Ideal S1024x1 .f32) (ha : FiniteArr a) (hl : FiniteArr l)
    (p d : Fin 1024) (hl0 : (l (ix2 p 0)).toReal ≠ 0) :
    outOf a l (ix2 p d) = (((a (ix2 p d)).toReal / (l (ix2 p 0)).toReal : ℝ) : EReal) := by
  obtain ⟨x, hx⟩ : ∃ x : ℝ, a (ix2 p d) = (x : EReal) := ⟨_, (EReal.coe_toReal (ha _).1 (ha _).2).symm⟩
  obtain ⟨y, hy⟩ : ∃ y : ℝ, l (ix2 p (0 : Fin 1)) = (y : EReal) := ⟨_, (EReal.coe_toReal (hl _).1 (hl _).2).symm⟩
  have e : outOf a l (ix2 p d) = Ideal.div (a (ix2 p d)) (l (ix2 p (0 : Fin 1))) := by
    unfold outOf k1_pay3
    rw [divf_apply, broadcastTo_a1_ab_apply]
  rw [hy, EReal.toReal_coe] at hl0
  rw [e, hx, hy, EReal.toReal_coe, EReal.toReal_coe, Ideal.div_coe hl0, ← EReal.coe_mul, mul_one_div]

/-! ## The reset triple -/

/-- The reset triple: one finite real (a large negative number) as every row's shift, zero normaliser, zero accumulator. -/
theorem init1_real :
    (∃ ν : ℝ, ∀ i, (init1 (F := Ideal)).1 i = (ν : EReal)) ∧ (∀ i, (init1 (F := Ideal)).2.1 i = 0)
      ∧ (∀ i, (init1 (F := Ideal)).2.2 i = 0) := by
  obtain ⟨ν, hν⟩ := Cert.Consts.ofBits_negbig
  refine ⟨⟨ν, fun i => ?_⟩, fun i => ?_, fun i => ?_⟩
  · show k1_pay4 (F := Ideal) i = _
    unfold k1_pay4
    rw [shapeCast_self]
    exact hν
  · show k1_pay5 (F := Ideal) i = _
    unfold k1_pay5
    rw [shapeCast_self]
    exact Cert.Consts.ofBits_zero
  · show k1_pay6 (F := Ideal) i = _
    unfold k1_pay6
    rw [shapeCast_self]
    exact Cert.Consts.ofBits_zero

end Cert.KernelIdeal.HandVal

end
-- ==== Proof.KI.RowReal.lean ====
/-
  One row of the grid of the attention kernel, over the reals.

  The kernel's sixteen points of a row carry a shift, a normaliser and an accumulator per query row. Each point's
  update is, entry by entry, one step of the online recurrences `lSeq` / `aSeq` of the real-number side, on the
  scores of the row against the point's 512 keys. Here: the blocks a point is handed are read off the whole arrays at
  the block's offset; by induction over the points of a row the carried normaliser and accumulator are the coercions
  of `lSeq` and `aSeq` after as many blocks; and the row's stored quotient is `aSeq 16 / lSeq 16`.
-/
import proofs.«418636_j9964324127022_3_alg».proof.Proof.KI.Steps
import proofs.«418636_j9964324127022_3_alg».proof.Proof.Spec
import proofs.«418636_j9964324127022_3_alg».proof.Proof.KI.StepReal

noncomputable section

open scoped BigOperators

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand Cert.Spec

/-! ## The blocks a point is handed, read off the whole arrays -/

variable (V : (c : Dev nD) → (b : Ref sig .tc) → Buf (Elt Ideal) ((c : Thread nD τ).loc b))

/-- The printed index maps over the grid: the query block and the bias block's rows move with the row of the grid,
    the key block, the value block and the bias block's columns with the point inside the row. -/
theorem idx1_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = t.val % 16 :=
  (by decide +kernel : ∀ t : Fin grid1.N, _)

/-- A point of the grid is below 128: its row is below 8, its place in the row below 16. -/
theorem pt_lt (t : Fin cfg1.N) : t.val < 128 := by
  have h := t.isLt
  have hN : cfg1.N = 128 := N_1
  omega

/-- The query block of a point is rows `1024 (t / 16) ..` of the query array. -/
theorem iblk1_q (c : Dev nD) (t : Fin cfg1.N) (p e : Fin 1024) (h : 1024 * (t.val / 16) + p.val < 8192) :
    iblk1 V c 0 t (ix2 p e) = (V c main_v14_0 : S8192x1024.Idx → EReal) (ix2 ⟨1024 * (t.val / 16) + p.val, h⟩ e) := by
  obtain ⟨e0, e1, -⟩ := idx1_facts t
  show (V c main_v14_0 : S8192x1024.Idx → EReal) (((cfg1.win 0).blk t).view.emb (ix2 p e)) = (V c main_v14_0 : S8192x1024.Idx → EReal) _
  congr 1
  funext a; apply Fin.ext
  match a with
  | ⟨0, _⟩ => show win1_0.index t (0 : Fin 2) * 1024 + 1 * p.val = 1024 * (t.val / 16) + p.val; omega
  | ⟨1, _⟩ => show win1_0.index t (1 : Fin 2) * 1024 + 1 * e.val = e.val; omega

/-- The key block of a point is rows `512 (t % 16) ..` of the key array. -/
theorem iblk1_k (c : Dev nD) (t : Fin cfg1.N) (k : Fin 512) (e : Fin 1024) (h : 512 * (t.val % 16) + k.val < 8192) :
    iblk1 V c 1 t (ix2 k e) = (V c main_v14_1 : S8192x1024.Idx → EReal) (ix2 ⟨512 * (t.val % 16) + k.val, h⟩ e) := by
  obtain ⟨-, -, e0, e1, -⟩ := idx1_facts t
  show (V c main_v14_1 : S8192x1024.Idx → EReal) (((cfg1.win 1).blk t).view.emb (ix2 k e)) = (V c main_v14_1 : S8192x1024.Idx → EReal) _
  congr 1
  funext a; apply Fin.ext
  match a with
  | ⟨0, _⟩ => show win1_1.index t (0 : Fin 2) * 512 + 1 * k.val = 512 * (t.val % 16) + k.val; omega
  | ⟨1, _⟩ => show win1_1.index t (1 : Fin 2) * 1024 + 1 * e.val = e.val; omega

/-- The value block of a point is rows `512 (t % 16) ..` of the value array. -/
theorem iblk1_v (c : Dev nD) (t : Fin cfg1.N) (k : Fin 512) (e : Fin 1024) (h : 512 * (t.val % 16) + k.val < 8192) :
    iblk1 V c 2 t (ix2 k e) = (V c main_v14_2 : S8192x1024.Idx → EReal) (ix2 ⟨512 * (t.val % 16) + k.val, h⟩ e) := by
  obtain ⟨-, -, -, -, e0, e1, -⟩ := idx1_facts t
  show (V c main_v14_2 : S8192x1024.Idx → EReal) (((cfg1.win 2).blk t).view.emb (ix2 k e)) = (V c main_v14_2 : S8192x1024.Idx → EReal) _
  congr 1
  funext a; apply Fin.ext
  match a with
  | ⟨0, _⟩ => show win1_2.index t (0 : Fin 2) * 512 + 1 * k.val = 512 * (t.val % 16) + k.val; omega
  | ⟨1, _⟩ => show win1_2.index t (1 : Fin 2) * 1024 + 1 * e.val = e.val; omega

/-- The bias block of a point is rows `1024 (t / 16) ..`, columns `512 (t % 16) ..` of the bias array. -/
theorem iblk1_b (c : Dev nD) (t : Fin cfg1.N) (p : Fin 1024) (k : Fin 512) (h : 1024 * (t.val / 16) + p.val < 8192)
    (h' : 512 * (t.val % 16) + k.val < 8192) :
    iblk1 V c 3 t (ix2 p k)
      = (V c main_v7 : S8192x8192.Idx → EReal) (ix2 ⟨1024 * (t.val / 16) + p.val, h⟩ ⟨512 * (t.val % 16) + k.val, h'⟩) := by
  obtain ⟨-, -, -, -, -, -, e0, e1⟩ := idx1_facts t
  show (V c main_v7 : S8192x8192.Idx → EReal) (((cfg1.win 3).blk t).view.emb (ix2 p k)) = (V c main_v7 : S8192x8192.Idx → EReal) _
  congr 1
  funext a; apply Fin.ext
  match a with
  | ⟨0, _⟩ => show win1_3.index t (0 : Fin 2) * 1024 + 1 * p.val = 1024 * (t.val / 16) + p.val; omega
  | ⟨1, _⟩ => show win1_3.index t (1 : Fin 2) * 512 + 1 * k.val = 512 * (t.val % 16) + k.val; omega

/-- The blocks of finite arrays are finite. -/
theorem iblk1_q_fin (c : Dev nD) (t : Fin cfg1.N) (hQ : FiniteArr (V c main_v14_0 : S8192x1024.Idx → EReal)) :
    FiniteArr (iblk1 V c 0 t : Vec Ideal S1024x1024 .bf16) :=
  fun y => hQ (((cfg1.win 0).blk t).view.emb y)

theorem iblk1_k_fin (c : Dev nD) (t : Fin cfg1.N) (hK : FiniteArr (V c main_v14_1 : S8192x1024.Idx → EReal)) :
    FiniteArr (iblk1 V c 1 t : Vec Ideal S512x1024 .bf16) :=
  fun y => hK (((cfg1.win 1).blk t).view.emb y)

theorem iblk1_v_fin (c : Dev nD) (t : Fin cfg1.N) (hV : FiniteArr (V c main_v14_2 : S8192x1024.Idx → EReal)) :
    FiniteArr (iblk1 V c 2 t : Vec Ideal S512x1024 .bf16) :=
  fun y => hV (((cfg1.win 2).blk t).view.emb y)

theorem iblk1_b_fin (c : Dev nD) (t : Fin cfg1.N) (hB : FiniteArr (V c main_v7 : S8192x8192.Idx → EReal)) :
    FiniteArr (iblk1 V c 3 t : Vec Ideal S1024x512 .f32) :=
  fun y => hB (((cfg1.win 3).blk t).view.emb y)

/-- The real reading of a block that is a rectangle of an array, at the rectangle's offset. -/
theorem toN2_of_read {A B A' B' : ℕ} (blk : (⟨2, ![A, B]⟩ : Shape).Idx → EReal)
    (arr : (⟨2, ![A', B']⟩ : Shape).Idx → EReal) (o0 o1 : ℕ)
    (hread : ∀ (p : Fin A) (e : Fin B) (h0 : o0 + p.val < A') (h1 : o1 + e.val < B'),
      blk (ix2 p e) = arr (ix2 ⟨o0 + p.val, h0⟩ ⟨o1 + e.val, h1⟩))
    (p e : ℕ) (hp : p < A) (he : e < B) (h0 : o0 + p < A') (h1 : o1 + e < B') :
    toN2 blk p e = toN2 arr (o0 + p) (o1 + e) := by
  have h := toN2_apply blk ⟨p, hp⟩ ⟨e, he⟩
  have h' := toN2_apply arr ⟨o0 + p, h0⟩ ⟨o1 + e, h1⟩
  simp only at h h'
  rw [h, h', hread ⟨p, hp⟩ ⟨e, he⟩ h0 h1]

/-! ## The real readings of a point's blocks -/

theorem toN2_q (c : Dev nD) (t : Fin cfg1.N) (p e : ℕ) (hp : p < 1024) (he : e < 1024) :
    toN2 (iblk1 V c 0 t : Vec Ideal S1024x1024 .bf16) p e
      = toN2 (V c main_v14_0 : S8192x1024.Idx → EReal) (1024 * (t.val / 16) + p) e := by
  have ht := pt_lt t
  have h := toN2_of_read (iblk1 V c 0 t : Vec Ideal S1024x1024 .bf16) (V c main_v14_0 : S8192x1024.Idx → EReal)
    (1024 * (t.val / 16)) 0
    (fun p e h0 h1 => (iblk1_q V c t p e h0).trans
      (congrArg (fun x => (V c main_v14_0 : S8192x1024.Idx → EReal) (ix2 ⟨1024 * (t.val / 16) + p.val, h0⟩ x))
        (Fin.ext (Nat.zero_add _).symm)))
    p e hp he (by omega) (by omega)
  rwa [Nat.zero_add] at h

theorem toN2_k (c : Dev nD) (t : Fin cfg1.N) (k e : ℕ) (hk : k < 512) (he : e < 1024) :
    toN2 (iblk1 V c 1 t : Vec Ideal S512x1024 .bf16) k e
      = toN2 (V c main_v14_1 : S8192x1024.Idx → EReal) (512 * (t.val % 16) + k) e := by
  have h := toN2_of_read (iblk1 V c 1 t : Vec Ideal S512x1024 .bf16) (V c main_v14_1 : S8192x1024.Idx → EReal)
    (512 * (t.val % 16)) 0
    (fun k e h0 h1 => (iblk1_k V c t k e h0).trans
      (congrArg (fun x => (V c main_v14_1 : S8192x1024.Idx → EReal) (ix2 ⟨512 * (t.val % 16) + k.val, h0⟩ x))
        (Fin.ext (Nat.zero_add _).symm)))
    k e hk he (by omega) (by omega)
  rwa [Nat.zero_add] at h

theorem toN2_v (c : Dev nD) (t : Fin cfg1.N) (k e : ℕ) (hk : k < 512) (he : e < 1024) :
    toN2 (iblk1 V c 2 t : Vec Ideal S512x1024 .bf16) k e
      = toN2 (V c main_v14_2 : S8192x1024.Idx → EReal) (512 * (t.val % 16) + k) e := by
  have h := toN2_of_read (iblk1 V c 2 t : Vec Ideal S512x1024 .bf16) (V c main_v14_2 : S8192x1024.Idx → EReal)
    (512 * (t.val % 16)) 0
    (fun k e h0 h1 => (iblk1_v V c t k e h0).trans
      (congrArg (fun x => (V c main_v14_2 : S8192x1024.Idx → EReal) (ix2 ⟨512 * (t.val % 16) + k.val, h0⟩ x))
        (Fin.ext (Nat.zero_add _).symm)))
    k e hk he (by omega) (by omega)
  rwa [Nat.zero_add] at h

theorem toN2_b (c : Dev nD) (t : Fin cfg1.N) (p k : ℕ) (hp : p < 1024) (hk : k < 512) :
    toN2 (iblk1 V c 3 t : Vec Ideal S1024x512 .f32) p k
      = toN2 (V c main_v7 : S8192x8192.Idx → EReal) (1024 * (t.val / 16) + p) (512 * (t.val % 16) + k) := by
  have ht := pt_lt t
  exact toN2_of_read (iblk1 V c 3 t : Vec Ideal S1024x512 .f32) (V c main_v7 : S8192x8192.Idx → EReal)
    (1024 * (t.val / 16)) (512 * (t.val % 16))
    (fun p k h0 h1 => iblk1_b V c t p k h0 h1)
    p k hp hk (by omega) (by omega)

/-- The score of query row `r` against key row `col`, on the whole arrays. -/
def sRow (c : Dev nD) (r col : ℕ) : ℝ :=
  (∑ e ∈ Finset.range 1024, toN2 (V c main_v14_0 : S8192x1024.Idx → EReal) r e
      * toN2 (V c main_v14_1 : S8192x1024.Idx → EReal) col e)
    + toN2 (V c main_v7 : S8192x8192.Idx → EReal) r col

/-- Column `d` of the value array. -/
def vCol (c : Dev nD) (d col : ℕ) : ℝ := toN2 (V c main_v14_2 : S8192x1024.Idx → EReal) col d

/-- A point's block of scores is the point's rectangle of the scores of the whole arrays. -/
theorem sBlk_blocks (c : Dev nD) (t : Fin cfg1.N) (p : Fin 1024) (k : ℕ) (hk : k < 512) :
    sBlk (toN2 (iblk1 V c 0 t : Vec Ideal S1024x1024 .bf16)) (toN2 (iblk1 V c 1 t : Vec Ideal S512x1024 .bf16))
        (toN2 (iblk1 V c 3 t : Vec Ideal S1024x512 .f32)) p.val k
      = sRow V c (1024 * (t.val / 16) + p.val) (512 * (t.val % 16) + k) := by
  unfold sBlk sRow
  rw [toN2_b V c t p.val k p.isLt hk]
  congr 1
  refine Finset.sum_congr rfl (fun e he => ?_)
  have he' : e < 1024 := Finset.mem_range.mp he
  rw [toN2_q V c t p.val e p.isLt he', toN2_k V c t k e hk he']

/-! ## One point of a row, over the reals -/

/-- The carried triple: shift, normaliser, accumulator. -/
abbrev Tri : Type := Vec Ideal S1024x1 .f32 × Vec Ideal S1024x1 .f32 × Vec Ideal S1024x1024 .f32

/-- A column whose entries are coercions of reals is finite. -/
theorem finite_of_col (l : Vec Ideal S1024x1 .f32) (f : Fin 1024 → ℝ) (h : ∀ p, l (ix2 p (0 : Fin 1)) = (f p : EReal)) :
    FiniteArr l := by
  intro i
  obtain ⟨a, b, rfl⟩ : ∃ (a : Fin 1024) (b : Fin 1), i = ix2 a b := ⟨i 0, i 1, eq_ix2 i⟩
  have hb : b = 0 := Subsingleton.elim _ _
  rw [hb, h a]
  exact ⟨EReal.coe_ne_top _, EReal.coe_ne_bot _⟩

/-- A square array whose entries are coercions of reals is finite. -/
theorem finite_of_mat (a : Vec Ideal S1024x1024 .f32) (f : Fin 1024 → Fin 1024 → ℝ)
    (h : ∀ p d, a (ix2 p d) = (f p d : EReal)) : FiniteArr a := by
  intro i
  obtain ⟨p, d, rfl⟩ : ∃ (p d : Fin 1024), i = ix2 p d := ⟨i 0, i 1, eq_ix2 i⟩
  rw [h p d]
  exact ⟨EReal.coe_ne_top _, EReal.coe_ne_bot _⟩

variable (c : Dev nD)
  (hQ : FiniteArr (V c main_v14_0 : S8192x1024.Idx → EReal)) (hK : FiniteArr (V c main_v14_1 : S8192x1024.Idx → EReal))
  (hV : FiniteArr (V c main_v14_2 : S8192x1024.Idx → EReal)) (hB : FiniteArr (V c main_v7 : S8192x8192.Idx → EReal))

include hQ hK hB in
/-- The shift after a point is finite when the shift before is. -/
theorem step1_m_fin (t : Fin cfg1.N) (s : Tri) (hs : FiniteArr s.1) : FiniteArr (step1 V c t s).1 :=
  stepM_fin (iblk1 V c 0 t) (iblk1 V c 1 t) (iblk1 V c 3 t) s.1
    (iblk1_q_fin V c t hQ) (iblk1_k_fin V c t hK) (iblk1_b_fin V c t hB) hs

include hQ hK hB in
/-- The normaliser after point `16 qi + j`: rescaled by the change of shift, plus the weights of keys `512 j ..`. -/
theorem step1_l_row (t : Fin cfg1.N) (qi j : ℕ) (hj : j < 16) (ht : t.val = 16 * qi + j) (s : Tri)
    (hs1 : FiniteArr s.1) (hs2 : FiniteArr s.2.1) (p : Fin 1024) :
    (step1 V c t s).2.1 (ix2 p (0 : Fin 1))
      = ((Real.exp ((s.1 (ix2 p 0)).toReal - ((step1 V c t s).1 (ix2 p 0)).toReal) * (s.2.1 (ix2 p 0)).toReal
          + ∑ k ∈ Finset.range 512, Real.exp (sRow V c (1024 * qi + p.val) (512 * j + k)
              - ((step1 V c t s).1 (ix2 p 0)).toReal) : ℝ) : EReal) := by
  have h16 : t.val / 16 = qi := by omega
  have hm : t.val % 16 = j := by omega
  have h := stepL_real (iblk1 V c 0 t) (iblk1 V c 1 t) (iblk1 V c 3 t) s.1 s.2.1
    (iblk1_q_fin V c t hQ) (iblk1_k_fin V c t hK) (iblk1_b_fin V c t hB) hs1 hs2 p
  refine h.trans ?_
  congr 2
  refine Finset.sum_congr rfl (fun k hk => ?_)
  rw [sBlk_blocks V c t p k (Finset.mem_range.mp hk), h16, hm]
  rfl

include hQ hK hV hB in
/-- The accumulator after point `16 qi + j`: rescaled, plus the weights of keys `512 j ..` times their values. -/
theorem step1_a_row (t : Fin cfg1.N) (qi j : ℕ) (hj : j < 16) (ht : t.val = 16 * qi + j) (s : Tri)
    (hs1 : FiniteArr s.1) (hs3 : FiniteArr s.2.2) (p d : Fin 1024) :
    (step1 V c t s).2.2 (ix2 p d)
      = ((Real.exp ((s.1 (ix2 p 0)).toReal - ((step1 V c t s).1 (ix2 p 0)).toReal) * (s.2.2 (ix2 p d)).toReal
          + ∑ k ∈ Finset.range 512, Real.exp (sRow V c (1024 * qi + p.val) (512 * j + k)
              - ((step1 V c t s).1 (ix2 p 0)).toReal) * vCol V c d.val (512 * j + k) : ℝ) : EReal) := by
  have h16 : t.val / 16 = qi := by omega
  have hm : t.val % 16 = j := by omega
  have h := stepA_real (iblk1 V c 0 t) (iblk1 V c 1 t) (iblk1 V c 2 t) (iblk1 V c 3 t) s.1 s.2.2
    (iblk1_q_fin V c t hQ) (iblk1_k_fin V c t hK) (iblk1_b_fin V c t hB) hs1 (iblk1_v_fin V c t hV) hs3 p d
  refine h.trans ?_
  congr 2
  refine Finset.sum_congr rfl (fun k hk => ?_)
  have hk' : k < 512 := Finset.mem_range.mp hk
  rw [sBlk_blocks V c t p k hk', toN2_v V c t k d.val hk' d.isLt, h16, hm]
  rfl

/-! ## The sixteen points of a row -/

/-- The shifts of query row `p` of row `qi` of the grid: the reset shift, then the carried shift after each point. -/
def mRow (ν : ℝ) (qi : ℕ) (p : Fin 1024) : ℕ → ℝ
  | 0 => ν
  | j + 1 => if h : 16 * qi + j < cfg1.N then ((st1 V c (16 * qi + j) h).1 (ix2 p (0 : Fin 1))).toReal else 0

theorem mRow_succ (ν : ℝ) (qi : ℕ) (p : Fin 1024) (j : ℕ) (h : 16 * qi + j < cfg1.N) :
    mRow V c ν qi p (j + 1) = ((st1 V c (16 * qi + j) h).1 (ix2 p (0 : Fin 1))).toReal :=
  dif_pos h

include hQ hK hV hB in
/-- After point `16 qi + j` of row `qi`: the shift is finite, the normaliser and the accumulator are the online
    recurrences after `j + 1` blocks of keys, on the row's scores and under the row's own shifts. -/
theorem row_state (ν : ℝ) (hν : ∀ i, (init1 (F := Ideal)).1 i = (ν : EReal))
    (h0l : ∀ i, (init1 (F := Ideal)).2.1 i = 0) (h0a : ∀ i, (init1 (F := Ideal)).2.2 i = 0)
    (qi : ℕ) (j : ℕ) (hj : j < 16) (hn : 16 * qi + j < cfg1.N) :
    FiniteArr (st1 V c (16 * qi + j) hn).1
      ∧ (∀ p : Fin 1024, (st1 V c (16 * qi + j) hn).2.1 (ix2 p (0 : Fin 1))
          = ((lSeq (sRow V c (1024 * qi + p.val)) (mRow V c ν qi p) (j + 1) : ℝ) : EReal))
      ∧ (∀ p d : Fin 1024, (st1 V c (16 * qi + j) hn).2.2 (ix2 p d)
          = ((aSeq (sRow V c (1024 * qi + p.val)) (vCol V c d.val) (mRow V c ν qi p) (j + 1) : ℝ) : EReal)) := by
  induction j with
  | zero =>
    have hi1 : FiniteArr (init1 (F := Ideal)).1 := fun i => by
      rw [hν i]; exact ⟨EReal.coe_ne_top _, EReal.coe_ne_bot _⟩
    have hi2 : FiniteArr (init1 (F := Ideal)).2.1 := fun i => by
      rw [h0l i]; exact ⟨EReal.zero_ne_top, EReal.zero_ne_bot⟩
    have hi3 : FiniteArr (init1 (F := Ideal)).2.2 := fun i => by
      rw [h0a i]; exact ⟨EReal.zero_ne_top, EReal.zero_ne_bot⟩
    have hst : st1 V c (16 * qi + 0) hn = step1 V c ⟨16 * qi + 0, hn⟩ init1 :=
      st1_reset V c ⟨16 * qi + 0, hn⟩ (by show (16 * qi + 0) % 16 = 0; omega)
    refine ⟨?_, ?_, ?_⟩
    · rw [hst]; exact step1_m_fin V c hQ hK hB _ _ hi1
    · intro p
      have hm1 := mRow_succ V c ν qi p 0 hn
      rw [hst] at hm1 ⊢
      rw [step1_l_row V c hQ hK hB ⟨16 * qi + 0, hn⟩ qi 0 hj rfl init1 hi1 hi2 p]
      congr 1
      rw [lSeq, lSeq, hm1, hν, h0l]
      simp only [EReal.toReal_coe, EReal.toReal_zero, mul_zero]
    · intro p d
      have hm1 := mRow_succ V c ν qi p 0 hn
      rw [hst] at hm1 ⊢
      rw [step1_a_row V c hQ hK hV hB ⟨16 * qi + 0, hn⟩ qi 0 hj rfl init1 hi1 hi3 p d]
      congr 1
      rw [aSeq, aSeq, hm1, hν, h0a]
      simp only [EReal.toReal_coe, EReal.toReal_zero, mul_zero]
  | succ j ih =>
    have hn' : 16 * qi + j < cfg1.N := Nat.lt_of_succ_lt hn
    obtain ⟨ih1, ih2, ih3⟩ := ih (Nat.lt_of_succ_lt hj) hn'
    have hf2 : FiniteArr (st1 V c (16 * qi + j) hn').2.1 := finite_of_col _ _ ih2
    have hf3 : FiniteArr (st1 V c (16 * qi + j) hn').2.2 := finite_of_mat _ _ ih3
    have hst : st1 V c (16 * qi + (j + 1)) hn
        = step1 V c ⟨16 * qi + (j + 1), hn⟩ (st1 V c (16 * qi + j) hn') :=
      st1_step V c ⟨16 * qi + (j + 1), hn⟩ (by show ¬ (16 * qi + (j + 1)) % 16 = 0; omega)
    refine ⟨?_, ?_, ?_⟩
    · rw [hst]; exact step1_m_fin V c hQ hK hB _ _ ih1
    · intro p
      have hm1 := mRow_succ V c ν qi p (j + 1) hn
      have hm0 := mRow_succ V c ν qi p j hn'
      rw [hst] at hm1 ⊢
      rw [step1_l_row V c hQ hK hB ⟨16 * qi + (j + 1), hn⟩ qi (j + 1) hj rfl _ ih1 hf2 p]
      congr 1
      rw [lSeq, hm1, hm0, ih2 p, EReal.toReal_coe]
    · intro p d
      have hm1 := mRow_succ V c ν qi p (j + 1) hn
      have hm0 := mRow_succ V c ν qi p j hn'
      rw [hst] at hm1 ⊢
      rw [step1_a_row V c hQ hK hV hB ⟨16 * qi + (j + 1), hn⟩ qi (j + 1) hj rfl _ ih1 hf3 p d]
      congr 1
      rw [aSeq, hm1, hm0, ih3 p d, EReal.toReal_coe]

/-! ## The row's result -/

include hQ hK hV hB in
/-- What the last point of row `qi` stores at `(p, d)`: the online accumulator over the online normaliser after all
    sixteen blocks, on the scores of query row `1024 qi + p` and column `d` of the values, under some shifts. -/
theorem row_out (qi : Fin 8) (p d : Fin 1024) :
    ∃ m : ℕ → ℝ,
      outOf (st1 V c (16 * qi.val + 15) (by have := N_1; have := qi.isLt; show 16 * qi.val + 15 < grid1.N; omega)).2.2
          (st1 V c (16 * qi.val + 15) (by have := N_1; have := qi.isLt; show 16 * qi.val + 15 < grid1.N; omega)).2.1
          (ix2 p d)
        = ((aSeq (fun col => (∑ e ∈ Finset.range 1024,
                  toN2 (V c main_v14_0 : S8192x1024.Idx → EReal) (1024 * qi.val + p.val) e
                    * toN2 (V c main_v14_1 : S8192x1024.Idx → EReal) col e)
                + toN2 (V c main_v7 : S8192x8192.Idx → EReal) (1024 * qi.val + p.val) col)
              (fun col => toN2 (V c main_v14_2 : S8192x1024.Idx → EReal) col d.val) m 16
            / lSeq (fun col => (∑ e ∈ Finset.range 1024,
                  toN2 (V c main_v14_0 : S8192x1024.Idx → EReal) (1024 * qi.val + p.val) e
                    * toN2 (V c main_v14_1 : S8192x1024.Idx → EReal) col e)
                + toN2 (V c main_v7 : S8192x8192.Idx → EReal) (1024 * qi.val + p.val) col) m 16 : ℝ) : EReal) := by
  obtain ⟨⟨ν, hν⟩, h0l, h0a⟩ := init1_real
  have hn : 16 * qi.val + 15 < cfg1.N := by
    have := N_1; have := qi.isLt; show 16 * qi.val + 15 < grid1.N; omega
  obtain ⟨h1, h2, h3⟩ := row_state V c hQ hK hV hB ν hν h0l h0a qi.val 15 (by omega) hn
  refine ⟨mRow V c ν qi.val p, ?_⟩
  have hl : ((st1 V c (16 * qi.val + 15) hn).2.1 (ix2 p (0 : Fin 1))).toReal
      = lSeq (sRow V c (1024 * qi.val + p.val)) (mRow V c ν qi.val p) 16 := by
    rw [h2 p, EReal.toReal_coe]
  have hpos : 0 < lSeq (sRow V c (1024 * qi.val + p.val)) (mRow V c ν qi.val p) 16 := lSeq_pos _ _ 16 (by omega)
  rw [outOf_real _ _ (finite_of_mat _ _ h3) (finite_of_col _ _ h2) p d (by rw [hl]; exact hpos.ne'),
    hl, h3 p d, EReal.toReal_coe]
  rfl

include hQ hK hV hB in
/-- The same, as the softmax row under any shift `M`: the online recurrences, divided at the end, are the softmax. -/
theorem row_out_softmax (qi : Fin 8) (p d : Fin 1024) (M : ℝ) :
    outOf (st1 V c (16 * qi.val + 15) (by have := N_1; have := qi.isLt; show 16 * qi.val + 15 < grid1.N; omega)).2.2
        (st1 V c (16 * qi.val + 15) (by have := N_1; have := qi.isLt; show 16 * qi.val + 15 < grid1.N; omega)).2.1
        (ix2 p d)
      = ((softmaxOut (fun col => (∑ e ∈ Finset.range 1024,
                toN2 (V c main_v14_0 : S8192x1024.Idx → EReal) (1024 * qi.val + p.val) e
                  * toN2 (V c main_v14_1 : S8192x1024.Idx → EReal) col e)
              + toN2 (V c main_v7 : S8192x8192.Idx → EReal) (1024 * qi.val + p.val) col)
            (fun col => toN2 (V c main_v14_2 : S8192x1024.Idx → EReal) col d.val) M : ℝ) : EReal) := by
  obtain ⟨m, h⟩ := row_out V c hQ hK hV hB qi p d
  rw [h, online_eq_softmax]

end Cert.KernelIdeal.HandVal

end
-- ==== Proof.KI.RegBPieces.lean ====
/-
  Region 1 (the attention kernel): the pieces each case of the body leaves in the three carried scratch arrays, and in
  the output block in the case that stores it, read back as values.

  Every store of the body writes a whole array (offsets zero, the array's own extents), so the contents a list of such
  stores leaves is the payload of the last one, and a load of the whole array after such a store reads that payload.
  The payloads are the body's own named terms over what its loads read; the loads of the input blocks read the whole
  blocks. So in every case the shift ends at one update of the shift before, the normaliser and the accumulator likewise,
  where "before" is what the point before left (cases B, C) or the reset's initial values (case A: the reset's stores
  come first and the update's loads read them back); and case C's output block is the accumulator after the update
  divided by the normaliser after the update.
-/
import proofs.«418636_j9964324127022_3_alg».proof.Proof.KI.RegBRuns
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Offsets zero on both axes. -/
theorem pieces_hz : (![0, 0] : Fin 2 → Nat) = fun _ => 0 := funext fun a => by fin_cases a <;> rfl

/-- Case A's pieces for scratch 0 (the shift) cover it: the reset's store and the update's store, each of the whole array. -/
theorem pcover_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- Case A's shift: the reset stores the initial value, the loads read it back, and the update's store, last, leaves
    one update of the initial value. -/
theorem piece_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) :
    VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)
      = stepM x0 x1 x3 (init1 (F := F)).1 := by
  rw [View.read_writes_eq_canon _ _ _ (pcover_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) pieces_hz]
  unfold stepM init1
  dsimp only
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz,
    View.readCov_unit_zero (S := S1024x1) _ pieces_hz, View.readCov_unit_zero (S := S1024x1024) _ pieces_hz]

/-- Case A's pieces for scratch 1 (the normaliser) cover it: the reset's store and the update's store, each of the whole array. -/
theorem pcover_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- Case A's normaliser: the reset stores the initial value, the loads read it back, and the update's store, last, leaves
    one update of the initial value. -/
theorem piece_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) :
    VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)
      = stepL x0 x1 x3 (init1 (F := F)).1 (init1 (F := F)).2.1 := by
  rw [View.read_writes_eq_canon _ _ _ (pcover_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) pieces_hz]
  unfold stepL init1
  dsimp only
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz,
    View.readCov_unit_zero (S := S1024x1) _ pieces_hz, View.readCov_unit_zero (S := S1024x1024) _ pieces_hz]

/-- Case A's pieces for scratch 2 (the accumulator) cover it: the reset's store and the update's store, each of the whole array. -/
theorem pcover_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) (y : S1024x1024.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x1024.size (by sl_kernel_rfl) y

/-- Case A's accumulator: the reset stores the initial value, the loads read it back, and the update's store, last, leaves
    one update of the initial value. -/
theorem piece_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x512 .f32) :
    VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)
      = stepA x0 x1 x2 x3 (init1 (F := F)).1 (init1 (F := F)).2.2 := by
  rw [View.read_writes_eq_canon _ _ _ (pcover_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1024) pieces_hz]
  unfold stepA init1
  dsimp only
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz,
    View.readCov_unit_zero (S := S1024x1) _ pieces_hz, View.readCov_unit_zero (S := S1024x1024) _ pieces_hz]

/-- Case B's pieces for scratch 0 (the shift) cover it: one store of the whole array. -/
theorem pcover_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- Case B's shift: the one store leaves one update of what the point before left. -/
theorem piece_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)
      = stepM x0 x1 x3 xs0 := by
  rw [View.read_writes_eq_canon _ _ _ (pcover_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero (S := S1024x1) pieces_hz]
  unfold stepM
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz]

/-- Case B's pieces for scratch 1 (the normaliser) cover it: one store of the whole array. -/
theorem pcover_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- Case B's normaliser: the one store leaves one update of what the point before left. -/
theorem piece_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)
      = stepL x0 x1 x3 xs0 xs1 := by
  rw [View.read_writes_eq_canon _ _ _ (pcover_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero (S := S1024x1) pieces_hz]
  unfold stepL
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz]

/-- Case B's pieces for scratch 2 (the accumulator) cover it: one store of the whole array. -/
theorem pcover_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- Case B's accumulator: the one store leaves one update of what the point before left. -/
theorem piece_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)
      = stepA x0 x1 x2 x3 xs0 xs2 := by
  rw [View.read_writes_eq_canon _ _ _ (pcover_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero (S := S1024x1024) pieces_hz]
  unfold stepA
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz]

/-- Case C's pieces for scratch 0 (the shift) cover it: one store of the whole array. -/
theorem pcover_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- Case C's shift: the one store leaves one update of what the point before left. -/
theorem piece_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)
      = stepM x0 x1 x3 xs0 := by
  rw [View.read_writes_eq_canon _ _ _ (pcover_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x1) pieces_hz]
  unfold stepM
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz]

/-- Case C's pieces for scratch 1 (the normaliser) cover it: one store of the whole array. -/
theorem pcover_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- Case C's normaliser: the one store leaves one update of what the point before left. -/
theorem piece_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)
      = stepL x0 x1 x3 xs0 xs1 := by
  rw [View.read_writes_eq_canon _ _ _ (pcover_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x1) pieces_hz]
  unfold stepL
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz]

/-- Case C's pieces for scratch 2 (the accumulator) cover it: one store of the whole array. -/
theorem pcover_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- Case C's accumulator: the one store leaves one update of what the point before left. -/
theorem piece_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)
      = stepA x0 x1 x2 x3 xs0 xs2 := by
  rw [View.read_writes_eq_canon _ _ _ (pcover_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x1024) pieces_hz]
  unfold stepA
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz]

/-- Case C's pieces for the output block cover it: one store of the whole block. -/
theorem pcover_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x1024.size (by sl_kernel_rfl) y

/-- Case C's output block: the accumulator after the update over the normaliser after the update, both loaded back
    from the scratch arrays after their stores. -/
theorem piece_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x512 .f32) (xs0 : Vec F S1024x1 .f32) (xs1 : Vec F S1024x1 .f32) (xs2 : Vec F S1024x1024 .f32) :
    VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)
      = outOf (stepA x0 x1 x2 x3 xs0 xs2) (stepL x0 x1 x3 xs0 xs1) := by
  rw [View.read_writes_eq_canon _ _ _ (pcover_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero (S := S1024x1024) pieces_hz]
  unfold outOf stepA stepL
  simp only [View.readAt_eq_ld, harg2.read_unread, harg3.read_unread, harg4.read_unread, harg5.read_unread,
    harg7.read_unread, harg8.read_unread, harg9.read_unread,
    View.ld_unit_zero (S := S1024x1024) pieces_hz, View.ld_unit_zero (S := S512x1024) pieces_hz,
    View.ld_unit_zero (S := S1024x512) pieces_hz, View.ld_unit_zero (S := S1024x1) pieces_hz,
    View.readCov_unit_zero (S := S1024x1) _ pieces_hz, View.readCov_unit_zero (S := S1024x1024) _ pieces_hz]

end Cert.KernelIdeal.Hand

end
-- ==== Proof.KI.RegBVal.lean ====
/-
  Region 1 (the attention kernel): what its frame says the scratch arrays and the output's buffer hold IS the explicit
  recurrence of Steps.lean.

  The frame states the contents after each point as the pieces the body's runs found, read back (`outsAt1`). Each piece
  list is one component of the explicit update `step1` (the piece lemmas); so, by induction on the point, the three scratch
  arrays hold the carried triple `st1` after every point, and at the last point of each row of the grid the output's
  buffer holds the carried accumulator over the carried normaliser.
-/
import proofs.«418636_j9964324127022_3_alg».proof.Proof.KI.RegB
import proofs.«418636_j9964324127022_3_alg».proof.Proof.KI.RegBPieces

-- membership in a rectangle of large extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The cases at a point are the explicit update

Each found piece list, read back, is a component of `step1`: of the reset triple in case A, of what the case found in the
scratch arrays in cases B and C. One lemma per component, every argument written out. -/

/-- Case A (the reset taken) at a point leaves the updated shift. -/
theorem ptA_scr0 (c : Dev nD) (t : Fin cfg1.N) (h0 : t.val % 16 = 0) (h1 : ¬t.val % 16 = 15) :
    (ptA V c t h0 h1).2.1 = (step1 V c t init1).1 := by
  unfold ptA step1 sout1_A_0
  dsimp only
  exact piece_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- Case A (the reset taken) at a point leaves the updated normaliser. -/
theorem ptA_scr1 (c : Dev nD) (t : Fin cfg1.N) (h0 : t.val % 16 = 0) (h1 : ¬t.val % 16 = 15) :
    (ptA V c t h0 h1).2.2.1 = (step1 V c t init1).2.1 := by
  unfold ptA step1 sout1_A_1
  dsimp only
  exact piece_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- Case A (the reset taken) at a point leaves the updated accumulator. -/
theorem ptA_scr2 (c : Dev nD) (t : Fin cfg1.N) (h0 : t.val % 16 = 0) (h1 : ¬t.val % 16 = 15) :
    (ptA V c t h0 h1).2.2.2 = (step1 V c t init1).2.2 := by
  unfold ptA step1 sout1_A_2
  dsimp only
  exact piece_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- So its scratch triple is one update from the reset triple. -/
theorem ptA_scr (c : Dev nD) (t : Fin cfg1.N) (h0 : t.val % 16 = 0) (h1 : ¬t.val % 16 = 15) :
    (ptA V c t h0 h1).2 = step1 V c t init1 :=
  Prod.ext (ptA_scr0 V c t h0 h1) (Prod.ext (ptA_scr1 V c t h0 h1) (ptA_scr2 V c t h0 h1))

/-- Case B (neither branch taken) at a point leaves the updated shift. -/
theorem ptB_scr0 (c : Dev nD) (t : Fin cfg1.N) (h0 : ¬t.val % 16 = 0) (h1 : ¬t.val % 16 = 15) (s : Vec F S1024x1 .f32 × Vec F S1024x1 .f32 × Vec F S1024x1024 .f32) :
    (ptB V c t h0 h1 s).2.1 = (step1 V c t s).1 := by
  unfold ptB step1 sout1_B_0
  dsimp only
  exact piece_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2

/-- Case B (neither branch taken) at a point leaves the updated normaliser. -/
theorem ptB_scr1 (c : Dev nD) (t : Fin cfg1.N) (h0 : ¬t.val % 16 = 0) (h1 : ¬t.val % 16 = 15) (s : Vec F S1024x1 .f32 × Vec F S1024x1 .f32 × Vec F S1024x1024 .f32) :
    (ptB V c t h0 h1 s).2.2.1 = (step1 V c t s).2.1 := by
  unfold ptB step1 sout1_B_1
  dsimp only
  exact piece_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2

/-- Case B (neither branch taken) at a point leaves the updated accumulator. -/
theorem ptB_scr2 (c : Dev nD) (t : Fin cfg1.N) (h0 : ¬t.val % 16 = 0) (h1 : ¬t.val % 16 = 15) (s : Vec F S1024x1 .f32 × Vec F S1024x1 .f32 × Vec F S1024x1024 .f32) :
    (ptB V c t h0 h1 s).2.2.2 = (step1 V c t s).2.2 := by
  unfold ptB step1 sout1_B_2
  dsimp only
  exact piece_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) s.1 s.2.1 s.2.2

/-- So its scratch triple is one update from what it found. -/
theorem ptB_scr (c : Dev nD) (t : Fin cfg1.N) (h0 : ¬t.val % 16 = 0) (h1 : ¬t.val % 16 = 15) (s : Vec F S1024x1 .f32 × Vec F S1024x1 .f32 × Vec F S1024x1024 .f32) :
    (ptB V c t h0 h1 s).2 = step1 V c t s :=
  Prod.ext (ptB_scr0 V c t h0 h1 s) (Prod.ext (ptB_scr1 V c t h0 h1 s) (ptB_scr2 V c t h0 h1 s))

/-- Case C (the output's store taken) at a point leaves the updated shift. -/
theorem ptC_scr0 (c : Dev nD) (t : Fin cfg1.N) (h0 : ¬t.val % 16 = 0) (h1 : t.val % 16 = 15) (s : Vec F S1024x1 .f32 × Vec F S1024x1 .f32 × Vec F S1024x1024 .f32) :
    (ptC V c t h0 h1 s).2.1 = (step1 V c t s).1 := by
  unfold ptC step1 sout1_C_0
  dsimp only
  exact piece_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2

/-- Case C (the output's store taken) at a point leaves the updated normaliser. -/
theorem ptC_scr1 (c : Dev nD) (t : Fin cfg1.N) (h0 : ¬t.val % 16 = 0) (h1 : t.val % 16 = 15) (s : Vec F S1024x1 .f32 × Vec F S1024x1 .f32 × Vec F S1024x1024 .f32) :
    (ptC V c t h0 h1 s).2.2.1 = (step1 V c t s).2.1 := by
  unfold ptC step1 sout1_C_1
  dsimp only
  exact piece_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2

/-- Case C (the output's store taken) at a point leaves the updated accumulator. -/
theorem ptC_scr2 (c : Dev nD) (t : Fin cfg1.N) (h0 : ¬t.val % 16 = 0) (h1 : t.val % 16 = 15) (s : Vec F S1024x1 .f32 × Vec F S1024x1 .f32 × Vec F S1024x1024 .f32) :
    (ptC V c t h0 h1 s).2.2.2 = (step1 V c t s).2.2 := by
  unfold ptC step1 sout1_C_2
  dsimp only
  exact piece_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2

/-- So its scratch triple is one update from what it found. -/
theorem ptC_scr (c : Dev nD) (t : Fin cfg1.N) (h0 : ¬t.val % 16 = 0) (h1 : t.val % 16 = 15) (s : Vec F S1024x1 .f32 × Vec F S1024x1 .f32 × Vec F S1024x1024 .f32) :
    (ptC V c t h0 h1 s).2 = step1 V c t s :=
  Prod.ext (ptC_scr0 V c t h0 h1 s) (Prod.ext (ptC_scr1 V c t h0 h1 s) (ptC_scr2 V c t h0 h1 s))

/-- Case C stores into the output the updated accumulator over the updated normaliser. -/
theorem ptC_out (c : Dev nD) (t : Fin cfg1.N) (h0 : ¬t.val % 16 = 0) (h1 : t.val % 16 = 15) (s : Vec F S1024x1 .f32 × Vec F S1024x1 .f32 × Vec F S1024x1024 .f32) :
    (ptC V c t h0 h1 s).1 = outOf (step1 V c t s).2.2 (step1 V c t s).2.1 := by
  unfold ptC step1 out1_C_4
  dsimp only
  exact piece_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) s.1 s.2.1 s.2.2

/-! ## The scratch arrays after each point are the carried triple -/

/-- After point `n` the three scratch arrays hold the carried triple `st1`: by induction on the point, the case the
    closed forms select at each point being one update (`ptκ_scr`) — from the reset triple at the points ≡ 0 (mod 16),
    from what the point before left elsewhere. -/
theorem outsAt1_scr (c : Dev nD) (n : ℕ) (hn : n < cfg1.N) : (outsAt1 V c n hn).2 = st1 V c n hn := by
  induction n with
  | zero =>
    exact (congrArg Prod.snd (outsAt1_A V c ⟨0, hn⟩ (Nat.zero_mod _) (show ¬0 % 16 = 15 by decide))).trans
      ((ptA_scr V c ⟨0, hn⟩ _ _).trans (st1_reset V c ⟨0, hn⟩ (Nat.zero_mod _)).symm)
  | succ n ih =>
    by_cases h0 : (n + 1) % 16 = 0
    · have h1 : ¬(n + 1) % 16 = 15 := by omega
      exact (congrArg Prod.snd (outsAt1_A V c ⟨n + 1, hn⟩ h0 h1)).trans
        ((ptA_scr V c ⟨n + 1, hn⟩ h0 h1).trans (st1_reset V c ⟨n + 1, hn⟩ h0).symm)
    · have hst : st1 V c (n + 1) hn = step1 V c ⟨n + 1, hn⟩ (st1 V c n (Nat.lt_of_succ_lt hn)) := st1_step V c ⟨n + 1, hn⟩ h0
      rw [hst, ← ih (Nat.lt_of_succ_lt hn)]
      by_cases h1 : (n + 1) % 16 = 15
      · exact (congrArg Prod.snd (outsAt1_C V c ⟨n + 1, hn⟩ h0 h1)).trans (ptC_scr V c ⟨n + 1, hn⟩ h0 h1 _)
      · exact (congrArg Prod.snd (outsAt1_B V c ⟨n + 1, hn⟩ h0 h1)).trans (ptB_scr V c ⟨n + 1, hn⟩ h0 h1 _)

/-- The same, component by component. -/
theorem outsAt1_st (c : Dev nD) (n : ℕ) (hn : n < cfg1.N) :
    ((outsAt1 V c n hn).2.1, (outsAt1 V c n hn).2.2.1, (outsAt1 V c n hn).2.2.2) = st1 V c n hn :=
  outsAt1_scr V c n hn

/-- At the last point of a row of the grid the output's buffer holds the carried accumulator over the carried normaliser. -/
theorem outsAt1_out (c : Dev nD) (t : Fin cfg1.N) (h : t.val % 16 = 15) :
    (outsAt1 V c t.val t.isLt).1 = outOf (st1 V c t.val t.isLt).2.2 (st1 V c t.val t.isLt).2.1 := by
  have h0 : ¬t.val % 16 = 0 := by omega
  rw [outsAt1_C V c t h0 h, st1_step V c t h0, ← outsAt1_scr V c (t.val - 1) (Nat.lt_of_le_of_lt (Nat.sub_le _ _) t.isLt)]
  exact ptC_out V c t h0 h _

end Cert.KernelIdeal.Hand

end
-- ==== Proof.KI.Arr1.lean ====
/- The attention call's result array after the region, from the blocks its last points write back: query block `q`
   (rows `1024 q …`) is written once, at the point `16 q + 15`, with the carried accumulator over the carried
   normaliser there; the eight blocks tile the array. -/
import proofs.«418636_j9964324127022_3_alg».proof.Proof.KI.RegBVal
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The result array as one function -/

/-- The last point of the query block that holds row `n`. -/
theorem lastPt_lt (n : ℕ) (hn : n < 8192) : 16 * (n / 1024) + 15 < cfg1.N := by
  rw [show cfg1.N = 128 from N_1]; omega

/-- The carried triple depends on the point's number only. -/
theorem st1_congr (c : Dev nD) {n n' : ℕ} (h : n = n') (hn : n < cfg1.N) (hn' : n' < cfg1.N) :
    st1 V c n hn = st1 V c n' hn' := by
  subst h; rfl

/-- Row `r` of the result: row `r % 1024` of what the last point of query block `r / 1024` stores. -/
def resArr (c : Dev nD) : Vec F S8192x1024 .f32 := fun i =>
  outOf (st1 V c (16 * ((i 0).val / 1024) + 15) (lastPt_lt (i 0).val (i 0).isLt)).2.2
    (st1 V c (16 * ((i 0).val / 1024) + 15) (lastPt_lt (i 0).val (i 0).isLt)).2.1
    (ix2 (⟨(i 0).val % 1024, Nat.mod_lt _ (by decide)⟩ : Fin 1024) (⟨(i 1).val, (i 1).isLt⟩ : Fin 1024))

theorem resArr_apply (c : Dev nD) (r : Fin 8192) (d : Fin 1024) :
    resArr V c (ix2 r d) = outOf (st1 V c (16 * (r.val / 1024) + 15) (lastPt_lt r.val r.isLt)).2.2
      (st1 V c (16 * (r.val / 1024) + 15) (lastPt_lt r.val r.isLt)).2.1
      (ix2 (⟨r.val % 1024, Nat.mod_lt _ (by decide)⟩ : Fin 1024) d) := rfl

/-- What the last point `t` of a query block stores, at `j`, is the result at the index `i` that `j` names in the array. -/
theorem resArr_at (c : Dev nD) (t : Fin cfg1.N) (h15 : t.val % 16 = 15) (j : S1024x1024.Idx) (i : S8192x1024.Idx)
    (hi0 : (i 0).val = (t.val / 16) * 1024 + (j 0).val) (hi1 : (i 1).val = (j 1).val) :
    outOf (st1 V c t.val t.isLt).2.2 (st1 V c t.val t.isLt).2.1 j = resArr V c i := by
  have hj0 : (j 0).val < 1024 := (j 0).isLt
  have hn : 16 * ((i 0).val / 1024) + 15 = t.val := by omega
  have e := st1_congr V c hn (lastPt_lt (i 0).val (i 0).isLt) t.isLt
  have hjj : (ix2 (⟨(i 0).val % 1024, Nat.mod_lt _ (by decide)⟩ : Fin 1024) (⟨(i 1).val, (i 1).isLt⟩ : Fin 1024) : S1024x1024.Idx) = j := by
    funext d
    apply Fin.ext
    match d with
    | ⟨0, _⟩ => show (i 0).val % 1024 = (j 0).val; omega
    | ⟨1, _⟩ => show (i 1).val = (j 1).val; exact hi1
  unfold resArr
  rw [e, hjj]

/-! ## What the flushing points write back, and the cover -/

/-- The printed index map of the output window, decided over the grid: block row `t / 16`, block column 0. -/
theorem idx_facts1 : ∀ t : Fin cfg1.N, win1_4.index t (0 : Fin 2) = t.val / 16 ∧ win1_4.index t (1 : Fin 2) = 0 :=
  (by decide +kernel : ∀ t : Fin grid1.N, _)

/-- A point that writes the output back writes its block of the result. -/
theorem flushed1_4_eq (c : Dev nD) (t : Fin cfg1.N) (hf : (cfg1.win 4).flush t = true) :
    (dat1 V c).flushed 4 t = ((cfg1.win 4).blk t).view.read (Elt F) (resArr V c) := by
  have h15 : t.val % 16 = 15 := (flush1_4 t).mp hf
  show (cfg1.win 4).cut (grid1.coords t) ((dat1 V c).after 4 t) = _
  rw [after1_4, outsAt1_out V c t h15]
  obtain ⟨e0, e1⟩ := idx_facts1 t
  funext j
  refine resArr_at V c t h15 j (((cfg1.win 4).blk t).view.emb j) ?_ ?_
  · show win1_4.index t 0 * 1024 + 1 * (j 0).val = (t.val / 16) * 1024 + (j 0).val; rw [e0]; omega
  · show win1_4.index t 1 * 1024 + 1 * (j 1).val = (j 1).val; rw [e1]; omega

/-- An index of the array is in point `t`'s block iff each coordinate is in the block's range on its axis. -/
theorem mem_blk1_4 (t : Fin cfg1.N) (i : S8192x1024.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v15).slice (win1_4.rect t)).set ↔ _
  rw [View.set_slice_whole, Rect.mem_set_unit]
  exact Iff.rfl

/-- Every index is in the block of its query block's last point, which writes back. -/
theorem cover1_4 (i : S8192x1024.Idx) : ∃ t : Fin cfg1.N, (cfg1.win 4).flush t = true ∧ i ∈ ((cfg1.win 4).blk t).view.set := by
  have h0 : (i 0).val < 8192 := (i 0).isLt
  have h1 : (i 1).val < 1024 := (i 1).isLt
  refine ⟨⟨16 * ((i 0).val / 1024) + 15, lastPt_lt (i 0).val h0⟩, (flush1_4 _).mpr (by show (16 * ((i 0).val / 1024) + 15) % 16 = 15; omega), ?_⟩
  obtain ⟨e0, e1⟩ := idx_facts1 ⟨16 * ((i 0).val / 1024) + 15, lastPt_lt (i 0).val h0⟩
  have hp : (16 * ((i 0).val / 1024) + 15) / 16 = (i 0).val / 1024 := by omega
  rw [mem_blk1_4]
  intro a
  match a with
  | ⟨0, _⟩ =>
    show win1_4.index ⟨16 * ((i 0).val / 1024) + 15, lastPt_lt (i 0).val h0⟩ (0 : Fin 2) * 1024 ≤ (i 0).val ∧ (i 0).val < win1_4.index ⟨16 * ((i 0).val / 1024) + 15, lastPt_lt (i 0).val h0⟩ (0 : Fin 2) * 1024 + 1024
    rw [e0]; show (16 * ((i 0).val / 1024) + 15) / 16 * 1024 ≤ (i 0).val ∧ (i 0).val < (16 * ((i 0).val / 1024) + 15) / 16 * 1024 + 1024
    rw [hp]; omega
  | ⟨1, _⟩ =>
    show win1_4.index ⟨16 * ((i 0).val / 1024) + 15, lastPt_lt (i 0).val h0⟩ (1 : Fin 2) * 1024 ≤ (i 1).val ∧ (i 1).val < win1_4.index ⟨16 * ((i 0).val / 1024) + 15, lastPt_lt (i 0).val h0⟩ (1 : Fin 2) * 1024 + 1024
    rw [e1]; omega

/-! ## The array after the region -/

/-- The result array after the region is `resArr`. -/
theorem arr1_4_eq (c : Dev nD) : (dat1 V c).arrAt 4 cfg1.N = resArr V c :=
  (dat1 V c).arrAt_eq_of_cover 4 (resArr V c) (fun t hf => flushed1_4_eq V c t hf) cover1_4

/-- The result array after the region, at its literal type. -/
abbrev outArr1 (c : Dev nD) : Vec F S8192x1024 .f32 := (dat1 V c).arrAt 4 cfg1.N

/-- Read at entry `(r, d)`: row `r % 1024`, column `d` of what the last point of query block `r / 1024` stores. -/
theorem arr1_4 (c : Dev nD) (r : Fin 8192) (d : Fin 1024) :
    outArr1 V c (ix2 r d) = outOf (st1 V c (16 * (r.val / 1024) + 15) (lastPt_lt r.val r.isLt)).2.2
      (st1 V c (16 * (r.val / 1024) + 15) (lastPt_lt r.val r.isLt)).2.1
      (ix2 (⟨r.val % 1024, Nat.mod_lt _ (by decide)⟩ : Fin 1024) d) := by
  show (dat1 V c).arrAt 4 cfg1.N (ix2 r d) = _
  rw [arr1_4_eq]; rfl

end Cert.KernelIdeal.HandVal

end
-- ==== Proof.ProjReal.lean ====
/-
  A matrix product of finite extended-real arrays is the real matrix product.

  An array of extended reals none of whose entries is `⊤` or `⊥` is the coercion of its real reading, entry by entry.
  A finite sum of products of such entries is then the coercion of the real sum of real products (coercion commutes with
  `*` and with finite sums), hence finite itself, and its real reading is the real sum. Outside the shape the real reading
  is `0` on both sides: the reading of the product is `0` by definition, and every summand of the real product has a
  factor read outside its shape. Scaling every entry by a real `σ` is the same: the entry is the coercion of the real
  product.
-/
import proofs.«418636_j9964324127022_3_alg».proof.Proof.Spec
import Idealize.ShloMosaic.Lib.ValueIdx
import Idealize.ShloMosaic.PureOps.Ideal

noncomputable section

open scoped BigOperators
open Finset

namespace Cert.ProjReal

open Cert.Spec Idealize.ShloMosaic Idealize.ShloMosaic.ValueIdx

abbrev S8192x1024 : Shape := ⟨2, ![8192, 1024]⟩
abbrev S1024x1024 : Shape := ⟨2, ![1024, 1024]⟩

/-- No entry of the array is an infinity. -/
def FiniteArr {S : Shape} (a : S.Idx → EReal) : Prop := ∀ i, a i ≠ ⊤ ∧ a i ≠ ⊥

/-- The real reading depends only on the entries. -/
theorem toN2_congr {A B : ℕ} (a b : (⟨2, ![A, B]⟩ : Shape).Idx → EReal) (h : ∀ i, a i = b i) : toN2 a = toN2 b := by
  have hab : a = b := funext h
  rw [hab]

/-- Outside the shape the real reading is `0`. -/
theorem toN2_of_not {A B : ℕ} (a : (⟨2, ![A, B]⟩ : Shape).Idx → EReal) (r k : ℕ) (h : ¬(r < A ∧ k < B)) :
    toN2 a r k = 0 := by
  unfold toN2
  rw [dif_neg h]

/-- Inside the shape the real reading is the entry's real part. -/
theorem toN2_of_lt {A B : ℕ} (a : (⟨2, ![A, B]⟩ : Shape).Idx → EReal) (r k : ℕ) (hr : r < A) (hk : k < B) :
    toN2 a r k = (a (ix2 ⟨r, hr⟩ ⟨k, hk⟩)).toReal :=
  toN2_apply a ⟨r, hr⟩ ⟨k, hk⟩

/-- One entry of the product of two finite arrays: the coercion of the real sum of real products. -/
theorem entry_real (x : S8192x1024.Idx → EReal) (w : S1024x1024.Idx → EReal) (hx : FiniteArr x) (hw : FiniteArr w)
    (r : Fin 8192) (e : Fin 1024) :
    (∑ k : Fin 1024, x (ix2 r k) * w (ix2 k e))
      = ((∑ k ∈ range 1024, toN2 x r.val k * toN2 w k e.val : ℝ) : EReal) := by
  have e1 : (∑ k ∈ range 1024, toN2 x r.val k * toN2 w k e.val)
      = ∑ k : Fin 1024, toN2 x r.val k.val * toN2 w k.val e.val :=
    (sum_fin_eq_range 1024 (fun k => toN2 x r.val k * toN2 w k e.val)).symm
  rw [e1, coe_sum]
  refine Finset.sum_congr rfl (fun k _ => ?_)
  rw [EReal.coe_mul, coe_toN2 x r k (hx _).1 (hx _).2, coe_toN2 w k e (hw _).1 (hw _).2]

theorem prod_real (x : S8192x1024.Idx → EReal) (w : S1024x1024.Idx → EReal) (hx : FiniteArr x) (hw : FiniteArr w)
    (a : S8192x1024.Idx → EReal)
    (ha : ∀ (r : Fin 8192) (e : Fin 1024), a (ix2 r e) = ∑ k : Fin 1024, x (ix2 r k) * w (ix2 k e)) :
    FiniteArr a ∧ toN2 a = proj (toN2 x) (toN2 w) := by
  have hent : ∀ (r : Fin 8192) (e : Fin 1024),
      a (ix2 r e) = ((∑ k ∈ range 1024, toN2 x r.val k * toN2 w k e.val : ℝ) : EReal) :=
    fun r e => (ha r e).trans (entry_real x w hx hw r e)
  refine ⟨fun i => ?_, ?_⟩
  · obtain ⟨r, e, rfl⟩ : ∃ r e, i = ix2 r e := ⟨i 0, i 1, eq_ix2 i⟩
    rw [hent]
    exact ⟨EReal.coe_ne_top _, EReal.coe_ne_bot _⟩
  · funext r e
    unfold proj
    by_cases h : r < 8192 ∧ e < 1024
    · rw [toN2_of_lt a r e h.1 h.2, hent, EReal.toReal_coe]
    · rw [toN2_of_not a r e h]
      symm
      refine Finset.sum_eq_zero (fun k _ => ?_)
      by_cases hr : r < 8192
      · have he : ¬e < 1024 := fun he => h ⟨hr, he⟩
        rw [toN2_of_not w k e (fun hh => he hh.2), mul_zero]
      · rw [toN2_of_not x r k (fun hh => hr hh.1), zero_mul]

theorem scaled_real (w : S1024x1024.Idx → EReal) (hw : FiniteArr w) (σ : ℝ) (w' : S1024x1024.Idx → EReal)
    (hw' : ∀ i, w' i = w i * ((σ : ℝ) : EReal)) :
    FiniteArr w' ∧ toN2 w' = fun i e => toN2 w i e * σ := by
  have hent : ∀ (r e : Fin 1024), w' (ix2 r e) = ((toN2 w r.val e.val * σ : ℝ) : EReal) := by
    intro r e
    rw [hw', EReal.coe_mul, coe_toN2 w r e (hw _).1 (hw _).2]
  refine ⟨fun i => ?_, ?_⟩
  · obtain ⟨r, e, rfl⟩ : ∃ r e, i = ix2 r e := ⟨i 0, i 1, eq_ix2 i⟩
    rw [hent]
    exact ⟨EReal.coe_ne_top _, EReal.coe_ne_bot _⟩
  · funext r e
    by_cases h : r < 1024 ∧ e < 1024
    · rw [toN2_of_lt w' r e h.1 h.2, hent, EReal.toReal_coe]
    · rw [toN2_of_not w' r e h, toN2_of_not w r e h, zero_mul]

end Cert.ProjReal

end
-- ==== Proof.KI.KernelValue.lean ====
/-
  The kernel program's result array, element by element, as a real number.

  Under finite inputs: the host stretch hands the projection call the input rows, the query weights times the scale
  literal, the key and value weights, and the gathered bias; the projection call leaves the three matrix products; the
  attention call's last point of each grid row stores accumulator over normaliser, which after sixteen key blocks is
  `Cert.Spec.aSeq … 16 / Cert.Spec.lSeq … 16` of the row's real scores (the kernel's spelling `scoreK`, the scale inside
  the query weights) and the value column.
-/
import proofs.«418636_j9964324127022_3_alg».proof.Proof.KI.Run
import proofs.«418636_j9964324127022_3_alg».proof.Proof.KI.ValA
import proofs.«418636_j9964324127022_3_alg».proof.Proof.KI.HostVals
import proofs.«418636_j9964324127022_3_alg».proof.Proof.KI.RowReal
import proofs.«418636_j9964324127022_3_alg».proof.Proof.KI.Arr1
import proofs.«418636_j9964324127022_3_alg».proof.Proof.ProjReal
import proofs.«418636_j9964324127022_3_alg».proof.Proof.Consts
import proofs.«418636_j9964324127022_3_alg».proof.Proof.Spec

set_option maxRecDepth 16384

noncomputable section

open scoped BigOperators

namespace Cert.KernelIdeal.HandVal

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The argument arrays at their literal types. -/
abbrev argX : S8192x1024.Idx → EReal := m ((c : Thread nD τ).loc main_arg0)
abbrev argQ : S1024x1024.Idx → EReal := m ((c : Thread nD τ).loc main_arg2)
abbrev argK : S1024x1024.Idx → EReal := m ((c : Thread nD τ).loc main_arg3)
abbrev argV : S1024x1024.Idx → EReal := m ((c : Thread nD τ).loc main_arg4)
/-- The gathered bias, as the reference spells it. -/
abbrev biasArr : S8192x8192.Idx → EReal :=
  Cert.ReferenceIdeal.Read.val_main_v13 (F := Ideal) (m ((c : Thread nD τ).loc main_arg1)) (m ((c : Thread nD τ).loc main_arg5))
/-- The query weights times the scale. -/
def argQs : S1024x1024.Idx → EReal := fun i => argQ m c i * (((1 : ℝ) / 32 : ℝ) : EReal)

/-- The arrays the attention call is entered with. -/
abbrev arrQ : S8192x1024.Idx → EReal := V2 m ρ c main_v14_0
abbrev arrK : S8192x1024.Idx → EReal := V2 m ρ c main_v14_1
abbrev arrV : S8192x1024.Idx → EReal := V2 m ρ c main_v14_2
abbrev arrB : S8192x8192.Idx → EReal := V2 m ρ c main_v7

/-- The host stretch's values as the launch module names them. -/
theorem W1_eq (b : Ref sig .tc) : W1 m ρ c (Proc.devRef .tc b) = HostVals.E1 m c (Proc.devRef .tc b) := rfl

theorem arrQ_apply (r : Fin 8192) (e : Fin 1024) :
    arrQ m ρ c (ix2 r e) = ∑ k : Fin 1024, argX m c (ix2 r k) * argQs m c (ix2 k e) := by
  have h : arrQ m ρ c = prodArr (V1 m ρ c main_v8) (V1 m ρ c main_v11) :=
    (W2_arr m ρ c 4).trans (arr0_4_eq (V1 m ρ) c)
  rw [h, prodArr_apply]
  refine Finset.sum_congr rfl fun k _ => ?_
  have e1 : (V1 m ρ c main_v8 : S8192x1024.Idx → EReal) (ix2 r k) = argX m c (ix2 r k) := HostVals.v8_apply m c (ix2 r k)
  have e2 : (V1 m ρ c main_v11 : S1024x1024.Idx → EReal) (ix2 k e) = argQs m c (ix2 k e) := by
    refine (HostVals.v11_apply m c (ix2 k e)).trans ?_
    unfold argQs; rw [Cert.Consts.ofBits_scale]
  exact congrArg₂ (· * ·) e1 e2

theorem arrK_apply (r : Fin 8192) (e : Fin 1024) :
    arrK m ρ c (ix2 r e) = ∑ k : Fin 1024, argX m c (ix2 r k) * argK m c (ix2 k e) := by
  have h : arrK m ρ c = prodArr (V1 m ρ c main_v8) (V1 m ρ c main_v12) :=
    (W2_arr m ρ c 5).trans (arr0_5_eq (V1 m ρ) c)
  rw [h, prodArr_apply]
  refine Finset.sum_congr rfl fun k _ => ?_
  exact congrArg₂ (· * ·) (HostVals.v8_apply m c (ix2 r k)) (HostVals.v12_apply m c (ix2 k e))

theorem arrV_apply (r : Fin 8192) (e : Fin 1024) :
    arrV m ρ c (ix2 r e) = ∑ k : Fin 1024, argX m c (ix2 r k) * argV m c (ix2 k e) := by
  have h : arrV m ρ c = prodArr (V1 m ρ c main_v8) (V1 m ρ c main_v13) :=
    (W2_arr m ρ c 6).trans (arr0_6_eq (V1 m ρ) c)
  rw [h, prodArr_apply]
  refine Finset.sum_congr rfl fun k _ => ?_
  exact congrArg₂ (· * ·) (HostVals.v8_apply m c (ix2 r k)) (HostVals.v13_apply m c (ix2 k e))

theorem arrB_eq : arrB m ρ c = biasArr m c :=
  (W2_of_ne m ρ c main_v7 (by decide)).trans (HostVals.v7_eq m c)

/-- The kernel program's result at `(r, d)`: the online recurrence's quotient, over the real scores and value column. -/
theorem kernel_value
    (h0 : ∀ i, argX m c i ≠ ⊤ ∧ argX m c i ≠ ⊥) (h2 : ∀ i, argQ m c i ≠ ⊤ ∧ argQ m c i ≠ ⊥)
    (h3 : ∀ i, argK m c i ≠ ⊤ ∧ argK m c i ≠ ⊥) (h4 : ∀ i, argV m c i ≠ ⊤ ∧ argV m c i ≠ ⊥)
    (hb : ∀ i, biasArr m c i ≠ ⊤ ∧ biasArr m c i ≠ ⊥) (r : Fin 8192) (d : Fin 1024) :
    ∃ mm : ℕ → ℝ, (W3 m ρ c (Proc.devRef .tc main_v15) : S8192x1024.Idx → EReal) (ix2 r d)
      = ((aSeq (scoreK ((1 : ℝ) / 32) (toN2 (argX m c)) (toN2 (argQ m c)) (toN2 (argK m c)) (toN2 (biasArr m c)) r.val)
            (fun col => proj (toN2 (argX m c)) (toN2 (argV m c)) col d.val) mm 16
          / lSeq (scoreK ((1 : ℝ) / 32) (toN2 (argX m c)) (toN2 (argQ m c)) (toN2 (argK m c)) (toN2 (biasArr m c)) r.val) mm 16 : ℝ) : EReal) := by
  -- the projections are finite, and their real readings are the real products
  obtain ⟨hQs, eQs⟩ := Cert.ProjReal.scaled_real (argQ m c) h2 ((1 : ℝ) / 32) (argQs m c) (fun i => rfl)
  obtain ⟨hQ, eQ⟩ := Cert.ProjReal.prod_real (argX m c) (argQs m c) h0 hQs (arrQ m ρ c) (arrQ_apply m ρ c)
  obtain ⟨hK, eK⟩ := Cert.ProjReal.prod_real (argX m c) (argK m c) h0 h3 (arrK m ρ c) (arrK_apply m ρ c)
  obtain ⟨hV, eV⟩ := Cert.ProjReal.prod_real (argX m c) (argV m c) h0 h4 (arrV m ρ c) (arrV_apply m ρ c)
  have hB : ∀ i, arrB m ρ c i ≠ ⊤ ∧ arrB m ρ c i ≠ ⊥ := by rw [arrB_eq]; exact hb
  have eB : toN2 (arrB m ρ c) = toN2 (biasArr m c) := by rw [arrB_eq]
  -- the result array's entry is the last point's quotient
  have hr : 1024 * (r.val / 1024) + r.val % 1024 = r.val := Nat.div_add_mod r.val 1024
  have hqi : r.val / 1024 < 8 := by have := r.isLt; omega
  obtain ⟨mm, hmm⟩ := row_out (V2 m ρ) c hQ hK hV hB ⟨r.val / 1024, hqi⟩ ⟨r.val % 1024, Nat.mod_lt _ (by decide)⟩ d
  refine ⟨mm, ?_⟩
  have e3 : (W3 m ρ c (Proc.devRef .tc main_v15) : S8192x1024.Idx → EReal) = outArr1 (V2 m ρ) c := W3_result m ρ c
  rw [e3, arr1_4 (V2 m ρ) c r d]
  refine hmm.trans ?_
  show ((aSeq (fun col => (∑ e ∈ Finset.range 1024, toN2 (arrQ m ρ c) (1024 * (r.val / 1024) + r.val % 1024) e * toN2 (arrK m ρ c) col e) + toN2 (arrB m ρ c) (1024 * (r.val / 1024) + r.val % 1024) col)
            (fun col => toN2 (arrV m ρ c) col d.val) mm 16
          / lSeq (fun col => (∑ e ∈ Finset.range 1024, toN2 (arrQ m ρ c) (1024 * (r.val / 1024) + r.val % 1024) e * toN2 (arrK m ρ c) col e) + toN2 (arrB m ρ c) (1024 * (r.val / 1024) + r.val % 1024) col) mm 16 : ℝ) : EReal) = _
  rw [hr, eQ, eK, eV, eB, eQs]
  rfl

end Cert.KernelIdeal.HandVal

end
-- ==== Proof.RefValue.lean ====
/-
  The reference program's result, element by element, as a real number.

  Under finite inputs every stage of the reference is a finite real: the three projections are finite sums of products,
  the scores a scaled dot product plus a bias entry, the row's shift `M r` the maximum of finitely many reals (so a
  real itself), the weights exponentials divided by a positive sum, and the result row their product with the value
  projection. Read at index `(r, d)` the result is `Cert.Spec.softmaxOut` of the row's scores and the value column,
  at the shift `M r`.
-/
import proofs.«418636_j9964324127022_3_alg».proof.Proof.RefGen
import proofs.«418636_j9964324127022_3_alg».proof.Proof.Spec

noncomputable section

open scoped BigOperators

namespace Cert.RefValue

open Cert.ReferenceIdeal Cert.ReferenceIdeal.Read Cert.Spec Idealize.ShloMosaic Idealize.ShloMosaic.ValueIdx

/-- The input rows, a weight matrix, the distance indices, the bias table: the argument arrays at the ideal instance. -/
abbrev VX := (⟨S8192x1024, .f32⟩ : BufTy).Contents (Elt Ideal)
abbrev VW := (⟨S1024x1024, .f32⟩ : BufTy).Contents (Elt Ideal)
abbrev VD := (⟨S8192x8192, .i32⟩ : BufTy).Contents (Elt Ideal)
abbrev VE := (⟨S102x1, .f32⟩ : BufTy).Contents (Elt Ideal)

/-! ## Index functions at coordinates -/

theorem lidx0 (r : Fin 8192) (e k : Fin 1024) : lidx_main_v0 (ix2 r e) k = ix2 r k :=
  funext fun a => Fin.ext (by match a with | ⟨0, _⟩ => rfl | ⟨1, _⟩ => rfl)
theorem ridx0 (r : Fin 8192) (e k : Fin 1024) : ridx_main_v0 (ix2 r e) k = ix2 k e :=
  funext fun a => Fin.ext (by match a with | ⟨0, _⟩ => rfl | ⟨1, _⟩ => rfl)
theorem lidx1 (r : Fin 8192) (e k : Fin 1024) : lidx_main_v1 (ix2 r e) k = ix2 r k :=
  funext fun a => Fin.ext (by match a with | ⟨0, _⟩ => rfl | ⟨1, _⟩ => rfl)
theorem ridx1 (r : Fin 8192) (e k : Fin 1024) : ridx_main_v1 (ix2 r e) k = ix2 k e :=
  funext fun a => Fin.ext (by match a with | ⟨0, _⟩ => rfl | ⟨1, _⟩ => rfl)
theorem lidx2 (r : Fin 8192) (e k : Fin 1024) : lidx_main_v2 (ix2 r e) k = ix2 r k :=
  funext fun a => Fin.ext (by match a with | ⟨0, _⟩ => rfl | ⟨1, _⟩ => rfl)
theorem ridx2 (r : Fin 8192) (e k : Fin 1024) : ridx_main_v2 (ix2 r e) k = ix2 k e :=
  funext fun a => Fin.ext (by match a with | ⟨0, _⟩ => rfl | ⟨1, _⟩ => rfl)
theorem lidx15 (r c : Fin 8192) (k : Fin 1024) : lidx_main_v15 (ix2 r c) k = ix2 r k :=
  funext fun a => Fin.ext (by match a with | ⟨0, _⟩ => rfl | ⟨1, _⟩ => rfl)
theorem ridx15 (r c : Fin 8192) (k : Fin 1024) : ridx_main_v15 (ix2 r c) k = ix2 k c :=
  funext fun a => Fin.ext (by match a with | ⟨0, _⟩ => rfl | ⟨1, _⟩ => rfl)
theorem idx14 (c : Fin 8192) (k : Fin 1024) : idx_main_v14 (ix2 k c) = ix2 c k :=
  funext fun a => Fin.ext (by match a with | ⟨0, _⟩ => rfl | ⟨1, _⟩ => rfl)
theorem idx23 (r c : Fin 8192) : idx_main_v23 (ix2 r c) = ix2 r (0 : Fin 1) :=
  funext fun a => Fin.ext (by match a with | ⟨0, _⟩ => rfl | ⟨1, _⟩ => rfl)
theorem idx22 (r : Fin 8192) : idx_main_v22 (ix2 r (0 : Fin 1)) = ix1 r :=
  funext fun a => Fin.ext (by match a with | ⟨0, _⟩ => rfl)
theorem idx26 (r k : Fin 8192) : idx_main_v26 (ix1 r) k = ix2 r k :=
  funext fun a => Fin.ext (by match a with | ⟨0, _⟩ => rfl | ⟨1, _⟩ => rfl)
theorem idx28 (r c : Fin 8192) : idx_main_v28 (ix2 r c) = ix2 r (0 : Fin 1) :=
  funext fun a => Fin.ext (by match a with | ⟨0, _⟩ => rfl | ⟨1, _⟩ => rfl)
theorem idx27 (r : Fin 8192) : idx_main_v27 (ix2 r (0 : Fin 1)) = ix1 r :=
  funext fun a => Fin.ext (by match a with | ⟨0, _⟩ => rfl)
theorem lidx30 (r : Fin 8192) (d : Fin 1024) (k : Fin 8192) : lidx_main_v30 (ix2 r d) k = ix2 r k :=
  funext fun a => Fin.ext (by match a with | ⟨0, _⟩ => rfl | ⟨1, _⟩ => rfl)
theorem ridx30 (r : Fin 8192) (d : Fin 1024) (k : Fin 8192) : ridx_main_v30 (ix2 r d) k = ix2 k d :=
  funext fun a => Fin.ext (by match a with | ⟨0, _⟩ => rfl | ⟨1, _⟩ => rfl)

/-! ## The projections -/

/-- A row of finite entries times a column of finite entries, summed over the extended reals, is the real sum. -/
theorem dot_coe (x : VX) (w : VW) (hx : ∀ i, x i ≠ ⊤ ∧ x i ≠ ⊥) (hw : ∀ i, w i ≠ ⊤ ∧ w i ≠ ⊥) (r : Fin 8192) (e : Fin 1024) :
    (∑ k : Fin 1024, x (ix2 r k) * w (ix2 k e)) = ((proj (toN2 x) (toN2 w) r.val e.val : ℝ) : EReal) := by
  unfold proj
  rw [← sum_fin_eq_range 1024 (fun i => toN2 x r.val i * toN2 w i e.val), coe_sum]
  refine Finset.sum_congr rfl fun k _ => ?_
  rw [EReal.coe_mul, coe_toN2 x r k (hx _).1 (hx _).2, coe_toN2 w k e (hw _).1 (hw _).2]

theorem v0_coe (x0 : VX) (x2 : VW) (h0 : ∀ i, x0 i ≠ ⊤ ∧ x0 i ≠ ⊥) (h2 : ∀ i, x2 i ≠ ⊤ ∧ x2 i ≠ ⊥) (r : Fin 8192) (e : Fin 1024) :
    val_main_v0 (F := Ideal) x0 x2 (ix2 r e) = ((proj (toN2 x0) (toN2 x2) r.val e.val : ℝ) : EReal) := by
  rw [val_main_v0_apply]
  simp only [lidx0, ridx0]
  exact dot_coe x0 x2 h0 h2 r e

theorem v1_coe (x0 : VX) (x3 : VW) (h0 : ∀ i, x0 i ≠ ⊤ ∧ x0 i ≠ ⊥) (h3 : ∀ i, x3 i ≠ ⊤ ∧ x3 i ≠ ⊥) (r : Fin 8192) (e : Fin 1024) :
    val_main_v1 (F := Ideal) x0 x3 (ix2 r e) = ((proj (toN2 x0) (toN2 x3) r.val e.val : ℝ) : EReal) := by
  rw [val_main_v1_apply]
  simp only [lidx1, ridx1]
  exact dot_coe x0 x3 h0 h3 r e

theorem v2_coe (x0 : VX) (x4 : VW) (h0 : ∀ i, x0 i ≠ ⊤ ∧ x0 i ≠ ⊥) (h4 : ∀ i, x4 i ≠ ⊤ ∧ x4 i ≠ ⊥) (r : Fin 8192) (e : Fin 1024) :
    val_main_v2 (F := Ideal) x0 x4 (ix2 r e) = ((proj (toN2 x0) (toN2 x4) r.val e.val : ℝ) : EReal) := by
  rw [val_main_v2_apply]
  simp only [lidx2, ridx2]
  exact dot_coe x0 x4 h0 h4 r e

/-! ## The scores -/

/-- The transposed key projection at `(e, c)` is the key projection at `(c, e)`. -/
theorem v14_coe (x0 : VX) (x3 : VW) (h0 : ∀ i, x0 i ≠ ⊤ ∧ x0 i ≠ ⊥) (h3 : ∀ i, x3 i ≠ ⊤ ∧ x3 i ≠ ⊥) (c : Fin 8192) (e : Fin 1024) :
    val_main_v14 (F := Ideal) x0 x3 (ix2 e c) = ((proj (toN2 x0) (toN2 x3) c.val e.val : ℝ) : EReal) := by
  rw [val_main_v14_apply, idx14]
  exact v1_coe x0 x3 h0 h3 c e

/-- The dot product of query row `r` and key row `c`. -/
theorem v15_coe (x0 : VX) (x2 x3 : VW) (h0 : ∀ i, x0 i ≠ ⊤ ∧ x0 i ≠ ⊥) (h2 : ∀ i, x2 i ≠ ⊤ ∧ x2 i ≠ ⊥)
    (h3 : ∀ i, x3 i ≠ ⊤ ∧ x3 i ≠ ⊥) (r c : Fin 8192) :
    val_main_v15 (F := Ideal) x0 x2 x3 (ix2 r c)
      = ((∑ e ∈ Finset.range 1024, proj (toN2 x0) (toN2 x2) r.val e * proj (toN2 x0) (toN2 x3) c.val e : ℝ) : EReal) := by
  rw [val_main_v15_apply]
  simp only [lidx15, ridx15]
  rw [← sum_fin_eq_range 1024 (fun e => proj (toN2 x0) (toN2 x2) r.val e * proj (toN2 x0) (toN2 x3) c.val e), coe_sum]
  refine Finset.sum_congr rfl fun k _ => ?_
  rw [v0_coe x0 x2 h0 h2 r k, v14_coe x0 x3 h0 h3 c k, EReal.coe_mul]

/-- The broadcast scale constant is the real `σ` everywhere. -/
theorem v16_coe (σ : ℝ) (hσ : Ideal.ofBits .f32 0x3D000000#32 = ((σ : ℝ) : EReal)) (i : S8192x8192.Idx) :
    val_main_v16 (F := Ideal) i = ((σ : ℝ) : EReal) := by
  rw [val_main_v16_apply, val_main_cst_apply, Ideal.ofBits_def, hσ]

/-- The score at `(r, c)`: the scaled dot product plus the bias entry. -/
theorem v18_coe (x0 : VX) (x1 : VD) (x2 x3 : VW) (x5 : VE) (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (hb : ∀ i, val_main_v13 (F := Ideal) x1 x5 i ≠ ⊤ ∧ val_main_v13 (F := Ideal) x1 x5 i ≠ ⊥) (r c : Fin 8192) :
    val_main_v18 (F := Ideal) x0 x1 x2 x3 x5 (ix2 r c)
      = ((scoreR σ (toN2 x0) (toN2 x2) (toN2 x3) (toN2 (val_main_v13 (F := Ideal) x1 x5)) r.val c.val : ℝ) : EReal) := by
  rw [val_main_v18_apply, val_main_v17_apply, Ideal.addf_def, Ideal.mulf_def, v15_coe x0 x2 x3 h0 h2 h3 r c, v16_coe σ hσ]
  unfold scoreR
  rw [EReal.coe_add, EReal.coe_mul, coe_toN2 (val_main_v13 (F := Ideal) x1 x5) r c (hb _).1 (hb _).2]

/-! ## The row shift is a real -/

/-- A fold of `max` over finitely many reals, at least one of them, from a start below `⊤`, is neither infinity:
    it is below `⊤` because the start and every entry are, and above `⊥` because it is at least one entry. -/
theorem fold_max_real {ι : Type} (s : Finset ι) (f : ι → EReal) (b : EReal) (hbt : b ≠ ⊤)
    (hf : ∀ i ∈ s, f i ≠ ⊤ ∧ f i ≠ ⊥) (hne : s.Nonempty) :
    s.fold max b f ≠ ⊤ ∧ s.fold max b f ≠ ⊥ := by
  constructor
  · refine ne_of_lt ?_
    rw [Finset.fold_max_lt]
    exact ⟨lt_top_iff_ne_top.2 hbt, fun i hi => lt_top_iff_ne_top.2 (hf i hi).1⟩
  · refine ne_of_gt ?_
    rw [Finset.lt_fold_max]
    obtain ⟨i, hi⟩ := hne
    exact Or.inr ⟨i, hi, bot_lt_iff_ne_bot.2 (hf i hi).2⟩

/-- The reduce's initial value, the pattern of `-∞`. -/
theorem negInf : Ideal.ofBits .f32 0xFF800000#32 = (⊥ : EReal) := by simp [Ideal.ofBits, Ideal.ieee]

/-- Every score is a real. -/
theorem v18_real (x0 : VX) (x1 : VD) (x2 x3 : VW) (x5 : VE) (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (hb : ∀ i, val_main_v13 (F := Ideal) x1 x5 i ≠ ⊤ ∧ val_main_v13 (F := Ideal) x1 x5 i ≠ ⊥) (i : S8192x8192.Idx) :
    val_main_v18 (F := Ideal) x0 x1 x2 x3 x5 i ≠ ⊤ ∧ val_main_v18 (F := Ideal) x0 x1 x2 x3 x5 i ≠ ⊥ := by
  obtain ⟨r, c, rfl⟩ : ∃ (r c : Fin 8192), i = ix2 r c := ⟨i 0, i 1, eq_ix2 i⟩
  rw [v18_coe x0 x1 x2 x3 x5 σ hσ h0 h2 h3 hb r c]
  exact ⟨EReal.coe_ne_top _, EReal.coe_ne_bot _⟩

/-- The row's maximum from `-∞` is a real: the row has 8192 entries, all real. -/
theorem v19_real (x0 : VX) (x1 : VD) (x2 x3 : VW) (x5 : VE) (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (hb : ∀ i, val_main_v13 (F := Ideal) x1 x5 i ≠ ⊤ ∧ val_main_v13 (F := Ideal) x1 x5 i ≠ ⊥) (j : S8192.Idx) :
    val_main_v19 (F := Ideal) x0 x1 x2 x3 x5 j ≠ ⊤ ∧ val_main_v19 (F := Ideal) x0 x1 x2 x3 x5 j ≠ ⊥ := by
  have h : S8192x8192.Reduces [1] S8192 := by decide
  unfold val_main_v19
  rw [Host.reduce_eq_fold_single FloatOps.maximumf _ _ _ h]
  refine fold_max_real _ _ _ ?_ (fun k _ => v18_real x0 x1 x2 x3 x5 σ hσ h0 h2 h3 hb _) ⟨⟨0, by decide⟩, Finset.mem_univ _⟩
  rw [val_main_cst_2_apply, Ideal.ofBits_def, negInf]
  exact bot_ne_top

/-- The shift of row `r`: the row's maximum, as a real number (zero outside the array). -/
def shift (x0 : VX) (x1 : VD) (x2 x3 : VW) (x5 : VE) (n : ℕ) : ℝ :=
  if h : n < 8192 then (val_main_v21 (F := Ideal) x0 x1 x2 x3 x5 (ix1 ⟨n, h⟩)).toReal else 0

theorem v21_coe (x0 : VX) (x1 : VD) (x2 x3 : VW) (x5 : VE) (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (hb : ∀ i, val_main_v13 (F := Ideal) x1 x5 i ≠ ⊤ ∧ val_main_v13 (F := Ideal) x1 x5 i ≠ ⊥) (r : Fin 8192) :
    val_main_v21 (F := Ideal) x0 x1 x2 x3 x5 (ix1 r) = ((shift x0 x1 x2 x3 x5 r.val : ℝ) : EReal) := by
  have hr := v19_real x0 x1 x2 x3 x5 σ hσ h0 h2 h3 hb (ix1 r)
  have hv : val_main_v21 (F := Ideal) x0 x1 x2 x3 x5 (ix1 r) = val_main_v19 (F := Ideal) x0 x1 x2 x3 x5 (ix1 r) := by
    rw [val_main_v21_apply, val_main_v20_apply, val_main_cst_3_apply, Ideal.ofBits_def, negInf, Ideal.maximumf_def]
    exact max_eq_right bot_le
  unfold shift
  rw [dif_pos r.isLt, hv, EReal.coe_toReal hr.1 hr.2]

/-! ## The weights -/

/-- The real score function of the statement. -/
abbrev sc (x0 : VX) (x1 : VD) (x2 x3 : VW) (x5 : VE) (σ : ℝ) : ℕ → ℕ → ℝ :=
  scoreR σ (toN2 x0) (toN2 x2) (toN2 x3) (toN2 (val_main_v13 (F := Ideal) x1 x5))

/-- The shifted score's exponential at `(r, c)`. -/
theorem v25_coe (x0 : VX) (x1 : VD) (x2 x3 : VW) (x5 : VE) (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (hb : ∀ i, val_main_v13 (F := Ideal) x1 x5 i ≠ ⊤ ∧ val_main_v13 (F := Ideal) x1 x5 i ≠ ⊥) (r c : Fin 8192) :
    val_main_v25 (F := Ideal) x0 x1 x2 x3 x5 (ix2 r c)
      = ((Real.exp (sc x0 x1 x2 x3 x5 σ r.val c.val - shift x0 x1 x2 x3 x5 r.val) : ℝ) : EReal) := by
  rw [val_main_v25_apply, val_main_v24_apply, val_main_v23_apply, idx23, val_main_v22_apply, idx22,
    v18_coe x0 x1 x2 x3 x5 σ hσ h0 h2 h3 hb r c, v21_coe x0 x1 x2 x3 x5 σ hσ h0 h2 h3 hb r,
    Ideal.subf_def, Ideal.hostUnary_exp_def, ← EReal.coe_sub, Ideal.exp_coe]

/-- The normaliser of row `r`. -/
abbrev Z (x0 : VX) (x1 : VD) (x2 x3 : VW) (x5 : VE) (σ : ℝ) (r : ℕ) : ℝ :=
  ∑ c' ∈ Finset.range 8192, Real.exp (sc x0 x1 x2 x3 x5 σ r c' - shift x0 x1 x2 x3 x5 r)

theorem Z_pos (x0 : VX) (x1 : VD) (x2 x3 : VW) (x5 : VE) (σ : ℝ) (r : ℕ) : 0 < Z x0 x1 x2 x3 x5 σ r :=
  Finset.sum_pos (fun _ _ => Real.exp_pos _) (Finset.nonempty_range_iff.2 (by norm_num))

/-- The row sum from zero is the real normaliser. -/
theorem v26_coe (x0 : VX) (x1 : VD) (x2 x3 : VW) (x5 : VE) (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (hb : ∀ i, val_main_v13 (F := Ideal) x1 x5 i ≠ ⊤ ∧ val_main_v13 (F := Ideal) x1 x5 i ≠ ⊥) (r : Fin 8192) :
    val_main_v26 (F := Ideal) x0 x1 x2 x3 x5 (ix1 r) = ((Z x0 x1 x2 x3 x5 σ r.val : ℝ) : EReal) := by
  rw [val_main_v26_apply, val_main_cst_4_apply, Ideal.ofBits_def, Ideal.ofBits_zero_f32, zero_add]
  unfold Z
  rw [← sum_fin_eq_range 8192 (fun c' => Real.exp (sc x0 x1 x2 x3 x5 σ r.val c' - shift x0 x1 x2 x3 x5 r.val)), coe_sum]
  refine Finset.sum_congr rfl fun k _ => ?_
  rw [idx26, v25_coe x0 x1 x2 x3 x5 σ hσ h0 h2 h3 hb r k]

/-- The softmax weight at `(r, c)`: the exponential over the positive normaliser. -/
theorem v29_coe (x0 : VX) (x1 : VD) (x2 x3 : VW) (x5 : VE) (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (hb : ∀ i, val_main_v13 (F := Ideal) x1 x5 i ≠ ⊤ ∧ val_main_v13 (F := Ideal) x1 x5 i ≠ ⊥) (r c : Fin 8192) :
    val_main_v29 (F := Ideal) x0 x1 x2 x3 x5 (ix2 r c)
      = ((Real.exp (sc x0 x1 x2 x3 x5 σ r.val c.val - shift x0 x1 x2 x3 x5 r.val) / Z x0 x1 x2 x3 x5 σ r.val : ℝ) : EReal) := by
  rw [val_main_v29_apply, val_main_v28_apply, idx28, val_main_v27_apply, idx27,
    v25_coe x0 x1 x2 x3 x5 σ hσ h0 h2 h3 hb r c, v26_coe x0 x1 x2 x3 x5 σ hσ h0 h2 h3 hb r,
    Ideal.hostDivf_def, Ideal.div_coe (Z_pos x0 x1 x2 x3 x5 σ r.val).ne', ← EReal.coe_mul, mul_one_div]

/-! ## The result -/

/-- The reference's result at `(r, d)` is the softmax row of the real scores applied to the real value column:
    for finite `x0` (the input rows), `x2 x3 x4` (the three weight matrices), a finite bias array (the gathered
    table entries) and the scale `σ` the program's literal denotes. -/
theorem ref_value
    (x0 : (⟨S8192x1024, .f32⟩ : BufTy).Contents (Elt Ideal)) (x1 : (⟨S8192x8192, .i32⟩ : BufTy).Contents (Elt Ideal))
    (x2 x3 x4 : (⟨S1024x1024, .f32⟩ : BufTy).Contents (Elt Ideal)) (x5 : (⟨S102x1, .f32⟩ : BufTy).Contents (Elt Ideal))
    (σ : ℝ) (hσ : Ideal.ofBits .f32 0x3D000000#32 = ((σ : ℝ) : EReal))
    (h0 : ∀ i, x0 i ≠ ⊤ ∧ x0 i ≠ ⊥) (h2 : ∀ i, x2 i ≠ ⊤ ∧ x2 i ≠ ⊥) (h3 : ∀ i, x3 i ≠ ⊤ ∧ x3 i ≠ ⊥)
    (h4 : ∀ i, x4 i ≠ ⊤ ∧ x4 i ≠ ⊥)
    (hb : ∀ i, val_main_v13 (F := Ideal) x1 x5 i ≠ ⊤ ∧ val_main_v13 (F := Ideal) x1 x5 i ≠ ⊥) :
    ∃ M : ℕ → ℝ, ∀ (r : Fin 8192) (d : Fin 1024),
      val_main_v30 (F := Ideal) x0 x1 x2 x3 x4 x5 (ix2 r d)
        = ((softmaxOut (scoreR σ (toN2 x0) (toN2 x2) (toN2 x3) (toN2 (val_main_v13 (F := Ideal) x1 x5)) r.val)
              (fun c => proj (toN2 x0) (toN2 x4) c d.val) (M r.val) : ℝ) : EReal) := by
  refine ⟨shift x0 x1 x2 x3 x5, fun r d => ?_⟩
  rw [val_main_v30_apply]
  simp only [lidx30, ridx30]
  unfold softmaxOut
  rw [← sum_fin_eq_range 8192 (fun c => Real.exp (sc x0 x1 x2 x3 x5 σ r.val c - shift x0 x1 x2 x3 x5 r.val) / Z x0 x1 x2 x3 x5 σ r.val
      * proj (toN2 x0) (toN2 x4) c d.val), coe_sum]
  refine Finset.sum_congr rfl fun k _ => ?_
  rw [v29_coe x0 x1 x2 x3 x5 σ hσ h0 h2 h3 hb r k, v2_coe x0 x4 h0 h4 k d, EReal.coe_mul]

end Cert.RefValue

end
-- ==== Proof.Finite.lean ====
/-
  The precondition, decoded. The printed predicate compares, for each of the five float arguments, the absolute
  value `max x (-x)` of every entry with `+∞` (the pattern `0x7F800000`) by `<`, takes the conjunction over all
  entries, and conjoins the five results. If the predicate is 1, every conjunct is 1, so every entry of every float
  argument has `max x (-x) < ⊤`; then `x < ⊤` and `-x < ⊤`, i.e. `x` is neither `⊤` nor `⊥`: a real number.
-/
import proofs.«418636_j9964324127022_3_alg».proof.Defs
import Idealize.ShloMosaic.Lib.ReduceAll
import Idealize.ShloMosaic.Lib.ValueIdx

noncomputable section

namespace Cert.Finite

open Idealize.ShloMosaic

/-- A one-bit word made from a Boolean is 1 exactly when the Boolean is true. -/
private theorem ofBool_eq_one {b : Bool} : BitVec.ofBool b = 1#1 ↔ b = true := by cases b <;> decide

/-- An extended real whose absolute value `max x (-x)` compares below the pattern of `+∞` is neither infinity. -/
theorem finite_of_abs_lt (x : EReal)
    (h : Ideal.cmp .olt (max x (-x)) (Ideal.ofBits .f32 0x7F800000#32) = 1#1) : x ≠ ⊤ ∧ x ≠ ⊥ := by
  -- the pattern: exponent field all ones, mantissa zero, sign clear
  have hinf : Ideal.ofBits .f32 0x7F800000#32 = ⊤ := rfl
  rw [hinf] at h
  have h' : BitVec.ofBool (decide (max x (-x) < (⊤ : EReal))) = 1#1 := h
  have hlt : max x (-x) < (⊤ : EReal) := of_decide_eq_true (ofBool_eq_one.1 h')
  refine ⟨((le_max_left _ _).trans_lt hlt).ne, fun hx => ?_⟩
  have hneg : -x < (⊤ : EReal) := (le_max_right _ _).trans_lt hlt
  rw [hx, EReal.neg_bot] at hneg
  exact lt_irrefl _ hneg

/-- The rank-0 shape has one index. -/
instance : Subsingleton Cert.Pre_finite_inputs.S_.Idx := ⟨fun a b => funext fun d => d.elim0⟩

/-- If the finiteness predicate of the six arguments is 1, every entry of the five float arguments is a real. -/
theorem finite_of_pre [hPre : Cert.Pre_finite_inputs.Facts]
    (a0 : FVec Ideal Cert.Pre_finite_inputs.S8192x1024 .f32) (a1 : IVec Cert.Pre_finite_inputs.S8192x8192 32)
    (a2 a3 a4 : FVec Ideal Cert.Pre_finite_inputs.S1024x1024 .f32) (a5 : FVec Ideal Cert.Pre_finite_inputs.S102x1 .f32)
    (h : Cert.Pre_finite_inputs.fn (F := Ideal) a0 a1 a2 a3 a4 a5 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) := by
  have h0 := congrFun h ValueIdx.ix0
  dsimp only [Cert.Pre_finite_inputs.fn, Cert.Pre_finite_inputs.fn_part1] at h0
  -- the conjunction of the five results, taken apart
  obtain ⟨h0234, h5⟩ := IntOp.andi_eq_one.1 h0
  obtain ⟨h023, h4⟩ := IntOp.andi_eq_one.1 h0234
  obtain ⟨h02, h3⟩ := IntOp.andi_eq_one.1 h023
  obtain ⟨h00, h2⟩ := IntOp.andi_eq_one.1 h02
  refine ⟨fun i => ?_, fun i => ?_, fun i => ?_, fun i => ?_, fun i => ?_⟩
  · exact finite_of_abs_lt _ (Host.reduce_andi_all _ _ _ _ _ h00 i)
  · exact finite_of_abs_lt _ (Host.reduce_andi_all _ _ _ _ _ h2 i)
  · exact finite_of_abs_lt _ (Host.reduce_andi_all _ _ _ _ _ h3 i)
  · exact finite_of_abs_lt _ (Host.reduce_andi_all _ _ _ _ _ h4 i)
  · exact finite_of_abs_lt _ (Host.reduce_andi_all _ _ _ _ _ h5 i)

end Cert.Finite

end
-- ==== Proof.lean ====
/-
  The proof of `Cert.Claim`: the three frames, the (empty) idealization ledger, and the equivalence of the idealized
  kernel program and the idealized reference over the extended reals.

  The kernel is attention with an additive bias, computed online: a projection call forms the query (with the scale
  folded into its weights), key and value matrices; an attention call walks the keys block by block, carrying a shift,
  a normaliser and an accumulator per query row, and divides at the end. The reference forms the scores, applies a
  softmax along the keys and multiplies by the values. Under finite inputs every quantity is a real number, the online
  recurrence's quotient is the softmax-weighted sum for any shifts (Proof/Spec.lean), and the two score spellings agree.
  Both frames of the kernel program are the launch over its three segments (Proof/KI/Run.lean and its word-level copy);
  the reference's frame is its run with the result dropped.
-/
import proofs.«418636_j9964324127022_3_alg».proof.Defs
import proofs.«418636_j9964324127022_3_alg».proof.Proof.Gen.Kernel
import proofs.«418636_j9964324127022_3_alg».proof.Proof.Gen.KernelIdeal
import proofs.«418636_j9964324127022_3_alg».proof.Proof.Gen.ReferenceIdeal
import proofs.«418636_j9964324127022_3_alg».proof.Proof.Gen.Pre_finite_inputs
import proofs.«418636_j9964324127022_3_alg».proof.Proof.KB.Run
import proofs.«418636_j9964324127022_3_alg».proof.Proof.KI.Run
import proofs.«418636_j9964324127022_3_alg».proof.Proof.KI.KernelValue
import proofs.«418636_j9964324127022_3_alg».proof.Proof.RefValue
import proofs.«418636_j9964324127022_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The two programs' results from agreeing, finite arguments are one array: index by index the kernel's online
    quotient and the reference's softmax row are the same real number. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v30 (F := Ideal) m' c
      = Cert.KernelIdeal.Hand.W3 (F := Ideal) m ρ c (Proc.devRef .tc Cert.KernelIdeal.main_v15) := by
  rw [Cert.ReferenceIdeal.Read.val_main_v30_eq, h0, h1, h2, h3, h4, h5]
  obtain ⟨f0, f2, f3, f4, f5⟩ := Cert.Finite.finite_of_pre _ _ _ _ _ _ hpre
  have fb := Cert.KernelIdeal.HostVals.bias_fin (m ((c.tc : Thread Cert.KernelIdeal.nD Cert.KernelIdeal.τ).loc Cert.KernelIdeal.main_arg1))
    (m ((c.tc : Thread Cert.KernelIdeal.nD Cert.KernelIdeal.τ).loc Cert.KernelIdeal.main_arg5)) f5
  obtain ⟨M, hM⟩ := Cert.RefValue.ref_value
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    ((1 : ℝ) / 32) Cert.Consts.ofBits_scale f0 f2 f3 f4 fb
  funext i
  obtain ⟨r, d, rfl⟩ : ∃ (r : Fin 8192) (d : Fin 1024), i = ix2 r d := ⟨i 0, i 1, eq_ix2 i⟩
  obtain ⟨mm, hmm⟩ := Cert.KernelIdeal.HandVal.kernel_value m ρ c f0 f2 f3 f4 fb r d
  refine (hM r d).trans (Eq.trans ?_ hmm.symm)
  rw [Cert.Spec.online_eq_softmax _ _ mm (M r.val)]
  congr 2
  funext col
  exact (Cert.Spec.scoreK_eq _ _ _ _ _ _ _).symm

theorem algebraic : Cert.algebraic_KernelIdeal_ReferenceIdeal := by
  intro m ρ m' ρ' hpre hagree
  refine ⟨fun c => Cert.KernelIdeal.Hand.W3 (F := Ideal) m ρ c (Proc.devRef .tc Cert.KernelIdeal.main_v15), ?_, ?_⟩
  · exact (θ_run Cert.KernelIdeal.defs _ _).mono (fun _ h c =>
      ⟨h c _ (Cert.KernelIdeal.Hand.mem_uc Cert.KernelIdeal.main_v15 (by decide)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c),
       (h c _ (Cert.KernelIdeal.Hand.mem_uc Cert.KernelIdeal.main_arg4 (by decide))).trans (Cert.KernelIdeal.Hand.W3_main_arg4 m ρ c),
       (h c _ (Cert.KernelIdeal.Hand.mem_uc Cert.KernelIdeal.main_arg5 (by decide))).trans (Cert.KernelIdeal.Hand.W3_main_arg5 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    exact result_eq m ρ m' c (hpre c) (hagree c).1 (hagree c).2.1 (hagree c).2.2.1 (hagree c).2.2.2.1 (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
